-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S2048x64 : Shape := ⟨2, ![2048, 64]⟩
abbrev S4096x4096 : Shape := ⟨2, ![4096, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x4096 .f32) (main_arg6 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  main_v33

def fn {F : FTy → Type} [FloatOps F] (main_arg0 : FVec F S2x2048x4096 .f32) (main_arg1 : FVec F S2048x64 .f32) (main_arg2 : FVec F S2048x64 .f32) (main_arg3 : FVec F S4096x4096 .f32) (main_arg4 : FVec F S4096x4096 .f32) (main_arg5 : FVec F S4096x4096 .f32) (main_arg6 : FVec F S4096x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S2x2048x4096 : Shape := ⟨3, ![2, 2048, 4096]⟩
abbrev S2048x64 : Shape := ⟨2, ![2048, 64]⟩
abbrev S4096x4096 : Shape := ⟨2, ![4096, 4096]⟩
abbrev S256x4096 : Shape := ⟨2, ![256, 4096]⟩
abbrev S4096x256 : Shape := ⟨2, ![4096, 256]⟩
abbrev S2048x128 : Shape := ⟨2, ![2048, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 20
  | .vmem => 29
  | .smem => 0
  | _ => 0

abbrev bufTy : (tb : Table) → Fin (tcTables nBuf tb) → BufTy
  | .hbm, ⟨0, _⟩ => ⟨S2x2048x4096, .f32⟩
  | .hbm, ⟨1, _⟩ => ⟨S2048x64, .f32⟩
  | .hbm, ⟨2, _⟩ => ⟨S2048x64, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x4096, .bf16⟩
  | .hbm, ⟨10, _⟩ => ⟨S4096x4096, .bf16⟩
  | .hbm, ⟨11, _⟩ => ⟨S4096x4096, .bf16⟩
  | .hbm, ⟨12, _⟩ => ⟨S4096x4096, .bf16⟩
  | .hbm, ⟨13, _⟩ => ⟨S4096x4096, .bf16⟩
  | .hbm, ⟨14, _⟩ => ⟨S4096x4096, .bf16⟩
  | .hbm, ⟨15, _⟩ => ⟨S4096x4096, .bf16⟩
  | .hbm, ⟨16, _⟩ => ⟨S2048x128, .f32⟩
  | .hbm, ⟨17, _⟩ => ⟨S4096x4096, .bf16⟩
  | .hbm, ⟨18, _⟩ => ⟨S4096x4096, .f32⟩
  | .hbm, ⟨19, _⟩ => ⟨S2x2048x4096, .f32⟩
  | .local _ .vmem, ⟨0, _⟩ => ⟨S4096x4096, .bf16⟩
  | .local _ .vmem, ⟨1, _⟩ => ⟨S256x4096, .bf16⟩
  | .local _ .vmem, ⟨2, _⟩ => ⟨S256x4096, .bf16⟩
  | .local _ .vmem, ⟨3, _⟩ => ⟨S4096x256, .bf16⟩
  | .local _ .vmem, ⟨4, _⟩ => ⟨S4096x256, .bf16⟩
  | .local _ .vmem, ⟨5, _⟩ => ⟨S4096x4096, .bf16⟩
  | .local _ .vmem, ⟨6, _⟩ => ⟨S256x4096, .bf16⟩
  | .local _ .vmem, ⟨7, _⟩ => ⟨S256x4096, .bf16⟩
  | .local _ .vmem, ⟨8, _⟩ => ⟨S4096x256, .bf16⟩
  | .local _ .vmem, ⟨9, _⟩ => ⟨S4096x256, .bf16⟩
  | .local _ .vmem, ⟨10, _⟩ => ⟨S4096x4096, .bf16⟩
  | .local _ .vmem, ⟨11, _⟩ => ⟨S256x4096, .bf16⟩
  | .local _ .vmem, ⟨12, _⟩ => ⟨S256x4096, .bf16⟩
  | .local _ .vmem, ⟨13, _⟩ => ⟨S4096x256, .bf16⟩
  | .local _ .vmem, ⟨14, _⟩ => ⟨S4096x256, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .f32⟩
  | .local _ .vmem, ⟨22, _⟩ => ⟨S2048x128, .bf16⟩
  | .local _ .vmem, ⟨23, _⟩ => ⟨S2048x128, .bf16⟩
  | .local _ .vmem, ⟨24, _⟩ => ⟨S4096x4096, .bf16⟩
  | .local _ .vmem, ⟨25, _⟩ => ⟨S256x4096, .bf16⟩
  | .local _ .vmem, ⟨26, _⟩ => ⟨S256x4096, .bf16⟩
  | .local _ .vmem, ⟨27, _⟩ => ⟨S4096x256, .f32⟩
  | .local _ .vmem, ⟨28, _⟩ => ⟨S4096x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S4096x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S2048x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S2048x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S4096x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S256x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S2x2048x4096_S4096x4096 : S2x2048x4096.ShapeCasts S4096x4096
  bitsLt_bf16_f32 : FTy.bits .bf16 < FTy.bits .f32
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  concatenates_S2048x64_S2048x64_S2048x128_d1 : Shape.Concatenates [S2048x64, S2048x64] S2048x128 1
  inb_S2048x128_S2048x64_0_0 : ∀ a, (![0, 0] : Fin 2 → Nat) a + S2048x64.size a ≤ S2048x128.size a
  h_S2048x64 : 0 < S2048x64.numel
  shapeCasts_S2048x64_S2048x64 : S2048x64.ShapeCasts S2048x64
  inb_S2048x128_S2048x64_0_64 : ∀ a, (![0, 64] : Fin 2 → Nat) a + S2048x64.size a ≤ S2048x128.size a
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S2048x128_o0_0_S2048x64 : S2048x128.Slices ![0, 0] S2048x64
  slices_S2048x128_o0_64_S2048x64 : S2048x128.Slices ![0, 64] S2048x64
  slices_S2048x128_o0_0_S512x128 : S2048x128.Slices ![0, 0] S512x128
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x128 : S512x1.Broadcasts S512x128
  inb_S2048x128_S512x128_0_0 : ∀ a, (![0, 0] : Fin 2 → Nat) a + S512x128.size a ≤ S2048x128.size a
  h_S512x128 : 0 < S512x128.numel
  packedbf16_S2048x128_S512x128_0_0 : (Rect.unit (s := S2048x128) ![0, 0] S512x128.size inb_S2048x128_S512x128_0_0).PackedRows (EltTy.packing .bf16)
  slices_S2048x128_o512_0_S512x128 : S2048x128.Slices ![512, 0] S512x128
  inb_S2048x128_S512x128_512_0 : ∀ a, (![512, 0] : Fin 2 → Nat) a + S512x128.size a ≤ S2048x128.size a
  packedbf16_S2048x128_S512x128_512_0 : (Rect.unit (s := S2048x128) ![512, 0] S512x128.size inb_S2048x128_S512x128_512_0).PackedRows (EltTy.packing .bf16)
  slices_S2048x128_o1024_0_S512x128 : S2048x128.Slices ![1024, 0] S512x128
  inb_S2048x128_S512x128_1024_0 : ∀ a, (![1024, 0] : Fin 2 → Nat) a + S512x128.size a ≤ S2048x128.size a
  packedbf16_S2048x128_S512x128_1024_0 : (Rect.unit (s := S2048x128) ![1024, 0] S512x128.size inb_S2048x128_S512x128_1024_0).PackedRows (EltTy.packing .bf16)
  slices_S2048x128_o1536_0_S512x128 : S2048x128.Slices ![1536, 0] S512x128
  inb_S2048x128_S512x128_1536_0 : ∀ a, (![1536, 0] : Fin 2 → Nat) a + S512x128.size a ≤ S2048x128.size a
  packedbf16_S2048x128_S512x128_1536_0 : (Rect.unit (s := S2048x128) ![1536, 0] S512x128.size inb_S2048x128_S512x128_1536_0).PackedRows (EltTy.packing .bf16)
  shapeCasts_S4096x4096_S2x2048x4096 : S4096x4096.ShapeCasts S2x2048x4096
  dot_S4096x4096_S256x4096_S4096x256_1_1_0_0_n_n_wf : DotDims.WF S4096x4096 S256x4096 S4096x256 [1] [1] [0] [0] [] []
  dot_S512x128_S512x128_S512x512_1_1_0_0_n_n_wf : DotDims.WF S512x128 S512x128 S512x512 [1] [1] [0] [0] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x4096.size a ≤ S4096x4096.size a
  hwx0_0 : ∀ i : grid0.Coords, EltTy.bits .bf16 = 32 ∨ (Rect.block (s := S4096x4096) S4096x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x4096.size a
  hwx0_2 : ∀ i : grid0.Coords, EltTy.bits .bf16 = 32 ∨ (Rect.block (s := S4096x4096) S4096x256.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x4096.size a ≤ S4096x4096.size a
  hwx1_0 : ∀ i : grid1.Coords, EltTy.bits .bf16 = 32 ∨ (Rect.block (s := S4096x4096) S4096x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x4096.size a
  hwx1_2 : ∀ i : grid1.Coords, EltTy.bits .bf16 = 32 ∨ (Rect.block (s := S4096x4096) S4096x256.size (cc1_transform_2 i) (hinb1_2 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x4096.size a ≤ S4096x4096.size a
  hwx2_0 : ∀ i : grid2.Coords, EltTy.bits .bf16 = 32 ∨ (Rect.block (s := S4096x4096) S4096x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S4096x4096.size a
  hwx2_1 : ∀ i : grid2.Coords, EltTy.bits .bf16 = 32 ∨ (Rect.block (s := S4096x4096) S256x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S4096x4096.size a
  hwx2_2 : ∀ i : grid2.Coords, EltTy.bits .bf16 = 32 ∨ (Rect.block (s := S4096x4096) S4096x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S4096x4096.size a
  hwx3_0 : ∀ i : grid3.Coords, EltTy.bits .bf16 = 32 ∨ (Rect.block (s := S4096x4096) S2048x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S4096x4096.size a
  hwx3_1 : ∀ i : grid3.Coords, EltTy.bits .bf16 = 32 ∨ (Rect.block (s := S4096x4096) S2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S4096x4096.size a
  hwx3_2 : ∀ i : grid3.Coords, EltTy.bits .bf16 = 32 ∨ (Rect.block (s := S4096x4096) S2048x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S2048x128.size a
  hwx3_3 : ∀ i : grid3.Coords, EltTy.bits .f32 = 32 ∨ (Rect.block (s := S2048x128) S2048x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x128.size a ≤ S4096x4096.size a
  hwx3_4 : ∀ i : grid3.Coords, EltTy.bits .bf16 = 32 ∨ (Rect.block (s := S4096x4096) S2048x128.size (cc3_transform_4 i) (hinb3_4 i)).WholeWords (EltTy.packing .bf16)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S4096x4096.size a ≤ S4096x4096.size a
  hwx4_0 : ∀ i : grid4.Coords, EltTy.bits .bf16 = 32 ∨ (Rect.block (s := S4096x4096) S4096x4096.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x4096.size a ≤ S4096x4096.size a
  hwx4_1 : ∀ i : grid4.Coords, EltTy.bits .bf16 = 32 ∨ (Rect.block (s := S4096x4096) S256x4096.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x256.size a ≤ S4096x4096.size a
  hwx4_2 : ∀ i : grid4.Coords, EltTy.bits .f32 = 32 ∨ (Rect.block (s := S4096x4096) S4096x256.size (cc4_transform_2 i) (hinb4_2 i)).WholeWords (EltTy.packing .f32)

variable [Facts₀]

def dot_S4096x4096_S256x4096_S4096x256_1_1_0_0_n_n : DotDims S4096x4096 S256x4096 S4096x256 where
  lhsContracting := [1]
  rhsContracting := [1]
  lhsNonContracting := [0]
  rhsNonContracting := [0]
  lhsBatch := []
  rhsBatch := []
  wf := dot_S4096x4096_S256x4096_S4096x256_1_1_0_0_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v1) S4096x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S4096x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S4096x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v4) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S4096x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v6) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S2048x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S2048x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v10) S4096x4096.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v5) S256x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S4096x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x2048x4096 : Shape := ⟨3, ![2, 2048, 4096]⟩
abbrev S2048x64 : Shape := ⟨2, ![2048, 64]⟩
abbrev S4096x4096 : Shape := ⟨2, ![4096, 4096]⟩
abbrev S2x2048x32x128 : Shape := ⟨4, ![2, 2048, 32, 128]⟩
abbrev S2x32x2048x128 : Shape := ⟨4, ![2, 32, 2048, 128]⟩
abbrev S2x32x2048x64 : Shape := ⟨4, ![2, 32, 2048, 64]⟩
abbrev S1x1x2048x64 : Shape := ⟨4, ![1, 1, 2048, 64]⟩
abbrev S2x32x2048x2048 : Shape := ⟨4, ![2, 32, 2048, 2048]⟩
abbrev S_ : Shape := ⟨0, ![]⟩
abbrev S2048x2048 : Shape := ⟨2, ![2048, 2048]⟩
abbrev S1x1x2048x2048 : Shape := ⟨4, ![1, 1, 2048, 2048]⟩
abbrev S2x32x2048 : Shape := ⟨3, ![2, 32, 2048]⟩
abbrev S2x32x2048x1 : Shape := ⟨4, ![2, 32, 2048, 1]⟩

abbrev nBuf : Space → Nat
  | .hbm => 85
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2048x64, .f32⟩
  | .hbm, ⟨2, _⟩ => ⟨S2048x64, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S2x2048x4096, .f32⟩
  | .hbm, ⟨8, _⟩ => ⟨S2x2048x32x128, .f32⟩
  | .hbm, ⟨9, _⟩ => ⟨S2x32x2048x128, .f32⟩
  | .hbm, ⟨10, _⟩ => ⟨S2x2048x4096, .f32⟩
  | .hbm, ⟨11, _⟩ => ⟨S2x2048x32x128, .f32⟩
  | .hbm, ⟨12, _⟩ => ⟨S2x32x2048x128, .f32⟩
  | .hbm, ⟨13, _⟩ => ⟨S2x2048x4096, .f32⟩
  | .hbm, ⟨14, _⟩ => ⟨S2x2048x32x128, .f32⟩
  | .hbm, ⟨15, _⟩ => ⟨S2x32x2048x128, .f32⟩
  | .hbm, ⟨16, _⟩ => ⟨S2x32x2048x64, .f32⟩
  | .hbm, ⟨17, _⟩ => ⟨S2x32x2048x64, .f32⟩
  | .hbm, ⟨18, _⟩ => ⟨S1x1x2048x64, .f32⟩
  | .hbm, ⟨19, _⟩ => ⟨S1x1x2048x64, .f32⟩
  | .hbm, ⟨20, _⟩ => ⟨S2x32x2048x64, .f32⟩
  | .hbm, ⟨21, _⟩ => ⟨S2x32x2048x64, .f32⟩
  | .hbm, ⟨22, _⟩ => ⟨S2x32x2048x64, .f32⟩
  | .hbm, ⟨23, _⟩ => ⟨S2x32x2048x64, .f32⟩
  | .hbm, ⟨24, _⟩ => ⟨S2x32x2048x64, .f32⟩
  | .hbm, ⟨25, _⟩ => ⟨S2x32x2048x64, .f32⟩
  | .hbm, ⟨26, _⟩ => ⟨S2x32x2048x64, .f32⟩
  | .hbm, ⟨27, _⟩ => ⟨S2x32x2048x64, .f32⟩
  | .hbm, ⟨28, _⟩ => ⟨S2x32x2048x64, .f32⟩
  | .hbm, ⟨29, _⟩ => ⟨S2x32x2048x64, .f32⟩
  | .hbm, ⟨30, _⟩ => ⟨S2x32x2048x128, .f32⟩
  | .hbm, ⟨31, _⟩ => ⟨S2x32x2048x64, .f32⟩
  | .hbm, ⟨32, _⟩ => ⟨S2x32x2048x64, .f32⟩
  | .hbm, ⟨33, _⟩ => ⟨S1x1x2048x64, .f32⟩
  | .hbm, ⟨34, _⟩ => ⟨S1x1x2048x64, .f32⟩
  | .hbm, ⟨35, _⟩ => ⟨S2x32x2048x64, .f32⟩
  | .hbm, ⟨36, _⟩ => ⟨S2x32x2048x64, .f32⟩
  | .hbm, ⟨37, _⟩ => ⟨S2x32x2048x64, .f32⟩
  | .hbm, ⟨38, _⟩ => ⟨S2x32x2048x64, .f32⟩
  | .hbm, ⟨39, _⟩ => ⟨S2x32x2048x64, .f32⟩
  | .hbm, ⟨40, _⟩ => ⟨S2x32x2048x64, .f32⟩
  | .hbm, ⟨41, _⟩ => ⟨S2x32x2048x64, .f32⟩
  | .hbm, ⟨42, _⟩ => ⟨S2x32x2048x64, .f32⟩
  | .hbm, ⟨43, _⟩ => ⟨S2x32x2048x64, .f32⟩
  | .hbm, ⟨44, _⟩ => ⟨S2x32x2048x64, .f32⟩
  | .hbm, ⟨45, _⟩ => ⟨S2x32x2048x128, .f32⟩
  | .hbm, ⟨46, _⟩ => ⟨S2x32x2048x2048, .f32⟩
  | .hbm, ⟨47, _⟩ => ⟨S_, .f32⟩
  | .hbm, ⟨48, _⟩ => ⟨S2x32x2048x2048, .f32⟩
  | .hbm, ⟨49, _⟩ => ⟨S2x32x2048x2048, .f32⟩
  | .hbm, ⟨50, _⟩ => ⟨S_, .i1⟩
  | .hbm, ⟨51, _⟩ => ⟨S2048x2048, .i1⟩
  | .hbm, ⟨52, _⟩ => ⟨S2048x2048, .i32⟩
  | .hbm, ⟨53, _⟩ => ⟨S_, .i32⟩
  | .hbm, ⟨54, _⟩ => ⟨S2048x2048, .i32⟩
  | .hbm, ⟨55, _⟩ => ⟨S2048x2048, .i32⟩
  | .hbm, ⟨56, _⟩ => ⟨S2048x2048, .i32⟩
  | .hbm, ⟨57, _⟩ => ⟨S2048x2048, .i1⟩
  | .hbm, ⟨58, _⟩ => ⟨S_, .i1⟩
  | .hbm, ⟨59, _⟩ => ⟨S2048x2048, .i1⟩
  | .hbm, ⟨60, _⟩ => ⟨S2048x2048, .i1⟩
  | .hbm, ⟨61, _⟩ => ⟨S1x1x2048x2048, .i1⟩
  | .hbm, ⟨62, _⟩ => ⟨S_, .f32⟩
  | .hbm, ⟨63, _⟩ => ⟨S_, .f32⟩
  | .hbm, ⟨64, _⟩ => ⟨S2x32x2048x2048, .i1⟩
  | .hbm, ⟨65, _⟩ => ⟨S2x32x2048x2048, .f32⟩
  | .hbm, ⟨66, _⟩ => ⟨S2x32x2048x2048, .f32⟩
  | .hbm, ⟨67, _⟩ => ⟨S_, .f32⟩
  | .hbm, ⟨68, _⟩ => ⟨S2x32x2048, .f32⟩
  | .hbm, ⟨69, _⟩ => ⟨S_, .f32⟩
  | .hbm, ⟨70, _⟩ => ⟨S2x32x2048, .f32⟩
  | .hbm, ⟨71, _⟩ => ⟨S2x32x2048, .f32⟩
  | .hbm, ⟨72, _⟩ => ⟨S2x32x2048x1, .f32⟩
  | .hbm, ⟨73, _⟩ => ⟨S2x32x2048x2048, .f32⟩
  | .hbm, ⟨74, _⟩ => ⟨S2x32x2048x2048, .f32⟩
  | .hbm, ⟨75, _⟩ => ⟨S2x32x2048x2048, .f32⟩
  | .hbm, ⟨76, _⟩ => ⟨S_, .f32⟩
  | .hbm, ⟨77, _⟩ => ⟨S2x32x2048, .f32⟩
  | .hbm, ⟨78, _⟩ => ⟨S2x32x2048x1, .f32⟩
  | .hbm, ⟨79, _⟩ => ⟨S2x32x2048x2048, .f32⟩
  | .hbm, ⟨80, _⟩ => ⟨S2x32x2048x2048, .f32⟩
  | .hbm, ⟨81, _⟩ => ⟨S2x32x2048x128, .f32⟩
  | .hbm, ⟨82, _⟩ => ⟨S2x2048x32x128, .f32⟩
  | .hbm, ⟨83, _⟩ => ⟨S2x2048x4096, .f32⟩
  | .hbm, ⟨84, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst : Ref sig .tc := ⟨.hbm, 47, rfl⟩
abbrev main_v40 : Ref sig .tc := ⟨.hbm, 48, rfl⟩
abbrev main_v41 : Ref sig .tc := ⟨.hbm, 49, rfl⟩
abbrev main_c : Ref sig .tc := ⟨.hbm, 50, rfl⟩
abbrev main_v42 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_0 : Ref sig .tc := ⟨.hbm, 58, rfl⟩
abbrev main_call0_v5 : Ref sig .tc := ⟨.hbm, 59, rfl⟩
abbrev main_v43 : Ref sig .tc := ⟨.hbm, 60, rfl⟩
abbrev main_v44 : Ref sig .tc := ⟨.hbm, 61, rfl⟩
abbrev main_cst_0 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v45 : Ref sig .tc := ⟨.hbm, 66, rfl⟩
abbrev main_cst_1 : Ref sig .tc := ⟨.hbm, 67, rfl⟩
abbrev main_v46 : Ref sig .tc := ⟨.hbm, 68, rfl⟩
abbrev main_cst_2 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_3 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  shapeCasts_S2x2048x4096_S2x2048x32x128 : S2x2048x4096.ShapeCasts S2x2048x32x128
  transposes_S2x2048x32x128_S2x32x2048x128_0_2_1_3 : S2x2048x32x128.Transposes [0, 2, 1, 3] S2x32x2048x128
  slices_S2x32x2048x128_S2x32x2048x64_0_0_0_0 : S2x32x2048x128.Slices ![0, 0, 0, 0] S2x32x2048x64
  slices_S2x32x2048x128_S2x32x2048x64_0_0_0_64 : S2x32x2048x128.Slices ![0, 0, 0, 64] S2x32x2048x64
  bcast_S2048x64_S1x1x2048x64_2_3 : S2048x64.BroadcastsInDim S1x1x2048x64 (![2, 3] : Fin 2 → Fin S1x1x2048x64.rank)
  bcast_S1x1x2048x64_S2x32x2048x64_0_1_2_3 : S1x1x2048x64.BroadcastsInDim S2x32x2048x64 (![0, 1, 2, 3] : Fin 4 → Fin S2x32x2048x64.rank)
  concatenates_S2x32x2048x64_S2x32x2048x64_S2x32x2048x128_d3 : Shape.Concatenates [S2x32x2048x64, S2x32x2048x64] S2x32x2048x128 3
  bcast_S_S2x32x2048x2048 : S_.BroadcastsInDim S2x32x2048x2048 (![] : Fin 0 → Fin S2x32x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x32x2048x2048_0_1_2_3 : S1x1x2048x2048.BroadcastsInDim S2x32x2048x2048 (![0, 1, 2, 3] : Fin 4 → Fin S2x32x2048x2048.rank)
  reducesTo_S2x32x2048x2048_S2x32x2048_d3 : S2x32x2048x2048.ReducesTo [3] S2x32x2048
  h_S_ : 0 < S_.numel
  bcast_S_S2x32x2048 : S_.BroadcastsInDim S2x32x2048 (![] : Fin 0 → Fin S2x32x2048.rank)
  bcast_S2x32x2048_S2x32x2048x1_0_1_2 : S2x32x2048.BroadcastsInDim S2x32x2048x1 (![0, 1, 2] : Fin 3 → Fin S2x32x2048x1.rank)
  bcast_S2x32x2048x1_S2x32x2048x2048_0_1_2_3 : S2x32x2048x1.BroadcastsInDim S2x32x2048x2048 (![0, 1, 2, 3] : Fin 4 → Fin S2x32x2048x2048.rank)
  transposes_S2x32x2048x128_S2x2048x32x128_0_2_1_3 : S2x32x2048x128.Transposes [0, 2, 1, 3] S2x2048x32x128
  shapeCasts_S2x2048x32x128_S2x2048x4096 : S2x2048x32x128.ShapeCasts S2x2048x4096
  dot_S2x2048x4096_S4096x4096_S2x2048x4096_2_1_01_0_n_n_wf : DotDims.WF S2x2048x4096 S4096x4096 S2x2048x4096 [2] [1] [0, 1] [0] [] []
  dot_S2x32x2048x128_S2x32x2048x128_S2x32x2048x2048_3_3_2_2_01_01_wf : DotDims.WF S2x32x2048x128 S2x32x2048x128 S2x32x2048x2048 [3] [3] [2] [2] [0, 1] [0, 1]
  dot_S2x32x2048x2048_S2x32x2048x128_S2x32x2048x128_3_2_2_3_01_01_wf : DotDims.WF S2x32x2048x2048 S2x32x2048x128 S2x32x2048x128 [3] [2] [2] [3] [0, 1] [0, 1]

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf
def dot_S2x32x2048x128_S2x32x2048x128_S2x32x2048x2048_3_3_2_2_01_01 : DotDims S2x32x2048x128 S2x32x2048x128 S2x32x2048x2048 where
  lhsContracting := [3]
  rhsContracting := [3]
  lhsNonContracting := [2]
  rhsNonContracting := [2]
  lhsBatch := [0, 1]
  rhsBatch := [0, 1]
  wf := dot_S2x32x2048x128_S2x32x2048x128_S2x32x2048x2048_3_3_2_2_01_01_wf
def dot_S2x32x2048x2048_S2x32x2048x128_S2x32x2048x128_3_2_2_3_01_01 : DotDims S2x32x2048x2048 S2x32x2048x128 S2x32x2048x128 where
  lhsContracting := [3]
  rhsContracting := [2]
  lhsNonContracting := [2]
  rhsNonContracting := [3]
  lhsBatch := [0, 1]
  rhsBatch := [0, 1]
  wf := dot_S2x32x2048x2048_S2x32x2048x128_S2x32x2048x128_3_2_2_3_01_01_wf

class Facts : Prop extends Facts₀ where

variable [Facts]
-- ==== Proof.Spec.lean ====
/-
  The mathematics both programs compute, over the extended reals.

  The hidden width 4096 is 32 heads of 128 features. From the input x (2 × 2048 positions × 4096) and four square
  weight matrices: Q = x·wqᵀ, K = x·wkᵀ, V = x·wvᵀ (position rows b·2048 + s, feature columns h·128 + j). Per batch b
  and head h, the 2048 × 128 blocks of Q and K are rotated pairwise (feature j with feature j + 64) by the
  position's cosines and sines; the scores are the rotated blocks' inner products times a fixed scale, a key position
  after the query position scoring −∞; each query row's scores go through the softmax, and the result weights the
  rows of V's block. The heads' outputs, side by side, are multiplied by woᵀ.

  Two forms of one head's attention are stated: the softmax over a whole row of 2048 scores (`softAV`), and the
  streaming form that visits the keys in tiles of 512, keeping a running maximum, a running sum of exponentials and a
  running weighted sum of value rows, rescaled whenever the maximum grows (`FS`, `fstep`, `flashRow`).
-/
import Idealize.ShloMosaic.PureOps.Ideal
import Idealize.ShloMosaic.Lib.ValueIdx

noncomputable section

open scoped BigOperators

namespace Cert.Spec

open Idealize.ShloMosaic Idealize.ShloMosaic.ValueIdx

/-- 4096 × 4096 matrices: position rows (b·2048 + s) or weight rows, feature columns. -/
abbrev SM : Shape := ⟨2, ![4096, 4096]⟩
/-- One head's block: 2048 positions × 128 features. -/
abbrev SR : Shape := ⟨2, ![2048, 128]⟩
/-- The cosine and the sine table: 2048 positions × 64 feature pairs. -/
abbrev SC : Shape := ⟨2, ![2048, 64]⟩
/-- The input and the result: 2 batches × 2048 positions × 4096 features. -/
abbrev S3 : Shape := ⟨3, ![2, 2048, 4096]⟩

/-- An array of extended reals over a shape. -/
abbrev Mat (S : Shape) : Type := S.Idx → EReal

/-- x·wᵀ: entry (r, e) is the sum over d of x(r, d)·w(e, d). -/
def mmT (x w : Mat SM) : Mat SM := fun i => ∑ d : Fin 4096, x (ix2 (i 0) d) * w (ix2 (i 1) d)

/-- The batch and position axes flattened into one row axis: row b·2048 + s. -/
def flat (x : Mat S3) : Mat SM := fun i =>
  x (ix3 (⟨(i 0).val / 2048, by have h0 : (i 0).val < 4096 := (i 0).isLt; omega⟩ : Fin 2) (⟨(i 0).val % 2048, by omega⟩ : Fin 2048) (i 1))

/-- The row axis split back into batch and position. -/
def unflat (y : Mat SM) : Mat S3 := fun i =>
  y (ix2 (⟨(i 0).val * 2048 + (i 1).val, by have h0 : (i 0).val < 2 := (i 0).isLt; have h1 : (i 1).val < 2048 := (i 1).isLt; omega⟩ : Fin 4096) (i 2))

/-- The cosine table and the sine table side by side: columns 0..63 the cosines, 64..127 the sines. -/
def cat (a b : Mat SC) : Mat SR := fun i =>
  if h : (i 1).val < 64 then a (ix2 (i 0) (⟨(i 1).val, h⟩ : Fin 64))
  else b (ix2 (i 0) (⟨(i 1).val - 64, by have h1 : (i 1).val < 128 := (i 1).isLt; omega⟩ : Fin 64))

/-- Batch b's and head h's block of a 4096 × 4096 array: rows b·2048 .. b·2048 + 2047, columns h·128 .. h·128 + 127. -/
def blockOf (a : Mat SM) (b : Fin 2) (h : Fin 32) : Mat SR := fun y =>
  a (ix2 (⟨b.val * 2048 + (y 0).val, by have hb := b.isLt; have h0 : (y 0).val < 2048 := (y 0).isLt; omega⟩ : Fin 4096)
         (⟨h.val * 128 + (y 1).val, by have hh := h.isLt; have h1 : (y 1).val < 128 := (y 1).isLt; omega⟩ : Fin 4096))

/-- The rotation of a block by the packed table rp (cosines | sines): for j < 64,
    t(s, j)·cos(s, j) − t(s, j + 64)·sin(s, j); for j ≥ 64, t(s, j)·cos(s, j − 64) + t(s, j − 64)·sin(s, j − 64). -/
def ropeB (t rp : Mat SR) : Mat SR := fun i =>
  if h : (i 1).val < 64 then
    t (ix2 (i 0) (⟨(i 1).val, by omega⟩ : Fin 128)) * rp (ix2 (i 0) (⟨(i 1).val, by omega⟩ : Fin 128))
      - t (ix2 (i 0) (⟨(i 1).val + 64, by omega⟩ : Fin 128)) * rp (ix2 (i 0) (⟨(i 1).val + 64, by omega⟩ : Fin 128))
  else
    t (ix2 (i 0) (⟨(i 1).val, (i 1).isLt⟩ : Fin 128)) * rp (ix2 (i 0) (⟨(i 1).val - 64, by have h1 : (i 1).val < 128 := (i 1).isLt; omega⟩ : Fin 128))
      + t (ix2 (i 0) (⟨(i 1).val - 64, by have h1 : (i 1).val < 128 := (i 1).isLt; omega⟩ : Fin 128)) * rp (ix2 (i 0) (⟨(i 1).val, (i 1).isLt⟩ : Fin 128))

/-- The score scale: the single-precision number nearest 128^(−1/2), as both programs spell it. -/
def scale : EReal := Ideal.ofBits .f32 0x3DB504F3#32

/-- The score of query position i against key position j. -/
def scoreB (q k : Mat SR) (i j : Fin 2048) : EReal := (∑ d : Fin 128, q (ix2 i d) * k (ix2 j d)) * scale

/-- The causal score: −∞ for a key after the query. -/
def mscoreB (q k : Mat SR) (i j : Fin 2048) : EReal := if j.val ≤ i.val then scoreB q k i j else ⊥

/-- The softmax of a row of scores, weighting a column of values. -/
def softAV (s : Fin 2048 → EReal) (v : Fin 2048 → EReal) : EReal :=
  ∑ j : Fin 2048, Ideal.div (Ideal.exp (s j - Finset.univ.fold max ⊥ s))
      (∑ j' : Fin 2048, Ideal.exp (s j' - Finset.univ.fold max ⊥ s)) * v j

/-- One head's attention on blocks already rotated. -/
def headRot (q k v : Mat SR) : Mat SR := fun y => softAV (fun j => mscoreB q k (y 0) j) (fun j => v (ix2 j (y 1)))

/-- One head's attention: rotate the query and key blocks, then attend. -/
def headB (q k v rp : Mat SR) : Mat SR := headRot (ropeB q rp) (ropeB k rp) v

/-! ## The streaming form -/

/-- The running state of one query row: maximum so far, sum of exponentials, weighted sum of value rows. -/
structure FS where
  m : EReal
  l : EReal
  acc : Fin 128 → EReal

/-- Before any key: maximum −∞, sums zero. -/
def fs0 : FS := ⟨⊥, 0, fun _ => 0⟩

/-- Visit one tile of 512 keys with scores s and value rows vt. -/
def fstep (st : FS) (s : Fin 512 → EReal) (vt : Fin 512 → Fin 128 → EReal) : FS :=
  ⟨max st.m (Finset.univ.fold max ⊥ s),
   Ideal.exp (st.m - max st.m (Finset.univ.fold max ⊥ s)) * st.l
     + ∑ c : Fin 512, Ideal.exp (s c - max st.m (Finset.univ.fold max ⊥ s)),
   fun d => Ideal.exp (st.m - max st.m (Finset.univ.fold max ⊥ s)) * st.acc d
     + ∑ c : Fin 512, Ideal.exp (s c - max st.m (Finset.univ.fold max ⊥ s)) * vt c d⟩

/-- The row's result: the weighted sum over the sum of exponentials. -/
def fout (st : FS) (d : Fin 128) : EReal := Ideal.div (st.acc d) st.l

/-- Position a·512 + r of a block of 2048 positions. -/
def pos (a : Fin 4) (r : Fin 512) : Fin 2048 := ⟨a.val * 512 + r.val, by have := a.isLt; have := r.isLt; omega⟩

/-- The scores of query row r of query tile a against key tile b (b ≤ a): on the diagonal tile a key column after
    the query row scores −∞; below the diagonal every key is before every query. -/
def tileScore (q k : Mat SR) (a b : Fin 4) (r : Fin 512) : Fin 512 → EReal := fun c =>
  if b = a then (if c.val ≤ r.val then scoreB q k (pos a r) (pos b c) else ⊥) else scoreB q k (pos a r) (pos b c)

/-- Key tile b's value rows. -/
def tileVal (v : Mat SR) (b : Fin 4) : Fin 512 → Fin 128 → EReal := fun c d => v (ix2 (pos b c) d)

/-- The state of query row r of query tile a after key tiles 0 .. n − 1. -/
def flashState (q k v : Mat SR) (a : Fin 4) (r : Fin 512) : Nat → FS
  | 0 => fs0
  | n + 1 => fstep (flashState q k v a r n) (tileScore q k a (⟨n % 4, Nat.mod_lt _ (by decide)⟩ : Fin 4) r)
      (tileVal v (⟨n % 4, Nat.mod_lt _ (by decide)⟩ : Fin 4))

/-- The streaming attention on rotated blocks: query tile a visits key tiles 0 .. a. -/
def flashRot (q k v : Mat SR) : Mat SR := fun y =>
  fout (flashState q k v (⟨(y 0).val / 512, by have h0 : (y 0).val < 2048 := (y 0).isLt; omega⟩ : Fin 4)
        (⟨(y 0).val % 512, Nat.mod_lt _ (by decide)⟩ : Fin 512) ((y 0).val / 512 + 1)) (y 1)

/-- The streaming attention of one head. -/
def flashB (q k v rp : Mat SR) : Mat SR := flashRot (ropeB q rp) (ropeB k rp) v

/-! ## All heads, and the whole computation -/

/-- A per-head block function applied to every (batch, head) block of three 4096 × 4096 arrays. -/
def perHead (f : Mat SR → Mat SR → Mat SR → Mat SR → Mat SR) (q k v : Mat SM) (rp : Mat SR) : Mat SM := fun i =>
  f (blockOf q (⟨(i 0).val / 2048, by have h0 : (i 0).val < 4096 := (i 0).isLt; omega⟩ : Fin 2) (⟨(i 1).val / 128, by have h1 : (i 1).val < 4096 := (i 1).isLt; omega⟩ : Fin 32))
    (blockOf k (⟨(i 0).val / 2048, by have h0 : (i 0).val < 4096 := (i 0).isLt; omega⟩ : Fin 2) (⟨(i 1).val / 128, by have h1 : (i 1).val < 4096 := (i 1).isLt; omega⟩ : Fin 32))
    (blockOf v (⟨(i 0).val / 2048, by have h0 : (i 0).val < 4096 := (i 0).isLt; omega⟩ : Fin 2) (⟨(i 1).val / 128, by have h1 : (i 1).val < 4096 := (i 1).isLt; omega⟩ : Fin 32))
    rp (ix2 (⟨(i 0).val % 2048, Nat.mod_lt _ (by decide)⟩ : Fin 2048) (⟨(i 1).val % 128, Nat.mod_lt _ (by decide)⟩ : Fin 128))

/-- The whole computation on the flattened input, with a given per-head attention. -/
def out2d (f : Mat SR → Mat SR → Mat SR → Mat SR → Mat SR) (x : Mat SM) (rp : Mat SR) (wq wk wv wo : Mat SM) : Mat SM :=
  mmT (perHead f (mmT x wq) (mmT x wk) (mmT x wv) rp) wo

/-- The result with the softmax form of attention. -/
def outSoft (x : Mat S3) (cs sn : Mat SC) (wq wk wv wo : Mat SM) : Mat S3 :=
  unflat (out2d headB (flat x) (cat cs sn) wq wk wv wo)

/-- The result with the streaming form of attention. -/
def outFlash (x : Mat S3) (cs sn : Mat SC) (wq wk wv wo : Mat SM) : Mat S3 :=
  unflat (out2d flashB (flat x) (cat cs sn) wq wk wv wo)

/-- Every entry of an array is a real number. -/
def AllReal {S : Shape} (a : Mat S) : Prop := ∀ i, ∃ r : ℝ, a i = (r : EReal)

end Cert.Spec

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.MatmulRegion0.lean ====
/-
  The first projection region. Its grid has 16 points; point t multiplies the whole 4096 × 4096 left operand by
  rows 256·t .. 256·t + 255 of the right operand, transposed, and writes columns 256·t .. 256·t + 255 of the result.
  So the result array ends at x·wᵀ.
-/
import proofs.«424713_j70128226009183_3_alg».proof.Proof.Gen.KernelIdeal.Frame
import proofs.«424713_j70128226009183_3_alg».proof.Proof.Spec
import proofs.«424713_j70128226009183_3_alg».proof.Proof.LibDotT
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The two zero offsets of a whole-buffer rectangle, as the constant function. -/
theorem zero_offsets0 : (![0, 0] : Fin 2 → Nat) = fun _ => 0 := funext fun a => by fin_cases a <;> rfl

/-- What one grid point leaves in the output block: entry (r, e) is the sum over d of x(r, d)·w(e, d). -/
theorem out0_2_apply (x0 : Vec Ideal S4096x4096 .bf16) (x1 : Vec Ideal S256x4096 .bf16) (r : Fin 4096) (e : Fin 256) :
    out0_2 x0 x1 (ix2 r e) = ∑ d : Fin 4096, x0 (ix2 r d) * x1 (ix2 e d) := by
  unfold out0_2
  rw [View.canon_unit_zero zero_offsets0]
  simp only [View.ld_unit_zero (S := S4096x4096) zero_offsets0, View.ld_unit_zero (S := S256x4096) zero_offsets0]
  unfold k0_pay1
  simp only [shapeCast_self, truncf_apply]
  exact Cert.LibDotT.matmul_zero_at_T dot_S4096x4096_S256x4096_S4096x256_1_1_0_0_n_n rfl rfl rfl rfl rfl rfl none x0 x1 r e

/-! ## From the blocks to the array -/

/-- The block indices of the three windows at grid point t, decided over the 16 points: the left operand's block is
    always (0, 0); the right operand's is (t, 0); the result's is (0, t). -/
theorem block_indices0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- One entry of a point's result block against the product of two whole arrays: if row (y 0) of the left block is
    row (i 0) of A and row (y 1) of the right block is row (i 1) of W, the entry y of the block is entry i of A·Wᵀ. -/
theorem out0_2_entry (x0 : Vec Ideal S4096x4096 .bf16) (x1 : Vec Ideal S256x4096 .bf16) (A W : Cert.Spec.Mat Cert.Spec.SM)
    (y : S4096x256.Idx) (i : Cert.Spec.SM.Idx)
    (hA : ∀ d : Fin 4096, x0 (ix2 (y 0) d) = A (ix2 (i 0) d))
    (hW : ∀ d : Fin 4096, x1 (ix2 (y 1) d) = W (ix2 (i 1) d)) :
    out0_2 x0 x1 y = Cert.Spec.mmT A W i := by
  obtain ⟨r, e, rfl⟩ : ∃ (r : Fin 4096) (e : Fin 256), y = ix2 r e := ⟨y 0, y 1, eq_ix2 y⟩
  rw [out0_2_apply]
  unfold Cert.Spec.mmT
  exact Finset.sum_congr rfl fun d _ => by rw [← hA d, ← hW d]

/-- What grid point t writes back is block t of x·wᵀ of the two operand arrays as the region finds them: the left
    block is the whole left array, the right block is rows 256·t .. of the right array, and the block written is
    columns 256·t .. of the result. -/
theorem written_block0 (c : Dev nD) (t : Fin cfg0.N) :
    (dat0 (F := Ideal) V c).flushed 2 t
      = ((cfg0.win 2).blk t).view.read (Elt Ideal) (Cert.Spec.mmT (V c main_v1) (V c main_v2)) := by
  show (cfg0.win 2).cut (grid0.coords t) ((dat0 V c).after 2 t) = _
  rw [after0_2]
  obtain ⟨e0, e1, e2, e3, e4, e5⟩ := block_indices0 t
  funext j
  refine out0_2_entry _ _ (V c main_v1) (V c main_v2) j (((cfg0.win 2).blk t).view.emb j) (fun d => ?_) (fun d => ?_)
  · show V c main_v1 (((cfg0.win 0).blk t).view.emb (ix2 (j 0) d)) = V c main_v1 (ix2 ((((cfg0.win 2).blk t).view.emb j) 0) d)
    refine congrArg (V c main_v1) (funext fun a => Fin.ext ?_)
    match a with
    | ⟨0, _⟩ => show win0_0.index t (0 : Fin 2) * 4096 + 1 * (j 0).val = win0_2.index t (0 : Fin 2) * 4096 + 1 * (j 0).val; rw [e0, e4]
    | ⟨1, _⟩ => show win0_0.index t (1 : Fin 2) * 4096 + 1 * d.val = d.val; rw [e1]; omega
  · show V c main_v2 (((cfg0.win 1).blk t).view.emb (ix2 (j 1) d)) = V c main_v2 (ix2 ((((cfg0.win 2).blk t).view.emb j) 1) d)
    refine congrArg (V c main_v2) (funext fun a => Fin.ext ?_)
    match a with
    | ⟨0, _⟩ => show win0_1.index t (0 : Fin 2) * 256 + 1 * (j 1).val = win0_2.index t (1 : Fin 2) * 256 + 1 * (j 1).val; rw [e2, e5]
    | ⟨1, _⟩ => show win0_1.index t (1 : Fin 2) * 4096 + 1 * d.val = d.val; rw [e3]; omega

/-- An entry of the result array is in point t's block iff each coordinate is in the block's range on its axis. -/
theorem mem_block0 (t : Fin cfg0.N) (i : S4096x4096.Idx) :
    i ∈ ((cfg0.win 2).blk t).view.set
      ↔ ∀ a : Fin 2, win0_2.index t a * S4096x256.size a ≤ (i a).val ∧ (i a).val < win0_2.index t a * S4096x256.size a + S4096x256.size a := by
  show i ∈ ((View.whole main_v6).slice (win0_2.rect t)).set ↔ _
  rw [View.set_slice_whole, Rect.mem_set_unit]
  exact Iff.rfl

/-- Every entry of the result array is written: column q lies in the block of point q / 256. -/
theorem covered0 (i : S4096x4096.Idx) :
    ∃ t : Fin cfg0.N, (cfg0.win 2).flush t = true ∧ i ∈ ((cfg0.win 2).blk t).view.set := by
  have hN : grid0.N = 16 := N_0
  have hi0 : (i 0).val < 4096 := (i 0).isLt
  have hi1 : (i 1).val < 4096 := (i 1).isLt
  obtain ⟨t, ht⟩ : ∃ t : Fin cfg0.N, t.val = (i 1).val / 256 :=
    ⟨⟨(i 1).val / 256, by show (i 1).val / 256 < grid0.N; rw [hN]; omega⟩, rfl⟩
  obtain ⟨-, -, -, -, e4, e5⟩ := block_indices0 t
  refine ⟨t, flush0_2 t, ?_⟩
  rw [mem_block0]
  intro a
  match a with
  | ⟨0, _⟩ => show win0_2.index t (0 : Fin 2) * 4096 ≤ (i 0).val ∧ (i 0).val < win0_2.index t (0 : Fin 2) * 4096 + 4096; rw [e4]; omega
  | ⟨1, _⟩ => show win0_2.index t (1 : Fin 2) * 256 ≤ (i 1).val ∧ (i 1).val < win0_2.index t (1 : Fin 2) * 256 + 256; rw [e5, ht]; omega

/-- The result array after the region: x·wᵀ of the two operand arrays as the region finds them. -/
theorem mm_final0 (c : Dev nD) :
    (dat0 (F := Ideal) V c).arrAt 2 cfg0.N = Cert.Spec.mmT (V c main_v1) (V c main_v2) :=
  (dat0 (F := Ideal) V c).arrAt_eq_of_cover 2 (Cert.Spec.mmT (V c main_v1) (V c main_v2))
    (fun t _ => written_block0 V c t) covered0

end Cert.KernelIdeal.Val

end
-- ==== Proof.MatmulRegion1.lean ====
/-
  The second projection region. Its grid has 16 points; point t multiplies the whole 4096 × 4096 left operand by
  rows 256·t .. 256·t + 255 of the right operand, transposed, and writes columns 256·t .. 256·t + 255 of the result.
  So the result array ends at x·wᵀ.
-/
import proofs.«424713_j70128226009183_3_alg».proof.Proof.Gen.KernelIdeal.Frame
import proofs.«424713_j70128226009183_3_alg».proof.Proof.Spec
import proofs.«424713_j70128226009183_3_alg».proof.Proof.LibDotT
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The two zero offsets of a whole-buffer rectangle, as the constant function. -/
theorem zero_offsets1 : (![0, 0] : Fin 2 → Nat) = fun _ => 0 := funext fun a => by fin_cases a <;> rfl

/-- What one grid point leaves in the output block: entry (r, e) is the sum over d of x(r, d)·w(e, d). -/
theorem out1_2_apply (x0 : Vec Ideal S4096x4096 .bf16) (x1 : Vec Ideal S256x4096 .bf16) (r : Fin 4096) (e : Fin 256) :
    out1_2 x0 x1 (ix2 r e) = ∑ d : Fin 4096, x0 (ix2 r d) * x1 (ix2 e d) := by
  unfold out1_2
  rw [View.canon_unit_zero zero_offsets1]
  simp only [View.ld_unit_zero (S := S4096x4096) zero_offsets1, View.ld_unit_zero (S := S256x4096) zero_offsets1]
  unfold k1_pay1
  simp only [shapeCast_self, truncf_apply]
  exact Cert.LibDotT.matmul_zero_at_T dot_S4096x4096_S256x4096_S4096x256_1_1_0_0_n_n rfl rfl rfl rfl rfl rfl none x0 x1 r e

/-! ## From the blocks to the array -/

/-- The block indices of the three windows at grid point t, decided over the 16 points: the left operand's block is
    always (0, 0); the right operand's is (t, 0); the result's is (0, t). -/
theorem block_indices1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- One entry of a point's result block against the product of two whole arrays: if row (y 0) of the left block is
    row (i 0) of A and row (y 1) of the right block is row (i 1) of W, the entry y of the block is entry i of A·Wᵀ. -/
theorem out1_2_entry (x0 : Vec Ideal S4096x4096 .bf16) (x1 : Vec Ideal S256x4096 .bf16) (A W : Cert.Spec.Mat Cert.Spec.SM)
    (y : S4096x256.Idx) (i : Cert.Spec.SM.Idx)
    (hA : ∀ d : Fin 4096, x0 (ix2 (y 0) d) = A (ix2 (i 0) d))
    (hW : ∀ d : Fin 4096, x1 (ix2 (y 1) d) = W (ix2 (i 1) d)) :
    out1_2 x0 x1 y = Cert.Spec.mmT A W i := by
  obtain ⟨r, e, rfl⟩ : ∃ (r : Fin 4096) (e : Fin 256), y = ix2 r e := ⟨y 0, y 1, eq_ix2 y⟩
  rw [out1_2_apply]
  unfold Cert.Spec.mmT
  exact Finset.sum_congr rfl fun d _ => by rw [← hA d, ← hW d]

/-- What grid point t writes back is block t of x·wᵀ of the two operand arrays as the region finds them: the left
    block is the whole left array, the right block is rows 256·t .. of the right array, and the block written is
    columns 256·t .. of the result. -/
theorem written_block1 (c : Dev nD) (t : Fin cfg1.N) :
    (dat1 (F := Ideal) V c).flushed 2 t
      = ((cfg1.win 2).blk t).view.read (Elt Ideal) (Cert.Spec.mmT (V c main_v1) (V c main_v3)) := by
  show (cfg1.win 2).cut (grid1.coords t) ((dat1 V c).after 2 t) = _
  rw [after1_2]
  obtain ⟨e0, e1, e2, e3, e4, e5⟩ := block_indices1 t
  funext j
  refine out1_2_entry _ _ (V c main_v1) (V c main_v3) j (((cfg1.win 2).blk t).view.emb j) (fun d => ?_) (fun d => ?_)
  · show V c main_v1 (((cfg1.win 0).blk t).view.emb (ix2 (j 0) d)) = V c main_v1 (ix2 ((((cfg1.win 2).blk t).view.emb j) 0) d)
    refine congrArg (V c main_v1) (funext fun a => Fin.ext ?_)
    match a with
    | ⟨0, _⟩ => show win1_0.index t (0 : Fin 2) * 4096 + 1 * (j 0).val = win1_2.index t (0 : Fin 2) * 4096 + 1 * (j 0).val; rw [e0, e4]
    | ⟨1, _⟩ => show win1_0.index t (1 : Fin 2) * 4096 + 1 * d.val = d.val; rw [e1]; omega
  · show V c main_v3 (((cfg1.win 1).blk t).view.emb (ix2 (j 1) d)) = V c main_v3 (ix2 ((((cfg1.win 2).blk t).view.emb j) 1) d)
    refine congrArg (V c main_v3) (funext fun a => Fin.ext ?_)
    match a with
    | ⟨0, _⟩ => show win1_1.index t (0 : Fin 2) * 256 + 1 * (j 1).val = win1_2.index t (1 : Fin 2) * 256 + 1 * (j 1).val; rw [e2, e5]
    | ⟨1, _⟩ => show win1_1.index t (1 : Fin 2) * 4096 + 1 * d.val = d.val; rw [e3]; omega

/-- An entry of the result array is in point t's block iff each coordinate is in the block's range on its axis. -/
theorem mem_block1 (t : Fin cfg1.N) (i : S4096x4096.Idx) :
    i ∈ ((cfg1.win 2).blk t).view.set
      ↔ ∀ a : Fin 2, win1_2.index t a * S4096x256.size a ≤ (i a).val ∧ (i a).val < win1_2.index t a * S4096x256.size a + S4096x256.size a := by
  show i ∈ ((View.whole main_v7).slice (win1_2.rect t)).set ↔ _
  rw [View.set_slice_whole, Rect.mem_set_unit]
  exact Iff.rfl

/-- Every entry of the result array is written: column q lies in the block of point q / 256. -/
theorem covered1 (i : S4096x4096.Idx) :
    ∃ t : Fin cfg1.N, (cfg1.win 2).flush t = true ∧ i ∈ ((cfg1.win 2).blk t).view.set := by
  have hN : grid1.N = 16 := N_1
  have hi0 : (i 0).val < 4096 := (i 0).isLt
  have hi1 : (i 1).val < 4096 := (i 1).isLt
  obtain ⟨t, ht⟩ : ∃ t : Fin cfg1.N, t.val = (i 1).val / 256 :=
    ⟨⟨(i 1).val / 256, by show (i 1).val / 256 < grid1.N; rw [hN]; omega⟩, rfl⟩
  obtain ⟨-, -, -, -, e4, e5⟩ := block_indices1 t
  refine ⟨t, flush1_2 t, ?_⟩
  rw [mem_block1]
  intro a
  match a with
  | ⟨0, _⟩ => show win1_2.index t (0 : Fin 2) * 4096 ≤ (i 0).val ∧ (i 0).val < win1_2.index t (0 : Fin 2) * 4096 + 4096; rw [e4]; omega
  | ⟨1, _⟩ => show win1_2.index t (1 : Fin 2) * 256 ≤ (i 1).val ∧ (i 1).val < win1_2.index t (1 : Fin 2) * 256 + 256; rw [e5, ht]; omega

/-- The result array after the region: x·wᵀ of the two operand arrays as the region finds them. -/
theorem mm_final1 (c : Dev nD) :
    (dat1 (F := Ideal) V c).arrAt 2 cfg1.N = Cert.Spec.mmT (V c main_v1) (V c main_v3) :=
  (dat1 (F := Ideal) V c).arrAt_eq_of_cover 2 (Cert.Spec.mmT (V c main_v1) (V c main_v3))
    (fun t _ => written_block1 V c t) covered1

end Cert.KernelIdeal.Val

end
-- ==== Proof.MatmulRegion2.lean ====
/-
  The third projection region. Its grid has 16 points; point t multiplies the whole 4096 × 4096 left operand by
  rows 256·t .. 256·t + 255 of the right operand, transposed, and writes columns 256·t .. 256·t + 255 of the result.
  So the result array ends at x·wᵀ.
-/
import proofs.«424713_j70128226009183_3_alg».proof.Proof.Gen.KernelIdeal.Frame
import proofs.«424713_j70128226009183_3_alg».proof.Proof.Spec
import proofs.«424713_j70128226009183_3_alg».proof.Proof.LibDotT
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The two zero offsets of a whole-buffer rectangle, as the constant function. -/
theorem zero_offsets2 : (![0, 0] : Fin 2 → Nat) = fun _ => 0 := funext fun a => by fin_cases a <;> rfl

/-- What one grid point leaves in the output block: entry (r, e) is the sum over d of x(r, d)·w(e, d). -/
theorem out2_2_apply (x0 : Vec Ideal S4096x4096 .bf16) (x1 : Vec Ideal S256x4096 .bf16) (r : Fin 4096) (e : Fin 256) :
    out2_2 x0 x1 (ix2 r e) = ∑ d : Fin 4096, x0 (ix2 r d) * x1 (ix2 e d) := by
  unfold out2_2
  rw [View.canon_unit_zero zero_offsets2]
  simp only [View.ld_unit_zero (S := S4096x4096) zero_offsets2, View.ld_unit_zero (S := S256x4096) zero_offsets2]
  unfold k2_pay1
  simp only [shapeCast_self, truncf_apply]
  exact Cert.LibDotT.matmul_zero_at_T dot_S4096x4096_S256x4096_S4096x256_1_1_0_0_n_n rfl rfl rfl rfl rfl rfl none x0 x1 r e

/-! ## From the blocks to the array -/

/-- The block indices of the three windows at grid point t, decided over the 16 points: the left operand's block is
    always (0, 0); the right operand's is (t, 0); the result's is (0, t). -/
theorem block_indices2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val :=
  (by decide +kernel : ∀ t : Fin grid2.N, _)

/-- One entry of a point's result block against the product of two whole arrays: if row (y 0) of the left block is
    row (i 0) of A and row (y 1) of the right block is row (i 1) of W, the entry y of the block is entry i of A·Wᵀ. -/
theorem out2_2_entry (x0 : Vec Ideal S4096x4096 .bf16) (x1 : Vec Ideal S256x4096 .bf16) (A W : Cert.Spec.Mat Cert.Spec.SM)
    (y : S4096x256.Idx) (i : Cert.Spec.SM.Idx)
    (hA : ∀ d : Fin 4096, x0 (ix2 (y 0) d) = A (ix2 (i 0) d))
    (hW : ∀ d : Fin 4096, x1 (ix2 (y 1) d) = W (ix2 (i 1) d)) :
    out2_2 x0 x1 y = Cert.Spec.mmT A W i := by
  obtain ⟨r, e, rfl⟩ : ∃ (r : Fin 4096) (e : Fin 256), y = ix2 r e := ⟨y 0, y 1, eq_ix2 y⟩
  rw [out2_2_apply]
  unfold Cert.Spec.mmT
  exact Finset.sum_congr rfl fun d _ => by rw [← hA d, ← hW d]

/-- What grid point t writes back is block t of x·wᵀ of the two operand arrays as the region finds them: the left
    block is the whole left array, the right block is rows 256·t .. of the right array, and the block written is
    columns 256·t .. of the result. -/
theorem written_block2 (c : Dev nD) (t : Fin cfg2.N) :
    (dat2 (F := Ideal) V c).flushed 2 t
      = ((cfg2.win 2).blk t).view.read (Elt Ideal) (Cert.Spec.mmT (V c main_v1) (V c main_v4)) := by
  show (cfg2.win 2).cut (grid2.coords t) ((dat2 V c).after 2 t) = _
  rw [after2_2]
  obtain ⟨e0, e1, e2, e3, e4, e5⟩ := block_indices2 t
  funext j
  refine out2_2_entry _ _ (V c main_v1) (V c main_v4) j (((cfg2.win 2).blk t).view.emb j) (fun d => ?_) (fun d => ?_)
  · show V c main_v1 (((cfg2.win 0).blk t).view.emb (ix2 (j 0) d)) = V c main_v1 (ix2 ((((cfg2.win 2).blk t).view.emb j) 0) d)
    refine congrArg (V c main_v1) (funext fun a => Fin.ext ?_)
    match a with
    | ⟨0, _⟩ => show win2_0.index t (0 : Fin 2) * 4096 + 1 * (j 0).val = win2_2.index t (0 : Fin 2) * 4096 + 1 * (j 0).val; rw [e0, e4]
    | ⟨1, _⟩ => show win2_0.index t (1 : Fin 2) * 4096 + 1 * d.val = d.val; rw [e1]; omega
  · show V c main_v4 (((cfg2.win 1).blk t).view.emb (ix2 (j 1) d)) = V c main_v4 (ix2 ((((cfg2.win 2).blk t).view.emb j) 1) d)
    refine congrArg (V c main_v4) (funext fun a => Fin.ext ?_)
    match a with
    | ⟨0, _⟩ => show win2_1.index t (0 : Fin 2) * 256 + 1 * (j 1).val = win2_2.index t (1 : Fin 2) * 256 + 1 * (j 1).val; rw [e2, e5]
    | ⟨1, _⟩ => show win2_1.index t (1 : Fin 2) * 4096 + 1 * d.val = d.val; rw [e3]; omega

/-- An entry of the result array is in point t's block iff each coordinate is in the block's range on its axis. -/
theorem mem_block2 (t : Fin cfg2.N) (i : S4096x4096.Idx) :
    i ∈ ((cfg2.win 2).blk t).view.set
      ↔ ∀ a : Fin 2, win2_2.index t a * S4096x256.size a ≤ (i a).val ∧ (i a).val < win2_2.index t a * S4096x256.size a + S4096x256.size a := by
  show i ∈ ((View.whole main_v8).slice (win2_2.rect t)).set ↔ _
  rw [View.set_slice_whole, Rect.mem_set_unit]
  exact Iff.rfl

/-- Every entry of the result array is written: column q lies in the block of point q / 256. -/
theorem covered2 (i : S4096x4096.Idx) :
    ∃ t : Fin cfg2.N, (cfg2.win 2).flush t = true ∧ i ∈ ((cfg2.win 2).blk t).view.set := by
  have hN : grid2.N = 16 := N_2
  have hi0 : (i 0).val < 4096 := (i 0).isLt
  have hi1 : (i 1).val < 4096 := (i 1).isLt
  obtain ⟨t, ht⟩ : ∃ t : Fin cfg2.N, t.val = (i 1).val / 256 :=
    ⟨⟨(i 1).val / 256, by show (i 1).val / 256 < grid2.N; rw [hN]; omega⟩, rfl⟩
  obtain ⟨-, -, -, -, e4, e5⟩ := block_indices2 t
  refine ⟨t, flush2_2 t, ?_⟩
  rw [mem_block2]
  intro a
  match a with
  | ⟨0, _⟩ => show win2_2.index t (0 : Fin 2) * 4096 ≤ (i 0).val ∧ (i 0).val < win2_2.index t (0 : Fin 2) * 4096 + 4096; rw [e4]; omega
  | ⟨1, _⟩ => show win2_2.index t (1 : Fin 2) * 256 ≤ (i 1).val ∧ (i 1).val < win2_2.index t (1 : Fin 2) * 256 + 256; rw [e5, ht]; omega

/-- The result array after the region: x·wᵀ of the two operand arrays as the region finds them. -/
theorem mm_final2 (c : Dev nD) :
    (dat2 (F := Ideal) V c).arrAt 2 cfg2.N = Cert.Spec.mmT (V c main_v1) (V c main_v4) :=
  (dat2 (F := Ideal) V c).arrAt_eq_of_cover 2 (Cert.Spec.mmT (V c main_v1) (V c main_v4))
    (fun t _ => written_block2 V c t) covered2

end Cert.KernelIdeal.Val

end
-- ==== Proof.MatmulRegion4.lean ====
/-
  The output projection region. Its grid has 16 points; point t multiplies the whole 4096 × 4096 left operand by
  rows 256·t .. 256·t + 255 of the right operand, transposed, and writes columns 256·t .. 256·t + 255 of the result.
  So the result array ends at x·wᵀ.
-/
import proofs.«424713_j70128226009183_3_alg».proof.Proof.Gen.KernelIdeal.Frame
import proofs.«424713_j70128226009183_3_alg».proof.Proof.Spec
import proofs.«424713_j70128226009183_3_alg».proof.Proof.LibDotT
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The two zero offsets of a whole-buffer rectangle, as the constant function. -/
theorem zero_offsets4 : (![0, 0] : Fin 2 → Nat) = fun _ => 0 := funext fun a => by fin_cases a <;> rfl

/-- What one grid point leaves in the output block: entry (r, e) is the sum over d of x(r, d)·w(e, d). -/
theorem out4_2_apply (x0 : Vec Ideal S4096x4096 .bf16) (x1 : Vec Ideal S256x4096 .bf16) (r : Fin 4096) (e : Fin 256) :
    out4_2 x0 x1 (ix2 r e) = ∑ d : Fin 4096, x0 (ix2 r d) * x1 (ix2 e d) := by
  unfold out4_2
  rw [View.canon_unit_zero zero_offsets4]
  simp only [View.ld_unit_zero (S := S4096x4096) zero_offsets4, View.ld_unit_zero (S := S256x4096) zero_offsets4]
  unfold k4_pay1
  simp only [shapeCast_self, truncf_apply]
  exact Cert.LibDotT.matmul_zero_at_T dot_S4096x4096_S256x4096_S4096x256_1_1_0_0_n_n rfl rfl rfl rfl rfl rfl none x0 x1 r e

/-! ## From the blocks to the array -/

/-- The block indices of the three windows at grid point t, decided over the 16 points: the left operand's block is
    always (0, 0); the right operand's is (t, 0); the result's is (0, t). -/
theorem block_indices4 : ∀ t : Fin cfg4.N,
    win4_0.index t (0 : Fin 2) = 0 ∧ win4_0.index t (1 : Fin 2) = 0
    ∧ win4_1.index t (0 : Fin 2) = t.val ∧ win4_1.index t (1 : Fin 2) = 0
    ∧ win4_2.index t (0 : Fin 2) = 0 ∧ win4_2.index t (1 : Fin 2) = t.val :=
  (by decide +kernel : ∀ t : Fin grid4.N, _)

/-- One entry of a point's result block against the product of two whole arrays: if row (y 0) of the left block is
    row (i 0) of A and row (y 1) of the right block is row (i 1) of W, the entry y of the block is entry i of A·Wᵀ. -/
theorem out4_2_entry (x0 : Vec Ideal S4096x4096 .bf16) (x1 : Vec Ideal S256x4096 .bf16) (A W : Cert.Spec.Mat Cert.Spec.SM)
    (y : S4096x256.Idx) (i : Cert.Spec.SM.Idx)
    (hA : ∀ d : Fin 4096, x0 (ix2 (y 0) d) = A (ix2 (i 0) d))
    (hW : ∀ d : Fin 4096, x1 (ix2 (y 1) d) = W (ix2 (i 1) d)) :
    out4_2 x0 x1 y = Cert.Spec.mmT A W i := by
  obtain ⟨r, e, rfl⟩ : ∃ (r : Fin 4096) (e : Fin 256), y = ix2 r e := ⟨y 0, y 1, eq_ix2 y⟩
  rw [out4_2_apply]
  unfold Cert.Spec.mmT
  exact Finset.sum_congr rfl fun d _ => by rw [← hA d, ← hW d]

/-- What grid point t writes back is block t of x·wᵀ of the two operand arrays as the region finds them: the left
    block is the whole left array, the right block is rows 256·t .. of the right array, and the block written is
    columns 256·t .. of the result. -/
theorem written_block4 (c : Dev nD) (t : Fin cfg4.N) :
    (dat4 (F := Ideal) V c).flushed 2 t
      = ((cfg4.win 2).blk t).view.read (Elt Ideal) (Cert.Spec.mmT (V c main_v10) (V c main_v5)) := by
  show (cfg4.win 2).cut (grid4.coords t) ((dat4 V c).after 2 t) = _
  rw [after4_2]
  obtain ⟨e0, e1, e2, e3, e4, e5⟩ := block_indices4 t
  funext j
  refine out4_2_entry _ _ (V c main_v10) (V c main_v5) j (((cfg4.win 2).blk t).view.emb j) (fun d => ?_) (fun d => ?_)
  · show V c main_v10 (((cfg4.win 0).blk t).view.emb (ix2 (j 0) d)) = V c main_v10 (ix2 ((((cfg4.win 2).blk t).view.emb j) 0) d)
    refine congrArg (V c main_v10) (funext fun a => Fin.ext ?_)
    match a with
    | ⟨0, _⟩ => show win4_0.index t (0 : Fin 2) * 4096 + 1 * (j 0).val = win4_2.index t (0 : Fin 2) * 4096 + 1 * (j 0).val; rw [e0, e4]
    | ⟨1, _⟩ => show win4_0.index t (1 : Fin 2) * 4096 + 1 * d.val = d.val; rw [e1]; omega
  · show V c main_v5 (((cfg4.win 1).blk t).view.emb (ix2 (j 1) d)) = V c main_v5 (ix2 ((((cfg4.win 2).blk t).view.emb j) 1) d)
    refine congrArg (V c main_v5) (funext fun a => Fin.ext ?_)
    match a with
    | ⟨0, _⟩ => show win4_1.index t (0 : Fin 2) * 256 + 1 * (j 1).val = win4_2.index t (1 : Fin 2) * 256 + 1 * (j 1).val; rw [e2, e5]
    | ⟨1, _⟩ => show win4_1.index t (1 : Fin 2) * 4096 + 1 * d.val = d.val; rw [e3]; omega

/-- An entry of the result array is in point t's block iff each coordinate is in the block's range on its axis. -/
theorem mem_block4 (t : Fin cfg4.N) (i : S4096x4096.Idx) :
    i ∈ ((cfg4.win 2).blk t).view.set
      ↔ ∀ a : Fin 2, win4_2.index t a * S4096x256.size a ≤ (i a).val ∧ (i a).val < win4_2.index t a * S4096x256.size a + S4096x256.size a := by
  show i ∈ ((View.whole main_v11).slice (win4_2.rect t)).set ↔ _
  rw [View.set_slice_whole, Rect.mem_set_unit]
  exact Iff.rfl

/-- Every entry of the result array is written: column q lies in the block of point q / 256. -/
theorem covered4 (i : S4096x4096.Idx) :
    ∃ t : Fin cfg4.N, (cfg4.win 2).flush t = true ∧ i ∈ ((cfg4.win 2).blk t).view.set := by
  have hN : grid4.N = 16 := N_4
  have hi0 : (i 0).val < 4096 := (i 0).isLt
  have hi1 : (i 1).val < 4096 := (i 1).isLt
  obtain ⟨t, ht⟩ : ∃ t : Fin cfg4.N, t.val = (i 1).val / 256 :=
    ⟨⟨(i 1).val / 256, by show (i 1).val / 256 < grid4.N; rw [hN]; omega⟩, rfl⟩
  obtain ⟨-, -, -, -, e4, e5⟩ := block_indices4 t
  refine ⟨t, flush4_2 t, ?_⟩
  rw [mem_block4]
  intro a
  match a with
  | ⟨0, _⟩ => show win4_2.index t (0 : Fin 2) * 4096 ≤ (i 0).val ∧ (i 0).val < win4_2.index t (0 : Fin 2) * 4096 + 4096; rw [e4]; omega
  | ⟨1, _⟩ => show win4_2.index t (1 : Fin 2) * 256 ≤ (i 1).val ∧ (i 1).val < win4_2.index t (1 : Fin 2) * 256 + 256; rw [e5, ht]; omega

/-- The result array after the region: x·wᵀ of the two operand arrays as the region finds them. -/
theorem mm_final4 (c : Dev nD) :
    (dat4 (F := Ideal) V c).arrAt 2 cfg4.N = Cert.Spec.mmT (V c main_v10) (V c main_v5) :=
  (dat4 (F := Ideal) V c).arrAt_eq_of_cover 2 (Cert.Spec.mmT (V c main_v10) (V c main_v5))
    (fun t _ => written_block4 V c t) covered4

end Cert.KernelIdeal.Val

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.AttnVec.lean ====
/-
  The attention body's vector operations, grouped as the streaming form groups them, and each group read row by row.

  A query tile is 512 rows. Against a key tile of 512 rows the scores are the 512 × 512 products of the rotated
  query and key rows times the scale (`scoreV`); on the diagonal tile, entries with key column after query row are
  replaced by −∞ (`maskV`). The running maximum, the rescaling factor, the exponentials, the running sum and the
  running weighted sum are columns and matrices over the tile's rows (`mV`, `aV`, `pV`, `lV`, `accV`); read at
  one row they are one step of the streaming state (`Spec.fstep`).
-/
import proofs.«424713_j70128226009183_3_alg».proof.Proof.Gen.KernelIdeal.Frame
import proofs.«424713_j70128226009183_3_alg».proof.Proof.Spec
import Idealize.ShloMosaic.Lib.Pipeline.Value
import Idealize.ShloMosaic.Lib.ValueLayout
import Idealize.ShloMosaic.PureOps.Ideal.Laws
import proofs.«424713_j70128226009183_3_alg».proof.Proof.LibDotT
import proofs.«424713_j70128226009183_3_alg».proof.Proof.LibDot
import proofs.«424713_j70128226009183_3_alg».proof.Proof.LibKeepdims
set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem

/-- Scores of a query tile against a key tile: the inner products of their rows, times the scale. -/
def scoreV (qt kt : FVec Ideal S512x128 .bf16) : FVec Ideal S512x512 .f32 :=
  mulf (matmul dot_S512x128_S512x128_S512x512_1_1_0_0_n_n none qt kt (constant S512x512 .f32 0x00000000#32))
    (broadcast S512x512 (Scalar.ofBits .f32 0x3DB504F3#32))

/-- The diagonal tile's mask: position off + column ≤ position off + row keeps the score, else −∞. -/
def maskV (off : BitVec 32) (sc : FVec Ideal S512x512 .f32) : FVec Ideal S512x512 .f32 :=
  select (cmpi .sle (addi (broadcast S512x512 off) (iota .tc S512x512 32 [1] iota_S512x512_d1_w32))
      (addi (broadcast S512x512 off) (iota .tc S512x512 32 [0] iota_S512x512_d0_w32)))
    sc (broadcast S512x512 (Named.named (F := Ideal) κ "neg_big" (φ := .f32) 0xFF333332#32))

/-- The new running maximum. -/
def mV (m : FVec Ideal S512x1 .f32) (sc : FVec Ideal S512x512 .f32) : FVec Ideal S512x1 .f32 :=
  maximumf m (shapeCast S512x1 (multiReduction .maximumf [1] S512 sc 0xFF800000#32 reduces_S512x512_S512 (.inl rfl) rfl) shapeCasts_S512_S512x1)

/-- The rescaling factor exp(m − m'). -/
def aV (m m' : FVec Ideal S512x1 .f32) : FVec Ideal S512x1 .f32 := exp (subf m m')

/-- The exponentials exp(score − m'). -/
def pV (sc : FVec Ideal S512x512 .f32) (m' : FVec Ideal S512x1 .f32) : FVec Ideal S512x512 .f32 :=
  exp (subf sc (broadcastTo S512x512 m' broadcasts_S512x1_S512x512))

/-- The new running sum. -/
def lV (a l : FVec Ideal S512x1 .f32) (p : FVec Ideal S512x512 .f32) : FVec Ideal S512x1 .f32 :=
  addf (mulf a l) (shapeCast S512x1 (multiReduction .add [1] S512 p 0x00000000#32 reduces_S512x512_S512 (.inl rfl) rfl) shapeCasts_S512_S512x1)

/-- The new running weighted sum of value rows. -/
def accV (a : FVec Ideal S512x1 .f32) (acc : FVec Ideal S512x128 .f32) (p : FVec Ideal S512x512 .f32) (vt : FVec Ideal S512x128 .bf16) :
    FVec Ideal S512x128 .f32 :=
  addf (mulf (broadcastTo S512x128 a broadcasts_S512x1_S512x128) acc)
    (matmul dot_S512x512_S512x128_S512x128_1_0_0_1_n_n none (truncf .bf16 p bitsLt_bf16_f32) vt (constant S512x128 .f32 0x00000000#32))

/-- The tile's result: the weighted sum over the sum. -/
def outV (acc : FVec Ideal S512x128 .f32) (l : FVec Ideal S512x1 .f32) : FVec Ideal S512x128 .bf16 :=
  truncf .bf16 (divf acc (broadcastTo S512x128 l broadcasts_S512x1_S512x128)) bitsLt_bf16_f32

/-- Row r of the three state arrays, as a streaming state. -/
def rowFS (m l : FVec Ideal S512x1 .f32) (acc : FVec Ideal S512x128 .f32) (r : Fin 512) : Cert.Spec.FS :=
  ⟨m (ix2 r (0 : Fin 1)), l (ix2 r (0 : Fin 1)), fun d => acc (ix2 r d)⟩

theorem scoreV_apply (qt kt : FVec Ideal S512x128 .bf16) (r c : Fin 512) :
    scoreV qt kt (ix2 r c) = (∑ d : Fin 128, qt (ix2 r d) * kt (ix2 c d)) * Cert.Spec.scale := by
  unfold scoreV Cert.Spec.scale
  rw [mulf_apply, broadcast_apply, Ideal.ofBits_def]
  congr 1
  exact Cert.LibDotT.matmul_zero_at_T dot_S512x128_S512x128_S512x512_1_1_0_0_n_n rfl rfl rfl rfl rfl rfl none qt kt r c

/-- A tile offset plus a coordinate below 512, as a 32-bit word read signed, is their sum as naturals. -/
theorem toInt_off_add (off : BitVec 32) (n : Nat) (ho : off.toNat ≤ 1536) (hn : n < 512) :
    (off + BitVec.ofNat 32 n).toInt = ((off.toNat + n : ℕ) : ℤ) := by
  have h1 : (off + BitVec.ofNat 32 n).toNat = off.toNat + n := by
    rw [BitVec.toNat_add, BitVec.toNat_ofNat]
    omega
  rw [BitVec.toInt_eq_toNat_cond, h1]
  split
  · rfl
  · omega

theorem maskV_apply (off : BitVec 32) (hoff : off = 0#32 ∨ off = 512#32 ∨ off = 1024#32 ∨ off = 1536#32)
    (sc : FVec Ideal S512x512 .f32) (r c : Fin 512) :
    maskV off sc (ix2 r c) = if c.val ≤ r.val then sc (ix2 r c) else ⊥ := by
  have hn : Named.named (F := Ideal) κ "neg_big" (φ := .f32) 0xFF333332#32 = (⊥ : EReal) :=
    IdealRules.named_const.ideal_named_scalar _ _ _ _ rfl
  have ho : off.toNat ≤ 1536 := by rcases hoff with h | h | h | h <;> subst h <;> decide
  have key : (off + BitVec.ofNat 32 c.val).sle (off + BitVec.ofNat 32 r.val) = decide (c.val ≤ r.val) := by
    unfold BitVec.sle
    rw [toInt_off_add off c.val ho c.isLt, toInt_off_add off r.val ho r.isLt]
    exact decide_eq_decide.mpr (by omega)
  unfold maskV
  rw [select_apply, broadcast_apply, hn]
  show Scalar.select (IntOp.cmpi .sle (IntOp.addi off (iota .tc S512x512 32 [1] iota_S512x512_d1_w32 (ix2 r c)))
      (IntOp.addi off (iota .tc S512x512 32 [0] iota_S512x512_d0_w32 (ix2 r c)))) (sc (ix2 r c)) ⊥ = _
  rw [iota_single_apply, iota_single_apply]
  show Scalar.select (BitVec.ofBool ((off + BitVec.ofNat 32 c.val).sle (off + BitVec.ofNat 32 r.val))) (sc (ix2 r c)) ⊥ = _
  rw [key]
  by_cases h : c.val ≤ r.val
  · rw [if_pos h, decide_eq_true h]; exact select_one _ _
  · rw [if_neg h, decide_eq_false h]; exact select_zero _ _

/-- The new running maximum at row r: the larger of the old one and the row's largest score. -/
theorem mV_row (m : FVec Ideal S512x1 .f32) (sc : FVec Ideal S512x512 .f32) (r : Fin 512) :
    mV m sc (ix2 r (0 : Fin 1)) = max (m (ix2 r (0 : Fin 1))) (Finset.univ.fold max ⊥ fun c : Fin 512 => sc (ix2 r c)) := by
  have hbot : Ideal.ofBits .f32 0xFF800000#32 = (⊥ : EReal) := by simp [Ideal.ofBits, Ideal.ieee]
  unfold mV
  rw [maximumf_apply, shapeCast_a_a1_apply]
  refine congrArg (max (m (ix2 r (0 : Fin 1)))) ?_
  refine (Ideal.multiReduction_maximumf_single sc _ _ _ _ (ix1 r)).trans ?_
  show Finset.fold max (Ideal.ofBits .f32 0xFF800000#32) (fun c : Fin 512 => sc (reduces_S512x512_S512.lift (ix1 r) c)) Finset.univ = _
  rw [hbot]
  refine congrArg (fun f : Fin 512 → EReal => Finset.fold max ⊥ f Finset.univ) (funext fun c => ?_)
  refine congrArg sc (funext fun ax => Fin.ext ?_)
  match ax with
  | ⟨0, _⟩ => rfl
  | ⟨1, _⟩ => rfl

/-- The new running sum at row r: the old one rescaled plus the row's exponentials. -/
theorem lV_row (m m' l : FVec Ideal S512x1 .f32) (sc : FVec Ideal S512x512 .f32) (r : Fin 512) :
    lV (aV m m') l (pV sc m') (ix2 r (0 : Fin 1))
      = Ideal.exp (m (ix2 r (0 : Fin 1)) - m' (ix2 r (0 : Fin 1))) * l (ix2 r (0 : Fin 1))
        + ∑ c : Fin 512, Ideal.exp (sc (ix2 r c) - m' (ix2 r (0 : Fin 1))) := by
  unfold lV aV pV
  rw [addf_apply, mulf_apply, exp_apply, subf_apply, shapeCast_a_a1_apply]
  congr 1
  refine (multiReduction_add_rows_apply _ _ _ _ _ r).trans ?_
  refine Finset.sum_congr rfl fun c _ => ?_
  rw [exp_apply, subf_apply, broadcastTo_a1_ab_apply]

/-- The new running weighted sum at (r, d): the old one rescaled plus the row's exponentials weighting column d of the values. -/
theorem accV_row (m m' : FVec Ideal S512x1 .f32) (acc : FVec Ideal S512x128 .f32) (sc : FVec Ideal S512x512 .f32)
    (vt : FVec Ideal S512x128 .bf16) (r : Fin 512) (d : Fin 128) :
    accV (aV m m') acc (pV sc m') vt (ix2 r d)
      = Ideal.exp (m (ix2 r (0 : Fin 1)) - m' (ix2 r (0 : Fin 1))) * acc (ix2 r d)
        + ∑ c : Fin 512, Ideal.exp (sc (ix2 r c) - m' (ix2 r (0 : Fin 1))) * vt (ix2 c d) := by
  unfold accV aV pV
  rw [addf_apply, mulf_apply, broadcastTo_a1_ab_apply, exp_apply, subf_apply]
  congr 1
  refine (Cert.LibDot.matmul_zero_at dot_S512x512_S512x128_S512x128_1_0_0_1_n_n rfl rfl rfl rfl rfl rfl none _ vt r d).trans ?_
  refine Finset.sum_congr rfl fun c _ => ?_
  rw [truncf_apply, exp_apply, subf_apply, broadcastTo_a1_ab_apply]

/-- One visit of a key tile, read at row r, is one step of the streaming state. -/
theorem stepV_row (m l : FVec Ideal S512x1 .f32) (acc : FVec Ideal S512x128 .f32) (sc : FVec Ideal S512x512 .f32)
    (vt : FVec Ideal S512x128 .bf16) (r : Fin 512) :
    rowFS (mV m sc) (lV (aV m (mV m sc)) l (pV sc (mV m sc))) (accV (aV m (mV m sc)) acc (pV sc (mV m sc)) vt) r
      = Cert.Spec.fstep (rowFS m l acc r) (fun c => sc (ix2 r c)) (fun c d => vt (ix2 c d)) := by
  unfold rowFS Cert.Spec.fstep
  simp only [mV_row, lV_row, accV_row]

theorem outV_apply (m l : FVec Ideal S512x1 .f32) (acc : FVec Ideal S512x128 .f32) (r : Fin 512) (d : Fin 128) :
    outV acc l (ix2 r d) = Cert.Spec.fout (rowFS m l acc r) d := by
  unfold outV Cert.Spec.fout rowFS
  rw [truncf_apply, divf_apply, broadcastTo_a1_ab_apply]

/-- The starting state arrays, read at a row: maximum −∞, sums zero. -/
theorem init_row (r : Fin 512) :
    rowFS (broadcast S512x1 (Scalar.ofBits (F := Ideal) .f32 0xFF800000#32)) (broadcast S512x1 (Scalar.ofBits (F := Ideal) .f32 0x00000000#32))
      (broadcast S512x128 (Scalar.ofBits (F := Ideal) .f32 0x00000000#32)) r = Cert.Spec.fs0 := by
  have hbot : Ideal.ofBits .f32 0xFF800000#32 = (⊥ : EReal) := by simp [Ideal.ofBits, Ideal.ieee]
  unfold rowFS Cert.Spec.fs0
  simp only [broadcast_apply, Ideal.ofBits_def, Ideal.ofBits_zero_f32, hbot]

/-- The table's left half (columns 0..63, the cosines), read at (p, q). -/
theorem ld_cos (x3 : Vec Ideal S2048x128 .f32) (p : Fin 2048) (q : Fin 64) :
    (View.ld x3 r3_0 : FVec Ideal S2048x64 .f32) (ix2 p q) = x3 (ix2 p (⟨q.val, by omega⟩ : Fin 128)) := by
  refine congrArg x3 (funext fun ax => Fin.ext ?_)
  match ax with
  | ⟨0, _⟩ => show 0 + 1 * p.val = p.val; omega
  | ⟨1, _⟩ => show 0 + 1 * q.val = q.val; omega

/-- The table's right half (columns 64..127, the sines), read at (p, q). -/
theorem ld_sin (x3 : Vec Ideal S2048x128 .f32) (p : Fin 2048) (q : Fin 64) :
    (View.ld x3 r3_1 : FVec Ideal S2048x64 .f32) (ix2 p q) = x3 (ix2 p (⟨q.val + 64, by omega⟩ : Fin 128)) := by
  refine congrArg x3 (funext fun ax => Fin.ext ?_)
  match ax with
  | ⟨0, _⟩ => show 0 + 1 * p.val = p.val; omega
  | ⟨1, _⟩ => show 64 + 1 * q.val = q.val + 64; omega

/-- A block loaded whole is the block. -/
theorem ld_whole (x : Vec Ideal S2048x128 .bf16) : (View.ld x r3_2 : FVec Ideal S2048x128 .bf16) = x :=
  View.ld_unit_zero (funext fun a => by match a with | ⟨0, _⟩ => rfl | ⟨1, _⟩ => rfl) _ x

/-- The body's rotation of a block t by a cosine table cs and a sine table sn, read at (p, q): columns below 64 are
    t(p, q)·cs(p, q) − t(p, q + 64)·sn(p, q); columns from 64 on are t(p, q)·cs(p, q − 64) + t(p, q − 64)·sn(p, q − 64). -/
theorem rope_core (cs sn : FVec Ideal S2048x64 .f32) (t : FVec Ideal S2048x128 .bf16) (p : Fin 2048) (q : Fin 128) :
    k3_pay3 (F := Ideal) cs sn t (ix2 p q)
      = if h : q.val < 64 then
          t (ix2 p (⟨q.val, by omega⟩ : Fin 128)) * cs (ix2 p (⟨q.val, h⟩ : Fin 64))
            - t (ix2 p (⟨q.val + 64, by omega⟩ : Fin 128)) * sn (ix2 p (⟨q.val, h⟩ : Fin 64))
        else
          t (ix2 p (⟨q.val - 64 + 64, by omega⟩ : Fin 128)) * cs (ix2 p (⟨q.val - 64, by omega⟩ : Fin 64))
            + t (ix2 p (⟨q.val - 64, by omega⟩ : Fin 128)) * sn (ix2 p (⟨q.val - 64, by omega⟩ : Fin 64)) := by
  unfold k3_pay3 k3_pay1 k3_pay2
  rw [truncf_apply]
  by_cases h : q.val < 64
  · rw [dif_pos h]
    refine (concatenate_pair_apply_left 1 _ _ concatenates_S2048x64_S2048x64_S2048x128_d1 (ix2 p q) rfl (ix2 p (⟨q.val, h⟩ : Fin 64))
      (fun b => by match b with | ⟨0, _⟩ => rfl | ⟨1, _⟩ => rfl)).trans ?_
    rw [subf_apply, mulf_apply, mulf_apply,
      extractStridedSlice_apply ![0, 0] _ slices_S2048x128_o0_0_S2048x64 (ix2 p (⟨q.val, h⟩ : Fin 64)) (ix2 p (⟨q.val, by omega⟩ : Fin 128))
        (fun a => by match a with | ⟨0, _⟩ => (show p.val = 0 + p.val; omega) | ⟨1, _⟩ => (show q.val = 0 + q.val; omega)),
      extractStridedSlice_apply ![0, 64] _ slices_S2048x128_o0_64_S2048x64 (ix2 p (⟨q.val, h⟩ : Fin 64)) (ix2 p (⟨q.val + 64, by omega⟩ : Fin 128))
        (fun a => by match a with | ⟨0, _⟩ => (show p.val = 0 + p.val; omega) | ⟨1, _⟩ => (show q.val + 64 = 64 + q.val; omega)),
      extf_apply, extf_apply, shapeCast_self, shapeCast_self, shapeCast_self]
  · rw [dif_neg h]
    refine (concatenate_pair_apply_right 1 _ _ concatenates_S2048x64_S2048x64_S2048x128_d1 (ix2 p q) rfl rfl (ix2 p (⟨q.val - 64, by omega⟩ : Fin 64))
      (fun b hb => by match b with | ⟨0, _⟩ => rfl | ⟨1, _⟩ => exact absurd rfl hb)
      (by show q.val - 64 + 64 = q.val; omega)).trans ?_
    rw [addf_apply, mulf_apply, mulf_apply,
      extractStridedSlice_apply ![0, 64] _ slices_S2048x128_o0_64_S2048x64 (ix2 p (⟨q.val - 64, by omega⟩ : Fin 64)) (ix2 p (⟨q.val - 64 + 64, by omega⟩ : Fin 128))
        (fun a => by match a with | ⟨0, _⟩ => (show p.val = 0 + p.val; omega) | ⟨1, _⟩ => (show q.val - 64 + 64 = 64 + (q.val - 64); omega)),
      extractStridedSlice_apply ![0, 0] _ slices_S2048x128_o0_0_S2048x64 (ix2 p (⟨q.val - 64, by omega⟩ : Fin 64)) (ix2 p (⟨q.val - 64, by omega⟩ : Fin 128))
        (fun a => by match a with | ⟨0, _⟩ => (show p.val = 0 + p.val; omega) | ⟨1, _⟩ => (show q.val - 64 = 0 + (q.val - 64); omega)),
      extf_apply, extf_apply, shapeCast_self, shapeCast_self, shapeCast_self]

/-- The key block's rotation is the same function as the query block's. -/
theorem pay4_eq_pay3 (cs sn : FVec Ideal S2048x64 .f32) (t : FVec Ideal S2048x128 .bf16) :
    k3_pay4 (F := Ideal) cs sn t = k3_pay3 (F := Ideal) cs sn t := rfl

/-- The body's rotation of the query block by the table's two halves is the rotation of the mathematics. -/
theorem rope_q (x0 : Vec Ideal S2048x128 .bf16) (x3 : Vec Ideal S2048x128 .f32) :
    k3_pay3 (F := Ideal) (View.ld x3 r3_0) (View.ld x3 r3_1) (View.ld x0 r3_2) = Cert.Spec.ropeB x0 x3 := by
  funext i
  obtain ⟨p, q, rfl⟩ : ∃ (p : Fin 2048) (q : Fin 128), i = ix2 p q := ⟨i 0, i 1, eq_ix2 i⟩
  rw [rope_core, ld_whole]
  unfold Cert.Spec.ropeB
  by_cases h : q.val < 64
  · rw [dif_pos h, dif_pos (show (ix2 p q 1).val < 64 from h), ld_cos, ld_sin]
  · rw [dif_neg h, dif_neg (show ¬ (ix2 p q 1).val < 64 from h), ld_cos, ld_sin]
    have e : (⟨q.val - 64 + 64, by omega⟩ : Fin 128) = q := Fin.ext (by show q.val - 64 + 64 = q.val; omega)
    rw [e]

/-- The same for the key block. -/
theorem rope_k (x1 : Vec Ideal S2048x128 .bf16) (x3 : Vec Ideal S2048x128 .f32) :
    k3_pay4 (F := Ideal) (View.ld x3 r3_0) (View.ld x3 r3_1) (View.ld x1 r3_2) = Cert.Spec.ropeB x1 x3 := by
  rw [pay4_eq_pay3]
  exact rope_q x1 x3

/-- The value block is loaded whole. -/
theorem load_v (x2 : Vec Ideal S2048x128 .bf16) : k3_pay5 (F := Ideal) (View.ld x2 r3_2) = x2 := by
  unfold k3_pay5
  rw [shapeCast_self]
  exact View.ld_unit_zero (funext fun a => by match a with | ⟨0, _⟩ => rfl | ⟨1, _⟩ => rfl) _ x2

/-- Tile a (rows 512·a .. 512·a + 511) of a block, read at an index. -/
theorem tile0_apply (v : FVec Ideal S2048x128 .bf16) (r : Fin 512) (d : Fin 128) :
    extractStridedSlice S512x128 ![0, 0] v slices_S2048x128_o0_0_S512x128 (ix2 r d) = v (ix2 (Cert.Spec.pos 0 r) d) := by
  refine extractStridedSlice_apply _ v _ (ix2 r d) (ix2 (Cert.Spec.pos 0 r) d) fun a => ?_
  match a with
  | ⟨0, _⟩ => show 0 * 512 + r.val = 0 + r.val; omega
  | ⟨1, _⟩ => show d.val = 0 + d.val; omega
theorem tile1_apply (v : FVec Ideal S2048x128 .bf16) (r : Fin 512) (d : Fin 128) :
    extractStridedSlice S512x128 ![512, 0] v slices_S2048x128_o512_0_S512x128 (ix2 r d) = v (ix2 (Cert.Spec.pos 1 r) d) := by
  refine extractStridedSlice_apply _ v _ (ix2 r d) (ix2 (Cert.Spec.pos 1 r) d) fun a => ?_
  match a with
  | ⟨0, _⟩ => show 1 * 512 + r.val = 512 + r.val; omega
  | ⟨1, _⟩ => show d.val = 0 + d.val; omega
theorem tile2_apply (v : FVec Ideal S2048x128 .bf16) (r : Fin 512) (d : Fin 128) :
    extractStridedSlice S512x128 ![1024, 0] v slices_S2048x128_o1024_0_S512x128 (ix2 r d) = v (ix2 (Cert.Spec.pos 2 r) d) := by
  refine extractStridedSlice_apply _ v _ (ix2 r d) (ix2 (Cert.Spec.pos 2 r) d) fun a => ?_
  match a with
  | ⟨0, _⟩ => show 2 * 512 + r.val = 1024 + r.val; omega
  | ⟨1, _⟩ => show d.val = 0 + d.val; omega
theorem tile3_apply (v : FVec Ideal S2048x128 .bf16) (r : Fin 512) (d : Fin 128) :
    extractStridedSlice S512x128 ![1536, 0] v slices_S2048x128_o1536_0_S512x128 (ix2 r d) = v (ix2 (Cert.Spec.pos 3 r) d) := by
  refine extractStridedSlice_apply _ v _ (ix2 r d) (ix2 (Cert.Spec.pos 3 r) d) fun a => ?_
  match a with
  | ⟨0, _⟩ => show 3 * 512 + r.val = 1536 + r.val; omega
  | ⟨1, _⟩ => show d.val = 0 + d.val; omega

end Cert.KernelIdeal.Val

end
-- ==== Proof.AttnBody.lean ====
/-
  The attention region's body, read as one function of its four input blocks: the query, key and value blocks
  of one (batch, head) and the packed rotation table. The body rotates the query and key blocks, then for each of
  four query tiles streams over the key tiles up to the diagonal one; what it stores is the streaming attention.
-/
import proofs.«424713_j70128226009183_3_alg».proof.Proof.Gen.KernelIdeal.Frame
import proofs.«424713_j70128226009183_3_alg».proof.Proof.Spec
import proofs.«424713_j70128226009183_3_alg».proof.Proof.AttnVec

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem

namespace AttnBody

/-! ## The three running arrays of a query tile, as one state -/

/-- The running maximum, running sum and running weighted sum of a query tile's 512 rows. -/
structure St where
  m : FVec Ideal S512x1 .f32
  l : FVec Ideal S512x1 .f32
  acc : FVec Ideal S512x128 .f32

/-- Before any key tile: maximum −∞, sums zero. -/
def St.init : St :=
  ⟨broadcast S512x1 (Scalar.ofBits (F := Ideal) .f32 0xFF800000#32), broadcast S512x1 (Scalar.ofBits (F := Ideal) .f32 0x00000000#32),
   broadcast S512x128 (Scalar.ofBits (F := Ideal) .f32 0x00000000#32)⟩

/-- Visit one key tile with scores sc and value rows vt. -/
def St.visit (s : St) (sc : FVec Ideal S512x512 .f32) (vt : FVec Ideal S512x128 .bf16) : St :=
  ⟨mV s.m sc, lV (aV s.m (mV s.m sc)) s.l (pV sc (mV s.m sc)), accV (aV s.m (mV s.m sc)) s.acc (pV sc (mV s.m sc)) vt⟩

/-- The tile's result. -/
def St.out (s : St) : FVec Ideal S512x128 .bf16 := outV s.acc s.l

/-- Row r of the state. -/
def St.row (s : St) (r : Fin 512) : Cert.Spec.FS := rowFS s.m s.l s.acc r

/-- The four row tiles of a block of 2048 rows. -/
abbrev tl0 (v : FVec Ideal S2048x128 .bf16) : FVec Ideal S512x128 .bf16 := extractStridedSlice S512x128 ![0, 0] v slices_S2048x128_o0_0_S512x128
abbrev tl1 (v : FVec Ideal S2048x128 .bf16) : FVec Ideal S512x128 .bf16 := extractStridedSlice S512x128 ![512, 0] v slices_S2048x128_o512_0_S512x128
abbrev tl2 (v : FVec Ideal S2048x128 .bf16) : FVec Ideal S512x128 .bf16 := extractStridedSlice S512x128 ![1024, 0] v slices_S2048x128_o1024_0_S512x128
abbrev tl3 (v : FVec Ideal S2048x128 .bf16) : FVec Ideal S512x128 .bf16 := extractStridedSlice S512x128 ![1536, 0] v slices_S2048x128_o1536_0_S512x128

/-! ## Each stored tile is the result of a chain of visits -/

theorem pay_tile0 (v0 v2 : Vec Ideal S2048x64 .f32) (v4 v17 v30 : Vec Ideal S2048x128 .bf16) :
    k3_pay11 (F := Ideal) (k3_pay6 (F := Ideal)) (k3_pay7 (F := Ideal)) (k3_pay8 (F := Ideal)) (k3_pay9 v30) (k3_pay10 v0 v2 v4 v17)
        (iota .tc S512x512 32 [0] iota_S512x512_d0_w32) 0#32
      = (St.init.visit (maskV 0#32 (scoreV (tl0 (k3_pay3 v0 v2 v4)) (tl0 (k3_pay4 v0 v2 v17)))) (tl0 (k3_pay5 v30))).out := rfl

theorem pay_tile1 (q k v : FVec Ideal S2048x128 .bf16) :
    k3_pay21 (F := Ideal) k v (k3_pay12 q) (k3_pay14 (F := Ideal)) (k3_pay15 (F := Ideal)) (k3_pay16 v) (k3_pay18 q k) (k3_pay19 q k) (k3_pay20 q k)
      = ((St.init.visit (scoreV (tl1 q) (tl0 k)) (tl0 v)).visit (maskV 512#32 (scoreV (tl1 q) (tl1 k))) (tl1 v)).out := rfl

theorem pay_tile2 (q k v : FVec Ideal S2048x128 .bf16) :
    k3_pay36 (F := Ideal) (k3_pay22 q) (k3_pay29 k (k3_pay22 q) (k3_pay23 (F := Ideal))) (k3_pay32 k (k3_pay22 q) (k3_pay23 (F := Ideal)))
        (k3_pay33 k v (k3_pay22 q) (k3_pay23 (F := Ideal))) (k3_pay34 k) (k3_pay35 v)
      = (((St.init.visit (scoreV (tl2 q) (tl0 k)) (tl0 v)).visit (scoreV (tl2 q) (tl1 k)) (tl1 v)).visit
          (maskV 1024#32 (scoreV (tl2 q) (tl2 k))) (tl2 v)).out := rfl

theorem pay_tile3 (q k v : FVec Ideal S2048x128 .bf16) :
    k3_pay58 (F := Ideal) k v (k3_pay37 q)
        (k3_pay51 k (k3_pay37 q) (k3_pay38 (F := Ideal)) (k3_pay39 (F := Ideal)) (k3_pay42 q k) (k3_pay43 q k))
        (k3_pay52 k v (k3_pay37 q) (k3_pay38 (F := Ideal)) (k3_pay40 (F := Ideal)) (k3_pay41 v) (k3_pay42 q k) (k3_pay43 q k))
        (k3_pay53 v) (k3_pay55 k (k3_pay37 q) (k3_pay38 (F := Ideal)) (k3_pay43 q k)) (k3_pay56 k (k3_pay37 q) (k3_pay38 (F := Ideal)) (k3_pay43 q k))
        (k3_pay57 k (k3_pay37 q) (k3_pay38 (F := Ideal)) (k3_pay43 q k))
      = ((((St.init.visit (scoreV (tl3 q) (tl0 k)) (tl0 v)).visit (scoreV (tl3 q) (tl1 k)) (tl1 v)).visit (scoreV (tl3 q) (tl2 k)) (tl2 v)).visit
          (maskV 1536#32 (scoreV (tl3 q) (tl3 k))) (tl3 v)).out := rfl

/-! ## Reading a chain of visits at one row -/

theorem St.out_apply (s : St) (r : Fin 512) (d : Fin 128) : s.out (ix2 r d) = Cert.Spec.fout (s.row r) d :=
  outV_apply s.m s.l s.acc r d

theorem St.visit_row (s : St) (sc : FVec Ideal S512x512 .f32) (vt : FVec Ideal S512x128 .bf16) (r : Fin 512) :
    (s.visit sc vt).row r = Cert.Spec.fstep (s.row r) (fun c => sc (ix2 r c)) (fun c d => vt (ix2 c d)) :=
  stepV_row s.m s.l s.acc sc vt r

theorem St.init_row (r : Fin 512) : St.init.row r = Cert.Spec.fs0 := Cert.KernelIdeal.Val.init_row r

/-- One more key tile of the streaming state, the tile named by any index equal to n mod 4. -/
theorem flashState_succ (q k v : Cert.Spec.Mat Cert.Spec.SR) (a : Fin 4) (r : Fin 512) (n : Nat) (b : Fin 4) (hb : b.val = n % 4) :
    Cert.Spec.flashState q k v a r (n + 1)
      = Cert.Spec.fstep (Cert.Spec.flashState q k v a r n) (Cert.Spec.tileScore q k a b r) (Cert.Spec.tileVal v b) := by
  have e : b = (⟨n % 4, Nat.mod_lt _ (by decide)⟩ : Fin 4) := Fin.ext hb
  subst e
  rfl

/-- A visit whose score rows and value rows are key tile b's carries row r's streaming state one tile on. -/
theorem visit_flash (q k v : Cert.Spec.Mat Cert.Spec.SR) (a b : Fin 4) (n : Nat) (hb : b.val = n % 4) (s : St)
    (sc : FVec Ideal S512x512 .f32) (vt : FVec Ideal S512x128 .bf16) (r : Fin 512)
    (hs : s.row r = Cert.Spec.flashState q k v a r n)
    (hsc : ∀ c, sc (ix2 r c) = Cert.Spec.tileScore q k a b r c)
    (hvt : ∀ c d, vt (ix2 c d) = Cert.Spec.tileVal v b c d) :
    (s.visit sc vt).row r = Cert.Spec.flashState q k v a r (n + 1) := by
  rw [St.visit_row, hs, flashState_succ q k v a r n b hb]
  congr 1
  · funext c; exact hsc c
  · funext c d; exact hvt c d

/-- Scores of query tile a against an earlier key tile b: every key is before every query, nothing is masked. -/
theorem score_off (q k : Cert.Spec.Mat Cert.Spec.SR) (qt kt : FVec Ideal S512x128 .bf16) (a b : Fin 4) (hab : b ≠ a)
    (hq : ∀ r d, qt (ix2 r d) = q (ix2 (Cert.Spec.pos a r) d)) (hk : ∀ c d, kt (ix2 c d) = k (ix2 (Cert.Spec.pos b c) d))
    (r c : Fin 512) : scoreV qt kt (ix2 r c) = Cert.Spec.tileScore q k a b r c := by
  rw [scoreV_apply]
  unfold Cert.Spec.tileScore Cert.Spec.scoreB
  rw [if_neg hab]
  simp only [hq, hk]

/-- Scores of query tile a against its own key tile: a key column after the query row scores −∞. -/
theorem score_diag (q k : Cert.Spec.Mat Cert.Spec.SR) (qt kt : FVec Ideal S512x128 .bf16) (a : Fin 4) (off : BitVec 32)
    (hoff : off = 0#32 ∨ off = 512#32 ∨ off = 1024#32 ∨ off = 1536#32)
    (hq : ∀ r d, qt (ix2 r d) = q (ix2 (Cert.Spec.pos a r) d)) (hk : ∀ c d, kt (ix2 c d) = k (ix2 (Cert.Spec.pos a c) d))
    (r c : Fin 512) : maskV off (scoreV qt kt) (ix2 r c) = Cert.Spec.tileScore q k a a r c := by
  rw [maskV_apply off hoff, scoreV_apply]
  unfold Cert.Spec.tileScore Cert.Spec.scoreB
  rw [if_pos rfl]
  simp only [hq, hk]

/-- The streaming attention at a position of query tile a, row r. -/
theorem flashRot_at (q k v : Cert.Spec.Mat Cert.Spec.SR) (a : Fin 4) (r : Fin 512) (d : Fin 128) (y : Cert.Spec.SR.Idx)
    (h0 : (y 0).val = a.val * 512 + r.val) (h1 : y 1 = d) :
    Cert.Spec.flashRot q k v y = Cert.Spec.fout (Cert.Spec.flashState q k v a r (a.val + 1)) d := by
  have hr : r.val < 512 := r.isLt
  have key : ∀ (A : Fin 4) (R : Fin 512) (N : Nat) (D : Fin 128), A = a → R = r → N = a.val + 1 → D = d →
      Cert.Spec.fout (Cert.Spec.flashState q k v A R N) D = Cert.Spec.fout (Cert.Spec.flashState q k v a r (a.val + 1)) d := by
    rintro _ _ _ _ rfl rfl rfl rfl; rfl
  unfold Cert.Spec.flashRot
  exact key _ _ _ _ (Fin.ext (by show (y 0).val / 512 = a.val; omega)) (Fin.ext (by show (y 0).val % 512 = r.val; omega))
    (by show (y 0).val / 512 + 1 = a.val + 1; omega) h1

/-! ## Each query tile's result is the streaming attention on its rows -/

theorem tile0_eq (q k v : FVec Ideal S2048x128 .bf16) (x : S512x128.Idx) :
    (St.init.visit (maskV 0#32 (scoreV (tl0 q) (tl0 k))) (tl0 v)).out x = Cert.Spec.flashRot q k v (r3_3.emb x) := by
  have h1 : (St.init.visit (maskV 0#32 (scoreV (tl0 q) (tl0 k))) (tl0 v)).row (x 0) = Cert.Spec.flashState q k v 0 (x 0) 1 :=
    visit_flash q k v 0 0 0 rfl _ _ _ (x 0) (St.init_row _)
      (fun c => score_diag q k _ _ 0 0#32 (Or.inl rfl) (tile0_apply q) (tile0_apply k) (x 0) c) (fun c d => tile0_apply v c d)
  refine (congrArg _ (eq_ix2 x)).trans ?_
  refine (St.out_apply _ (x 0) (x 1)).trans ?_
  rw [h1]
  exact (flashRot_at q k v 0 (x 0) (x 1) (r3_3.emb x) (by show 0 + 1 * (x 0).val = 0 * 512 + (x 0).val; omega)
    (Fin.ext (by show 0 + 1 * (x 1).val = (x 1).val; omega))).symm

theorem tile1_eq (q k v : FVec Ideal S2048x128 .bf16) (x : S512x128.Idx) :
    ((St.init.visit (scoreV (tl1 q) (tl0 k)) (tl0 v)).visit (maskV 512#32 (scoreV (tl1 q) (tl1 k))) (tl1 v)).out x
      = Cert.Spec.flashRot q k v (r3_4.emb x) := by
  have h1 : (St.init.visit (scoreV (tl1 q) (tl0 k)) (tl0 v)).row (x 0) = Cert.Spec.flashState q k v 1 (x 0) 1 :=
    visit_flash q k v 1 0 0 rfl _ _ _ (x 0) (St.init_row _)
      (fun c => score_off q k _ _ 1 0 (by decide) (tile1_apply q) (tile0_apply k) (x 0) c) (fun c d => tile0_apply v c d)
  have h2 : ((St.init.visit (scoreV (tl1 q) (tl0 k)) (tl0 v)).visit (maskV 512#32 (scoreV (tl1 q) (tl1 k))) (tl1 v)).row (x 0)
      = Cert.Spec.flashState q k v 1 (x 0) 2 :=
    visit_flash q k v 1 1 1 rfl _ _ _ (x 0) h1
      (fun c => score_diag q k _ _ 1 512#32 (Or.inr (Or.inl rfl)) (tile1_apply q) (tile1_apply k) (x 0) c) (fun c d => tile1_apply v c d)
  refine (congrArg _ (eq_ix2 x)).trans ?_
  refine (St.out_apply _ (x 0) (x 1)).trans ?_
  rw [h2]
  exact (flashRot_at q k v 1 (x 0) (x 1) (r3_4.emb x) (by show 512 + 1 * (x 0).val = 1 * 512 + (x 0).val; omega)
    (Fin.ext (by show 0 + 1 * (x 1).val = (x 1).val; omega))).symm

theorem tile2_eq (q k v : FVec Ideal S2048x128 .bf16) (x : S512x128.Idx) :
    (((St.init.visit (scoreV (tl2 q) (tl0 k)) (tl0 v)).visit (scoreV (tl2 q) (tl1 k)) (tl1 v)).visit
        (maskV 1024#32 (scoreV (tl2 q) (tl2 k))) (tl2 v)).out x = Cert.Spec.flashRot q k v (r3_5.emb x) := by
  have h1 : (St.init.visit (scoreV (tl2 q) (tl0 k)) (tl0 v)).row (x 0) = Cert.Spec.flashState q k v 2 (x 0) 1 :=
    visit_flash q k v 2 0 0 rfl _ _ _ (x 0) (St.init_row _)
      (fun c => score_off q k _ _ 2 0 (by decide) (tile2_apply q) (tile0_apply k) (x 0) c) (fun c d => tile0_apply v c d)
  have h2 : ((St.init.visit (scoreV (tl2 q) (tl0 k)) (tl0 v)).visit (scoreV (tl2 q) (tl1 k)) (tl1 v)).row (x 0)
      = Cert.Spec.flashState q k v 2 (x 0) 2 :=
    visit_flash q k v 2 1 1 rfl _ _ _ (x 0) h1
      (fun c => score_off q k _ _ 2 1 (by decide) (tile2_apply q) (tile1_apply k) (x 0) c) (fun c d => tile1_apply v c d)
  have h3 : (((St.init.visit (scoreV (tl2 q) (tl0 k)) (tl0 v)).visit (scoreV (tl2 q) (tl1 k)) (tl1 v)).visit
        (maskV 1024#32 (scoreV (tl2 q) (tl2 k))) (tl2 v)).row (x 0) = Cert.Spec.flashState q k v 2 (x 0) 3 :=
    visit_flash q k v 2 2 2 rfl _ _ _ (x 0) h2
      (fun c => score_diag q k _ _ 2 1024#32 (Or.inr (Or.inr (Or.inl rfl))) (tile2_apply q) (tile2_apply k) (x 0) c)
      (fun c d => tile2_apply v c d)
  refine (congrArg _ (eq_ix2 x)).trans ?_
  refine (St.out_apply _ (x 0) (x 1)).trans ?_
  rw [h3]
  exact (flashRot_at q k v 2 (x 0) (x 1) (r3_5.emb x) (by show 1024 + 1 * (x 0).val = 2 * 512 + (x 0).val; omega)
    (Fin.ext (by show 0 + 1 * (x 1).val = (x 1).val; omega))).symm

theorem tile3_eq (q k v : FVec Ideal S2048x128 .bf16) (x : S512x128.Idx) :
    ((((St.init.visit (scoreV (tl3 q) (tl0 k)) (tl0 v)).visit (scoreV (tl3 q) (tl1 k)) (tl1 v)).visit (scoreV (tl3 q) (tl2 k)) (tl2 v)).visit
        (maskV 1536#32 (scoreV (tl3 q) (tl3 k))) (tl3 v)).out x = Cert.Spec.flashRot q k v (r3_6.emb x) := by
  have h1 : (St.init.visit (scoreV (tl3 q) (tl0 k)) (tl0 v)).row (x 0) = Cert.Spec.flashState q k v 3 (x 0) 1 :=
    visit_flash q k v 3 0 0 rfl _ _ _ (x 0) (St.init_row _)
      (fun c => score_off q k _ _ 3 0 (by decide) (tile3_apply q) (tile0_apply k) (x 0) c) (fun c d => tile0_apply v c d)
  have h2 : ((St.init.visit (scoreV (tl3 q) (tl0 k)) (tl0 v)).visit (scoreV (tl3 q) (tl1 k)) (tl1 v)).row (x 0)
      = Cert.Spec.flashState q k v 3 (x 0) 2 :=
    visit_flash q k v 3 1 1 rfl _ _ _ (x 0) h1
      (fun c => score_off q k _ _ 3 1 (by decide) (tile3_apply q) (tile1_apply k) (x 0) c) (fun c d => tile1_apply v c d)
  have h3 : (((St.init.visit (scoreV (tl3 q) (tl0 k)) (tl0 v)).visit (scoreV (tl3 q) (tl1 k)) (tl1 v)).visit (scoreV (tl3 q) (tl2 k)) (tl2 v)).row (x 0)
      = Cert.Spec.flashState q k v 3 (x 0) 3 :=
    visit_flash q k v 3 2 2 rfl _ _ _ (x 0) h2
      (fun c => score_off q k _ _ 3 2 (by decide) (tile3_apply q) (tile2_apply k) (x 0) c) (fun c d => tile2_apply v c d)
  have h4 : ((((St.init.visit (scoreV (tl3 q) (tl0 k)) (tl0 v)).visit (scoreV (tl3 q) (tl1 k)) (tl1 v)).visit (scoreV (tl3 q) (tl2 k)) (tl2 v)).visit
        (maskV 1536#32 (scoreV (tl3 q) (tl3 k))) (tl3 v)).row (x 0) = Cert.Spec.flashState q k v 3 (x 0) 4 :=
    visit_flash q k v 3 3 3 rfl _ _ _ (x 0) h3
      (fun c => score_diag q k _ _ 3 1536#32 (Or.inr (Or.inr (Or.inr rfl))) (tile3_apply q) (tile3_apply k) (x 0) c)
      (fun c d => tile3_apply v c d)
  refine (congrArg _ (eq_ix2 x)).trans ?_
  refine (St.out_apply _ (x 0) (x 1)).trans ?_
  rw [h4]
  exact (flashRot_at q k v 3 (x 0) (x 1) (r3_6.emb x) (by show 1536 + 1 * (x 0).val = 3 * 512 + (x 0).val; omega)
    (Fin.ext (by show 0 + 1 * (x 1).val = (x 1).val; omega))).symm

end AttnBody

/-! ## The four stores together -/

/-- The output block the body leaves is the streaming attention of the input blocks. -/
theorem out3_4_eq (x0 x1 x2 : Vec Ideal S2048x128 .bf16) (x3 : Vec Ideal S2048x128 .f32) :
    out3_4 (F := Ideal) x0 x1 x2 x3 = Cert.Spec.flashB x0 x1 x2 x3 := by
  -- the streaming attention, on the rotated query and key blocks and the value block as the body holds them
  have e : Cert.Spec.flashB x0 x1 x2 x3
      = Cert.Spec.flashRot (k3_pay3 (F := Ideal) (View.ld x3 r3_0) (View.ld x3 r3_1) (View.ld x0 r3_2))
          (k3_pay4 (F := Ideal) (View.ld x3 r3_0) (View.ld x3 r3_1) (View.ld x1 r3_2)) (k3_pay5 (F := Ideal) (View.ld x2 r3_2)) := by
    unfold Cert.Spec.flashB
    rw [rope_q, rope_k, load_v]
  funext y
  rw [e]
  unfold out3_4
  -- the four stores tile the block; each holds its 512 rows of the one function
  refine View.canon_apply_of_pieces _ _ ?_ y (cover3_4 _ _ _ _ y)
  intro pc hpc x
  rcases List.mem_cons.mp hpc with rfl | hpc
  · exact (congrFun (AttnBody.pay_tile3 _ _ _) x).trans (AttnBody.tile3_eq _ _ _ x)
  rcases List.mem_cons.mp hpc with rfl | hpc
  · exact (congrFun (AttnBody.pay_tile2 _ _ _) x).trans (AttnBody.tile2_eq _ _ _ x)
  rcases List.mem_cons.mp hpc with rfl | hpc
  · exact (congrFun (AttnBody.pay_tile1 _ _ _) x).trans (AttnBody.tile1_eq _ _ _ x)
  rcases List.mem_cons.mp hpc with rfl | hpc
  · exact (congrFun (AttnBody.pay_tile0 _ _ _ _ _) x).trans (AttnBody.tile0_eq _ _ _ x)
  nomatch hpc

end Cert.KernelIdeal.Val

end
-- ==== Proof.AttnRegion.lean ====
/-
  The attention region. Its grid is 2 batches × 32 heads; point (b, h) reads rows b·2048 .. b·2048 + 2047 and columns
  h·128 .. h·128 + 127 of the query, key and value arrays, the whole rotation table, and writes the same block of
  the result. So the result array ends at the streaming attention applied head by head.
-/
import proofs.«424713_j70128226009183_3_alg».proof.Proof.Gen.KernelIdeal.Frame
import proofs.«424713_j70128226009183_3_alg».proof.Proof.Spec
import proofs.«424713_j70128226009183_3_alg».proof.Proof.AttnBody
import Idealize.ShloMosaic.Lib.Pipeline.Value
set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The whole-array function on one block -/

/-- At an index of block (b, h) — row b·2048 + y₀, column h·128 + y₁ — a per-head function of three arrays is the
    block function of their (b, h) blocks at (y₀, y₁): the quotients by the block sizes give back b and h, the
    remainders y₀ and y₁. -/
theorem perHead_block (f : Cert.Spec.Mat Cert.Spec.SR → Cert.Spec.Mat Cert.Spec.SR → Cert.Spec.Mat Cert.Spec.SR → Cert.Spec.Mat Cert.Spec.SR → Cert.Spec.Mat Cert.Spec.SR)
    (q k v : Cert.Spec.Mat Cert.Spec.SM) (rp : Cert.Spec.Mat Cert.Spec.SR) (b : Fin 2) (h : Fin 32)
    (i : Cert.Spec.SM.Idx) (y : Cert.Spec.SR.Idx)
    (h0 : (i 0).val = b.val * 2048 + (y 0).val) (h1 : (i 1).val = h.val * 128 + (y 1).val) :
    Cert.Spec.perHead f q k v rp i
      = f (Cert.Spec.blockOf q b h) (Cert.Spec.blockOf k b h) (Cert.Spec.blockOf v b h) rp y := by
  have hy0 : (y 0).val < 2048 := (y 0).isLt
  have hy1 : (y 1).val < 128 := (y 1).isLt
  have hb : b.val < 2 := b.isLt
  have hh : h.val < 32 := h.isLt
  have eb : ∀ p, (⟨(i 0).val / 2048, p⟩ : Fin 2) = b := fun p => Fin.ext (by show (i 0).val / 2048 = b.val; omega)
  have eh : ∀ p, (⟨(i 1).val / 128, p⟩ : Fin 32) = h := fun p => Fin.ext (by show (i 1).val / 128 = h.val; omega)
  have ey : ix2 (⟨(i 0).val % 2048, Nat.mod_lt _ (by decide)⟩ : Fin 2048) (⟨(i 1).val % 128, Nat.mod_lt _ (by decide)⟩ : Fin 128) = y := by
    funext a; apply Fin.ext
    match a with
    | ⟨0, _⟩ => show (i 0).val % 2048 = (y 0).val; omega
    | ⟨1, _⟩ => show (i 1).val % 128 = (y 1).val; omega
  unfold Cert.Spec.perHead
  rw [eb, eh, ey]

variable (V : (c : Dev nD) → (b : Ref sig .tc) → Buf (Elt Ideal) ((c : Thread nD τ).loc b))

/-! ## The index maps over the grid -/

/-- The printed index maps, decided over the 64 grid points: the query, key and value windows sit at the output
    window's block index on both axes, the rotation table's window at block (0, 0), and the output's block index
    is a (batch, head) pair. -/
theorem att_idx : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2) ∧ win3_2.index t (1 : Fin 2) = win3_4.index t (1 : Fin 2)
    ∧ win3_3.index t (0 : Fin 2) = 0 ∧ win3_3.index t (1 : Fin 2) = 0
    ∧ win3_4.index t (0 : Fin 2) ≤ 1 ∧ win3_4.index t (1 : Fin 2) ≤ 31 :=
  (by decide +kernel : ∀ t : Fin grid3.N, _)

/-- Every (batch, head) pair is some grid point's output block index. -/
theorem att_onto : ∀ (q0 : Fin 2) (q1 : Fin 32), ∃ t : Fin cfg3.N, win3_4.index t = ![q0.val, q1.val] :=
  (by decide +kernel : ∀ (q0 : Fin 2) (q1 : Fin 32), ∃ t : Fin grid3.N, win3_4.index t = ![q0.val, q1.val])

/-! ## The input blocks -/

/-- The query window's block at a point whose block index is (b, h) is the (b, h) block of the query array:
    a block's coordinate is the block index times the block size plus the coordinate inside the block. -/
theorem iblk_q (c : Dev nD) (t : Fin cfg3.N) (b : Fin 2) (h : Fin 32)
    (hb : win3_0.index t (0 : Fin 2) = b.val) (hh : win3_0.index t (1 : Fin 2) = h.val) :
    (iblk3 V c 0 t : Vec Ideal S2048x128 .bf16) = Cert.Spec.blockOf (V c main_v6) b h := by
  funext y
  unfold iblk3
  rw [View.read_apply]
  show V c main_v6 _ = V c main_v6 _
  congr 1
  funext a; apply Fin.ext
  match a with
  | ⟨0, _⟩ => show win3_0.index t (0 : Fin 2) * 2048 + 1 * (y 0).val = b.val * 2048 + (y 0).val; rw [hb]; omega
  | ⟨1, _⟩ => show win3_0.index t (1 : Fin 2) * 128 + 1 * (y 1).val = h.val * 128 + (y 1).val; rw [hh]; omega

/-- The key window's block is the (b, h) block of the key array. -/
theorem iblk_k (c : Dev nD) (t : Fin cfg3.N) (b : Fin 2) (h : Fin 32)
    (hb : win3_1.index t (0 : Fin 2) = b.val) (hh : win3_1.index t (1 : Fin 2) = h.val) :
    (iblk3 V c 1 t : Vec Ideal S2048x128 .bf16) = Cert.Spec.blockOf (V c main_v7) b h := by
  funext y
  unfold iblk3
  rw [View.read_apply]
  show V c main_v7 _ = V c main_v7 _
  congr 1
  funext a; apply Fin.ext
  match a with
  | ⟨0, _⟩ => show win3_1.index t (0 : Fin 2) * 2048 + 1 * (y 0).val = b.val * 2048 + (y 0).val; rw [hb]; omega
  | ⟨1, _⟩ => show win3_1.index t (1 : Fin 2) * 128 + 1 * (y 1).val = h.val * 128 + (y 1).val; rw [hh]; omega

/-- The value window's block is the (b, h) block of the value array. -/
theorem iblk_v (c : Dev nD) (t : Fin cfg3.N) (b : Fin 2) (h : Fin 32)
    (hb : win3_2.index t (0 : Fin 2) = b.val) (hh : win3_2.index t (1 : Fin 2) = h.val) :
    (iblk3 V c 2 t : Vec Ideal S2048x128 .bf16) = Cert.Spec.blockOf (V c main_v8) b h := by
  funext y
  unfold iblk3
  rw [View.read_apply]
  show V c main_v8 _ = V c main_v8 _
  congr 1
  funext a; apply Fin.ext
  match a with
  | ⟨0, _⟩ => show win3_2.index t (0 : Fin 2) * 2048 + 1 * (y 0).val = b.val * 2048 + (y 0).val; rw [hb]; omega
  | ⟨1, _⟩ => show win3_2.index t (1 : Fin 2) * 128 + 1 * (y 1).val = h.val * 128 + (y 1).val; rw [hh]; omega

/-- The rotation table's window is the whole table: its one block sits at block index (0, 0). -/
theorem iblk_rp (c : Dev nD) (t : Fin cfg3.N)
    (h0 : win3_3.index t (0 : Fin 2) = 0) (h1 : win3_3.index t (1 : Fin 2) = 0) :
    (iblk3 V c 3 t : Vec Ideal S2048x128 .f32) = V c main_v9 := by
  funext y
  unfold iblk3
  rw [View.read_apply]
  show V c main_v9 _ = V c main_v9 _
  congr 1
  funext a; apply Fin.ext
  match a with
  | ⟨0, _⟩ => show win3_3.index t (0 : Fin 2) * 2048 + 1 * (y 0).val = (y 0).val; rw [h0]; omega
  | ⟨1, _⟩ => show win3_3.index t (1 : Fin 2) * 128 + 1 * (y 1).val = (y 1).val; rw [h1]; omega

/-! ## What a point writes back, and the cover -/

/-- What grid point t writes back to the result array is block t of the streaming attention applied head by head:
    the body leaves the streaming attention of its four input blocks, the input blocks are the (b, h) blocks of the
    query, key and value arrays and the whole rotation table, and at an index of block (b, h) the head-by-head
    function is the block function of those blocks. -/
theorem att_flushed (c : Dev nD) (t : Fin cfg3.N) :
    (dat3 (F := Ideal) V c).flushed 4 t
      = ((cfg3.win 4).blk t).view.read (Elt Ideal)
          (Cert.Spec.perHead Cert.Spec.flashB (V c main_v6) (V c main_v7) (V c main_v8) (V c main_v9)) := by
  show (cfg3.win 4).cut (grid3.coords t) ((dat3 V c).after 4 t) = _
  rw [after3_4]
  obtain ⟨e00, e01, e10, e11, e20, e21, e30, e31, l0, l1⟩ := att_idx t
  rw [out3_4_eq (iblk3 V c 0 t) (iblk3 V c 1 t) (iblk3 V c 2 t) (iblk3 V c 3 t)]
  rw [iblk_q V c t ⟨win3_4.index t (0 : Fin 2), by omega⟩ ⟨win3_4.index t (1 : Fin 2), by omega⟩ e00 e01,
    iblk_k V c t ⟨win3_4.index t (0 : Fin 2), by omega⟩ ⟨win3_4.index t (1 : Fin 2), by omega⟩ e10 e11,
    iblk_v V c t ⟨win3_4.index t (0 : Fin 2), by omega⟩ ⟨win3_4.index t (1 : Fin 2), by omega⟩ e20 e21,
    iblk_rp V c t e30 e31]
  funext j
  rw [View.read_apply]
  refine (perHead_block Cert.Spec.flashB (V c main_v6) (V c main_v7) (V c main_v8) (V c main_v9)
    ⟨win3_4.index t (0 : Fin 2), by omega⟩ ⟨win3_4.index t (1 : Fin 2), by omega⟩
    (((cfg3.win 4).blk t).view.emb j) j ?_ ?_).symm
  · show win3_4.index t (0 : Fin 2) * 2048 + 1 * (j 0).val = win3_4.index t (0 : Fin 2) * 2048 + (j 0).val; omega
  · show win3_4.index t (1 : Fin 2) * 128 + 1 * (j 1).val = win3_4.index t (1 : Fin 2) * 128 + (j 1).val; omega

/-- An index of the result array is in point t's block iff each coordinate is in the block's range on its axis. -/
theorem att_mem_blk (t : Fin cfg3.N) (i : S4096x4096.Idx) :
    i ∈ ((cfg3.win 4).blk t).view.set ↔ ∀ a : Fin 2, win3_4.index t a * S2048x128.size a ≤ (i a).val ∧ (i a).val < win3_4.index t a * S2048x128.size a + S2048x128.size a := by
  show i ∈ ((View.whole main_v10).slice (win3_4.rect t)).set ↔ _
  rw [View.set_slice_whole, Rect.mem_set_unit]
  exact Iff.rfl

/-- The blocks tile the result array: row r and column s lie in the block of batch r / 2048 and head s / 128. -/
theorem att_cover (i : S4096x4096.Idx) :
    ∃ t : Fin cfg3.N, (cfg3.win 4).flush t = true ∧ i ∈ ((cfg3.win 4).blk t).view.set := by
  have hi0 : (i 0).val < 4096 := (i 0).isLt
  have hi1 : (i 1).val < 4096 := (i 1).isLt
  obtain ⟨t, ht⟩ := att_onto ⟨(i 0).val / 2048, by omega⟩ ⟨(i 1).val / 128, by omega⟩
  have q0 : win3_4.index t (0 : Fin 2) = (i 0).val / 2048 := congrFun ht 0
  have q1 : win3_4.index t (1 : Fin 2) = (i 1).val / 128 := congrFun ht 1
  refine ⟨t, flush3_4 t, ?_⟩
  rw [att_mem_blk]
  intro a
  match a with
  | ⟨0, _⟩ => show win3_4.index t (0 : Fin 2) * 2048 ≤ (i 0).val ∧ (i 0).val < win3_4.index t (0 : Fin 2) * 2048 + 2048; omega
  | ⟨1, _⟩ => show win3_4.index t (1 : Fin 2) * 128 ≤ (i 1).val ∧ (i 1).val < win3_4.index t (1 : Fin 2) * 128 + 128; omega

/-- The result array after the region: the streaming attention of every (batch, head) block. -/
theorem att_final (c : Dev nD) :
    (dat3 (F := Ideal) V c).arrAt 4 cfg3.N
      = Cert.Spec.perHead Cert.Spec.flashB (V c main_v6) (V c main_v7) (V c main_v8) (V c main_v9) :=
  (dat3 (F := Ideal) V c).arrAt_eq_of_cover 4
    (Cert.Spec.perHead Cert.Spec.flashB (V c main_v6) (V c main_v7) (V c main_v8) (V c main_v9))
    (fun t _ => att_flushed V c t) att_cover

end Cert.KernelIdeal.Val

end
-- ==== Proof.LibKeep.lean ====
/-
  A buffer that no operation of a host stretch writes keeps its contents across the stretch.
-/
import Idealize.ShloMosaic.Lib.StableHlo.Run

namespace Cert.LibKeep

open Idealize.ShloMosaic

/-- Closes `after ops X (devRef b) = X (devRef b)` for a literal list `ops` (named by the identifier given) none of
    whose operations writes `b`: each operation writes one literal reference, and it differs from `b`. -/
macro "kept_host" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

end Cert.LibKeep
-- ==== Proof.KernelChain.lean ====
/-
  The kernel program's result as a function of its arguments. The host reshapes x to 4096 rows and narrows it and the
  weights (no change over the extended reals); three projection regions give Q, K and V; the host packs the cosine
  and sine tables side by side; the attention region gives the heads' outputs; the last projection region multiplies by
  woᵀ; the host splits the rows back into batch and position.
-/
import proofs.«424713_j70128226009183_3_alg».proof.Proof.Gen.KernelIdeal.Frame
import proofs.«424713_j70128226009183_3_alg».proof.Proof.Spec
import proofs.«424713_j70128226009183_3_alg».proof.Proof.MatmulRegion0
import proofs.«424713_j70128226009183_3_alg».proof.Proof.MatmulRegion1
import proofs.«424713_j70128226009183_3_alg».proof.Proof.MatmulRegion2
import proofs.«424713_j70128226009183_3_alg».proof.Proof.MatmulRegion4
import proofs.«424713_j70128226009183_3_alg».proof.Proof.AttnRegion
import proofs.«424713_j70128226009183_3_alg».proof.Proof.LibKeep
import Idealize.ShloMosaic.Lib.StableHlo.Run
import Idealize.ShloMosaic.Lib.Pipeline.Value
set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The host's operations read at a buffer -/

/-- The side-by-side packing of two 2048 × 64 tables, read at an index: columns below 64 the first, the rest the second. -/
theorem concat_eq_cat (a b : Cert.Spec.Mat Cert.Spec.SC) :
    concatenate S2048x128 1 [⟨S2048x64, a⟩, ⟨S2048x64, b⟩] concatenates_S2048x64_S2048x64_S2048x128_d1 = Cert.Spec.cat a b := by
  funext i
  unfold Cert.Spec.cat
  by_cases h : (i 1).val < 64
  · rw [dif_pos h]
    exact concatenate_pair_apply_left (1 : Fin 2) a b _ i rfl (ix2 (i 0) (⟨(i 1).val, h⟩ : Fin 64))
      (fun d => by match d with | ⟨0, _⟩ => rfl | ⟨1, _⟩ => rfl)
  · rw [dif_neg h]
    have h1 : (i 1).val < 128 := (i 1).isLt
    exact concatenate_pair_apply_right (1 : Fin 2) a b _ i rfl rfl (ix2 (i 0) (⟨(i 1).val - 64, by omega⟩ : Fin 64))
      (fun d hd => by match d, hd with | ⟨0, _⟩, _ => rfl | ⟨1, _⟩, hd => exact absurd rfl hd)
      (by show (i 1).val - 64 + 64 = (i 1).val; omega)

/-- After the first host stretch the flattened input: row b·2048 + s of the 4096 × 4096 array is position (b, s). -/
theorem W1_v1 (c : Dev nD) :
    W1 (F := Ideal) m ρ c (Proc.devRef .tc main_v1) = Cert.Spec.flat (m ((c : Thread nD τ).loc main_arg0)) := by
  show StableHlo.after hostOps0 (W0 m ρ c) (Proc.devRef .tc main_v1) = _
  dsimp only [hostOps0]
  after_results
  funext i
  show shapeCast S4096x4096 (W0 m ρ c (Proc.devRef .tc main_arg0)) shapeCasts_S2x2048x4096_S4096x4096 i = _
  have hi0 : (i 0).val < 4096 := (i 0).isLt
  refine (shapeCast_apply _ _ i (ix3 (⟨(i 0).val / 2048, by omega⟩ : Fin 2) (⟨(i 0).val % 2048, by omega⟩ : Fin 2048) (i 1)) ?_).trans rfl
  rw [Shape.rowMajor_val_two, Shape.rowMajor_val_three]
  show ((i 0).val / 2048 * 2048 + (i 0).val % 2048) * 4096 + (i 1).val = (i 0).val * 4096 + (i 1).val
  omega

/-- The narrowed weights are the launch weights: narrowing changes nothing over the extended reals. -/
theorem W1_v2 (c : Dev nD) :
    W1 (F := Ideal) m ρ c (Proc.devRef .tc main_v2) = m ((c : Thread nD τ).loc main_arg3) := by
  show StableHlo.after hostOps0 (W0 m ρ c) (Proc.devRef .tc main_v2) = _
  dsimp only [hostOps0]
  after_results
  rfl
theorem W1_v3 (c : Dev nD) :
    W1 (F := Ideal) m ρ c (Proc.devRef .tc main_v3) = m ((c : Thread nD τ).loc main_arg4) := by
  show StableHlo.after hostOps0 (W0 m ρ c) (Proc.devRef .tc main_v3) = _
  dsimp only [hostOps0]
  after_results
  rfl
theorem W1_v4 (c : Dev nD) :
    W1 (F := Ideal) m ρ c (Proc.devRef .tc main_v4) = m ((c : Thread nD τ).loc main_arg5) := by
  show StableHlo.after hostOps0 (W0 m ρ c) (Proc.devRef .tc main_v4) = _
  dsimp only [hostOps0]
  after_results
  rfl
theorem W1_v5 (c : Dev nD) :
    W1 (F := Ideal) m ρ c (Proc.devRef .tc main_v5) = m ((c : Thread nD τ).loc main_arg6) := by
  show StableHlo.after hostOps0 (W0 m ρ c) (Proc.devRef .tc main_v5) = _
  dsimp only [hostOps0]
  after_results
  rfl

/-- The cosine table and the sine table reach the second host stretch as launched: no operation and no region before it writes them. -/
theorem W4_arg1 (c : Dev nD) :
    W4 (F := Ideal) m ρ c (Proc.devRef .tc main_arg1) = m ((c : Thread nD τ).loc main_arg1) :=
  calc W4 (F := Ideal) m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := by kept_host hostOps0
    _ = m ((c : Thread nD τ).loc main_arg1) := rfl
theorem W4_arg2 (c : Dev nD) :
    W4 (F := Ideal) m ρ c (Proc.devRef .tc main_arg2) = m ((c : Thread nD τ).loc main_arg2) :=
  calc W4 (F := Ideal) m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := by kept_host hostOps0
    _ = m ((c : Thread nD τ).loc main_arg2) := rfl

/-- The packed table the attention region reads: the launch cosines beside the launch sines. -/
theorem W5_v9 (c : Dev nD) :
    W5 (F := Ideal) m ρ c (Proc.devRef .tc main_v9)
      = Cert.Spec.cat (m ((c : Thread nD τ).loc main_arg1)) (m ((c : Thread nD τ).loc main_arg2)) := by
  show StableHlo.after hostOps3 (W4 m ρ c) (Proc.devRef .tc main_v9) = _
  dsimp only [hostOps3]
  after_results
  rw [W4_arg1 m ρ c, W4_arg2 m ρ c]
  exact concat_eq_cat _ _

/-- The last host operation splits the 4096 rows back into batch and position. -/
theorem W8_v12 (c : Dev nD) :
    W8 (F := Ideal) m ρ c (Proc.devRef .tc main_v12)
      = Cert.Spec.unflat (W7 (F := Ideal) m ρ c (Proc.devRef .tc main_v11)) := by
  show StableHlo.after hostOps5 (W7 m ρ c) (Proc.devRef .tc main_v12) = _
  dsimp only [hostOps5]
  after_results
  refine funext fun (i : S2x2048x4096.Idx) => ?_
  show shapeCast S2x2048x4096 (W7 m ρ c (Proc.devRef .tc main_v11)) shapeCasts_S4096x4096_S2x2048x4096 i = _
  have h0 : (i 0).val < 2 := (i 0).isLt
  have h1 : (i 1).val < 2048 := (i 1).isLt
  refine (shapeCast_apply _ _ i (ix2 (⟨(i 0).val * 2048 + (i 1).val, by omega⟩ : Fin 4096) (i 2)) ?_).trans rfl
  rw [Shape.rowMajor_val_two, Shape.rowMajor_val_three]
  rfl

/-! ## The buffers the regions read and write, walked back through the segment boundaries -/

/-- The flattened input is the first operand of each projection region; an operand array leaves a region as it entered. -/
theorem W2_v1 (c : Dev nD) :
    W2 (F := Ideal) m ρ c (Proc.devRef .tc main_v1) = W1 (F := Ideal) m ρ c (Proc.devRef .tc main_v1) :=
  calc W2 (F := Ideal) m ρ c (Proc.devRef .tc main_v1)
    _ = (dat0 (V1 m ρ) c).arrAt 0 cfg0.N := W2_arr m ρ c 0
    _ = (dat0 (V1 m ρ) c).A 0 := (dat0 (V1 m ρ) c).arrAt_in 0 rfl _
    _ = V1 m ρ c main_v1 := A_eq0 (V1 m ρ) c 0
theorem W3_v1 (c : Dev nD) :
    W3 (F := Ideal) m ρ c (Proc.devRef .tc main_v1) = W2 (F := Ideal) m ρ c (Proc.devRef .tc main_v1) :=
  calc W3 (F := Ideal) m ρ c (Proc.devRef .tc main_v1)
    _ = (dat1 (V2 m ρ) c).arrAt 0 cfg1.N := W3_arr m ρ c 0
    _ = (dat1 (V2 m ρ) c).A 0 := (dat1 (V2 m ρ) c).arrAt_in 0 rfl _
    _ = V2 m ρ c main_v1 := A_eq1 (V2 m ρ) c 0

/-- Q: the first projection region's result, unchanged by the two regions and the host stretch after it. -/
theorem W5_v6 (c : Dev nD) :
    W5 (F := Ideal) m ρ c (Proc.devRef .tc main_v6)
      = Cert.Spec.mmT (Cert.Spec.flat (m ((c : Thread nD τ).loc main_arg0))) (m ((c : Thread nD τ).loc main_arg3)) :=
  calc W5 (F := Ideal) m ρ c (Proc.devRef .tc main_v6)
    _ = W4 m ρ c (Proc.devRef .tc main_v6) := by kept_host hostOps3
    _ = W3 m ρ c (Proc.devRef .tc main_v6) := W4_of_ne m ρ c main_v6 (by decide)
    _ = W2 m ρ c (Proc.devRef .tc main_v6) := W3_of_ne m ρ c main_v6 (by decide)
    _ = (dat0 (V1 m ρ) c).arrAt 2 cfg0.N := W2_arr m ρ c 2
    _ = Cert.Spec.mmT (V1 m ρ c main_v1) (V1 m ρ c main_v2) := mm_final0 (V1 m ρ) c
    _ = _ := by
      show Cert.Spec.mmT (W1 (F := Ideal) m ρ c (Proc.devRef .tc main_v1)) (W1 (F := Ideal) m ρ c (Proc.devRef .tc main_v2)) = _
      rw [W1_v1 m ρ c, W1_v2 m ρ c]

/-- K: the second projection region's result. -/
theorem W5_v7 (c : Dev nD) :
    W5 (F := Ideal) m ρ c (Proc.devRef .tc main_v7)
      = Cert.Spec.mmT (Cert.Spec.flat (m ((c : Thread nD τ).loc main_arg0))) (m ((c : Thread nD τ).loc main_arg4)) :=
  calc W5 (F := Ideal) m ρ c (Proc.devRef .tc main_v7)
    _ = W4 m ρ c (Proc.devRef .tc main_v7) := by kept_host hostOps3
    _ = W3 m ρ c (Proc.devRef .tc main_v7) := W4_of_ne m ρ c main_v7 (by decide)
    _ = (dat1 (V2 m ρ) c).arrAt 2 cfg1.N := W3_arr m ρ c 2
    _ = Cert.Spec.mmT (V2 m ρ c main_v1) (V2 m ρ c main_v3) := mm_final1 (V2 m ρ) c
    _ = _ := by
      show Cert.Spec.mmT (W2 (F := Ideal) m ρ c (Proc.devRef .tc main_v1)) (W2 (F := Ideal) m ρ c (Proc.devRef .tc main_v3)) = _
      rw [W2_v1 m ρ c, W1_v1 m ρ c, W2_of_ne m ρ c main_v3 (by decide), W1_v3 m ρ c]

/-- V: the third projection region's result. -/
theorem W5_v8 (c : Dev nD) :
    W5 (F := Ideal) m ρ c (Proc.devRef .tc main_v8)
      = Cert.Spec.mmT (Cert.Spec.flat (m ((c : Thread nD τ).loc main_arg0))) (m ((c : Thread nD τ).loc main_arg5)) :=
  calc W5 (F := Ideal) m ρ c (Proc.devRef .tc main_v8)
    _ = W4 m ρ c (Proc.devRef .tc main_v8) := by kept_host hostOps3
    _ = (dat2 (V3 m ρ) c).arrAt 2 cfg2.N := W4_arr m ρ c 2
    _ = Cert.Spec.mmT (V3 m ρ c main_v1) (V3 m ρ c main_v4) := mm_final2 (V3 m ρ) c
    _ = _ := by
      show Cert.Spec.mmT (W3 (F := Ideal) m ρ c (Proc.devRef .tc main_v1)) (W3 (F := Ideal) m ρ c (Proc.devRef .tc main_v4)) = _
      rw [W3_v1 m ρ c, W2_v1 m ρ c, W1_v1 m ρ c, W3_of_ne m ρ c main_v4 (by decide), W2_of_ne m ρ c main_v4 (by decide), W1_v4 m ρ c]

/-- The output projection's weights reach the last region as launched. -/
theorem W6_v5 (c : Dev nD) :
    W6 (F := Ideal) m ρ c (Proc.devRef .tc main_v5) = m ((c : Thread nD τ).loc main_arg6) :=
  calc W6 (F := Ideal) m ρ c (Proc.devRef .tc main_v5)
    _ = W5 m ρ c (Proc.devRef .tc main_v5) := W6_of_ne m ρ c main_v5 (by decide)
    _ = W4 m ρ c (Proc.devRef .tc main_v5) := by kept_host hostOps3
    _ = W3 m ρ c (Proc.devRef .tc main_v5) := W4_of_ne m ρ c main_v5 (by decide)
    _ = W2 m ρ c (Proc.devRef .tc main_v5) := W3_of_ne m ρ c main_v5 (by decide)
    _ = W1 m ρ c (Proc.devRef .tc main_v5) := W2_of_ne m ρ c main_v5 (by decide)
    _ = m ((c : Thread nD τ).loc main_arg6) := W1_v5 m ρ c

/-- The heads' outputs: the attention region's result on Q, K, V and the packed table. -/
theorem W6_v10 (c : Dev nD) :
    W6 (F := Ideal) m ρ c (Proc.devRef .tc main_v10)
      = Cert.Spec.perHead Cert.Spec.flashB
          (Cert.Spec.mmT (Cert.Spec.flat (m ((c : Thread nD τ).loc main_arg0))) (m ((c : Thread nD τ).loc main_arg3)))
          (Cert.Spec.mmT (Cert.Spec.flat (m ((c : Thread nD τ).loc main_arg0))) (m ((c : Thread nD τ).loc main_arg4)))
          (Cert.Spec.mmT (Cert.Spec.flat (m ((c : Thread nD τ).loc main_arg0))) (m ((c : Thread nD τ).loc main_arg5)))
          (Cert.Spec.cat (m ((c : Thread nD τ).loc main_arg1)) (m ((c : Thread nD τ).loc main_arg2))) :=
  calc W6 (F := Ideal) m ρ c (Proc.devRef .tc main_v10)
    _ = (dat3 (V5 m ρ) c).arrAt 4 cfg3.N := W6_arr m ρ c 4
    _ = Cert.Spec.perHead Cert.Spec.flashB (V5 m ρ c main_v6) (V5 m ρ c main_v7) (V5 m ρ c main_v8) (V5 m ρ c main_v9) :=
        att_final (V5 m ρ) c
    _ = _ := by
      show Cert.Spec.perHead Cert.Spec.flashB (W5 (F := Ideal) m ρ c (Proc.devRef .tc main_v6)) (W5 (F := Ideal) m ρ c (Proc.devRef .tc main_v7))
        (W5 (F := Ideal) m ρ c (Proc.devRef .tc main_v8)) (W5 (F := Ideal) m ρ c (Proc.devRef .tc main_v9)) = _
      rw [W5_v6 m ρ c, W5_v7 m ρ c, W5_v8 m ρ c, W5_v9 m ρ c]

/-- The last projection region's result: the heads' outputs times woᵀ. -/
theorem W7_v11 (c : Dev nD) :
    W7 (F := Ideal) m ρ c (Proc.devRef .tc main_v11)
      = Cert.Spec.out2d Cert.Spec.flashB (Cert.Spec.flat (m ((c : Thread nD τ).loc main_arg0)))
          (Cert.Spec.cat (m ((c : Thread nD τ).loc main_arg1)) (m ((c : Thread nD τ).loc main_arg2)))
          (m ((c : Thread nD τ).loc main_arg3)) (m ((c : Thread nD τ).loc main_arg4))
          (m ((c : Thread nD τ).loc main_arg5)) (m ((c : Thread nD τ).loc main_arg6)) :=
  calc W7 (F := Ideal) m ρ c (Proc.devRef .tc main_v11)
    _ = (dat4 (V6 m ρ) c).arrAt 2 cfg4.N := W7_arr m ρ c 2
    _ = Cert.Spec.mmT (V6 m ρ c main_v10) (V6 m ρ c main_v5) := mm_final4 (V6 m ρ) c
    _ = _ := by
      show Cert.Spec.mmT (W6 (F := Ideal) m ρ c (Proc.devRef .tc main_v10)) (W6 (F := Ideal) m ρ c (Proc.devRef .tc main_v5)) = _
      rw [W6_v10 m ρ c, W6_v5 m ρ c]
      rfl

/-- The result buffer's contents at the last segment boundary: the streaming form of the whole computation. -/
theorem kernel_value (c : Dev nD) :
    W8 (F := Ideal) m ρ c (Proc.devRef .tc main_v12)
      = Cert.Spec.outFlash (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [W8_v12 m ρ c, W7_v11 m ρ c]
  rfl

end Cert.KernelIdeal.Val

end
-- ==== Proof.RefProj.lean ====
/-
  The reference's projections and rotations, read at an index. Its projection of x by a weight matrix, split into
  32 heads and moved to (batch, head, position, feature) order, is at (b, h, s, j) the entry (b·2048 + s, h·128 + j) of
  x·wᵀ; its rotated query and key arrays are the rotations of those blocks by the packed tables.
-/
import proofs.«424713_j70128226009183_3_alg».proof.Proof.Gen.ReferenceIdeal.Read
import proofs.«424713_j70128226009183_3_alg».proof.Proof.Spec

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-! ## One projection in head order

  The product x·wᵀ is computed with rows (b, s) and 4096 feature columns; the reshape splits the feature e into
  (e / 128, e % 128) and the transpose moves the head axis before the position axis. Read backwards from (b, h, s, j):
  the row-major value of (b, s, h, j) in [2, 2048, 32, 128] is ((b·2048 + s)·32 + h)·128 + j, whose coordinates in
  [2, 2048, 4096] are b, s and h·128 + j. -/

/-- The query projection in head order. -/
theorem v2_at (x0 : Cert.Spec.Mat Cert.Spec.S3) (w : Cert.Spec.Mat Cert.Spec.SM) (b : Fin 2) (h : Fin 32) (s : Fin 2048) (j : Fin 128) :
    val_main_v2 (F := Ideal) x0 w (ix4 b h s j) = Cert.Spec.blockOf (Cert.Spec.mmT (Cert.Spec.flat x0) w) b h (ix2 s j) := by
  have hb := b.isLt; have hh := h.isLt; have hs := s.isLt; have hj := j.isLt
  rw [val_main_v2_apply, val_main_v1_apply, val_main_v0_apply]
  unfold Cert.Spec.blockOf Cert.Spec.mmT Cert.Spec.flat
  refine Finset.sum_congr rfl fun k _ => ?_
  -- the left operand's index: batch (b·2048 + s) / 2048, position (b·2048 + s) % 2048, contracted feature k
  have hl : lidx_main_v0 (idx_main_v1 (idx_main_v2 (ix4 b h s j))) k
      = ix3 (⟨(b.val * 2048 + s.val) / 2048, by omega⟩ : Fin 2) (⟨(b.val * 2048 + s.val) % 2048, by omega⟩ : Fin 2048) k :=
    funext fun a => Fin.ext (by
      match a with
      | ⟨0, _⟩ => show (((b.val * 2048 + s.val) * 32 + h.val) * 128 + j.val) / 8388608 = (b.val * 2048 + s.val) / 2048; omega
      | ⟨1, _⟩ => show (((b.val * 2048 + s.val) * 32 + h.val) * 128 + j.val) / 4096 % 2048 = (b.val * 2048 + s.val) % 2048; omega
      | ⟨2, _⟩ => rfl)
  -- the right operand's index: weight row h·128 + j, contracted feature k
  have hr : ridx_main_v0 (idx_main_v1 (idx_main_v2 (ix4 b h s j))) k
      = ix2 (⟨h.val * 128 + j.val, by omega⟩ : Fin 4096) k :=
    funext fun a => Fin.ext (by
      match a with
      | ⟨0, _⟩ => show (((b.val * 2048 + s.val) * 32 + h.val) * 128 + j.val) % 4096 = h.val * 128 + j.val; omega
      | ⟨1, _⟩ => rfl)
  rw [hl, hr]

/-- The key projection is the same expression of x and its weight matrix as the query projection. -/
theorem v5_eq_v2 (x0 : Cert.Spec.Mat Cert.Spec.S3) (w : Cert.Spec.Mat Cert.Spec.SM) :
    val_main_v5 (F := Ideal) x0 w = val_main_v2 (F := Ideal) x0 w := rfl

/-- The value projection is the same expression of x and its weight matrix as the query projection. -/
theorem v8_eq_v2 (x0 : Cert.Spec.Mat Cert.Spec.S3) (w : Cert.Spec.Mat Cert.Spec.SM) :
    val_main_v8 (F := Ideal) x0 w = val_main_v2 (F := Ideal) x0 w := rfl

/-- The value projection in head order. -/
theorem v8_at (x0 : Cert.Spec.Mat Cert.Spec.S3) (x5 : Cert.Spec.Mat Cert.Spec.SM) (b : Fin 2) (h : Fin 32) (s : Fin 2048) (j : Fin 128) :
    val_main_v8 (F := Ideal) x0 x5 (ix4 b h s j) = Cert.Spec.blockOf (Cert.Spec.mmT (Cert.Spec.flat x0) x5) b h (ix2 s j) := by
  rw [v8_eq_v2]
  exact v2_at x0 x5 b h s j

/-! ## The rotation and the packed table at an index, by halves -/

/-- The rotation at a feature of the first half: t·cos − (the partner 64 features on)·sin. -/
theorem ropeB_lo (t rp : Cert.Spec.Mat Cert.Spec.SR) (s : Fin 2048) (j : Fin 128) (hj : j.val < 64) :
    Cert.Spec.ropeB t rp (ix2 s j)
      = t (ix2 s j) * rp (ix2 s j)
        - t (ix2 s (⟨j.val + 64, by omega⟩ : Fin 128)) * rp (ix2 s (⟨j.val + 64, by omega⟩ : Fin 128)) := by
  unfold Cert.Spec.ropeB
  exact dif_pos hj

/-- The rotation at a feature of the second half: t·cos + (the partner 64 features back)·sin. -/
theorem ropeB_hi (t rp : Cert.Spec.Mat Cert.Spec.SR) (s : Fin 2048) (j : Fin 128) (hj : ¬ j.val < 64) :
    Cert.Spec.ropeB t rp (ix2 s j)
      = t (ix2 s j) * rp (ix2 s (⟨j.val - 64, by have := j.isLt; omega⟩ : Fin 128))
        + t (ix2 s (⟨j.val - 64, by have := j.isLt; omega⟩ : Fin 128)) * rp (ix2 s j) := by
  unfold Cert.Spec.ropeB
  exact dif_neg hj

/-- The packed table's first 64 columns are the cosines. -/
theorem cat_lo (a c : Cert.Spec.Mat Cert.Spec.SC) (s : Fin 2048) (j : Fin 128) (hj : j.val < 64) :
    Cert.Spec.cat a c (ix2 s j) = a (ix2 s (⟨j.val, hj⟩ : Fin 64)) := by
  unfold Cert.Spec.cat
  exact dif_pos hj

/-- The packed table's last 64 columns are the sines. -/
theorem cat_hi (a c : Cert.Spec.Mat Cert.Spec.SC) (s : Fin 2048) (j : Fin 128) (hj : ¬ j.val < 64) :
    Cert.Spec.cat a c (ix2 s j) = c (ix2 s (⟨j.val - 64, by have := j.isLt; omega⟩ : Fin 64)) := by
  unfold Cert.Spec.cat
  exact dif_neg hj

/-! ## The rotated query projection

  The reference slices the head's features into the halves x₁ = 0..63 and x₂ = 64..127, forms x₁·cos − x₂·sin and
  x₂·cos + x₁·sin with the tables broadcast over batch and head, and joins the two along the feature axis. -/

/-- The first half of the rotated query projection. -/
theorem v17_at (x0 : Cert.Spec.Mat Cert.Spec.S3) (x1 x2 : Cert.Spec.Mat Cert.Spec.SC) (x3 : Cert.Spec.Mat Cert.Spec.SM)
    (b : Fin 2) (h : Fin 32) (s : Fin 2048) (c : Fin 64) :
    val_main_v17 (F := Ideal) x0 x1 x2 x3 (ix4 b h s c)
      = Cert.Spec.blockOf (Cert.Spec.mmT (Cert.Spec.flat x0) x3) b h (ix2 s (⟨c.val, by omega⟩ : Fin 128)) * x1 (ix2 s c)
        - Cert.Spec.blockOf (Cert.Spec.mmT (Cert.Spec.flat x0) x3) b h (ix2 s (⟨c.val + 64, by omega⟩ : Fin 128)) * x2 (ix2 s c) := by
  have e9 : idx_main_v9 (ix4 b h s c) = ix4 b h s (⟨c.val, by omega⟩ : Fin 128) :=
    funext fun a => by match a with | ⟨0, _⟩ => rfl | ⟨1, _⟩ => rfl | ⟨2, _⟩ => rfl | ⟨3, _⟩ => rfl
  have e10 : idx_main_v10 (ix4 b h s c) = ix4 b h s (⟨c.val + 64, by omega⟩ : Fin 128) :=
    funext fun a => by
      match a with
      | ⟨0, _⟩ => rfl
      | ⟨1, _⟩ => rfl
      | ⟨2, _⟩ => rfl
      | ⟨3, _⟩ => exact Fin.ext (Nat.add_comm 64 c.val)
  have e13 : idx_main_v11 (idx_main_v13 (ix4 b h s c)) = ix2 s c :=
    funext fun a => by match a with | ⟨0, _⟩ => rfl | ⟨1, _⟩ => rfl
  have e15 : idx_main_v12 (idx_main_v15 (ix4 b h s c)) = ix2 s c :=
    funext fun a => by match a with | ⟨0, _⟩ => rfl | ⟨1, _⟩ => rfl
  rw [val_main_v17_apply, val_main_v14_apply, val_main_v16_apply, val_main_v9_apply, val_main_v10_apply,
    val_main_v13_apply, val_main_v15_apply, val_main_v11_apply, val_main_v12_apply, e9, e10, e13, e15, v2_at, v2_at]
  rfl

/-- The second half of the rotated query projection. -/
theorem v22_at (x0 : Cert.Spec.Mat Cert.Spec.S3) (x1 x2 : Cert.Spec.Mat Cert.Spec.SC) (x3 : Cert.Spec.Mat Cert.Spec.SM)
    (b : Fin 2) (h : Fin 32) (s : Fin 2048) (c : Fin 64) :
    val_main_v22 (F := Ideal) x0 x1 x2 x3 (ix4 b h s c)
      = Cert.Spec.blockOf (Cert.Spec.mmT (Cert.Spec.flat x0) x3) b h (ix2 s (⟨c.val + 64, by omega⟩ : Fin 128)) * x1 (ix2 s c)
        + Cert.Spec.blockOf (Cert.Spec.mmT (Cert.Spec.flat x0) x3) b h (ix2 s (⟨c.val, by omega⟩ : Fin 128)) * x2 (ix2 s c) := by
  have e9 : idx_main_v9 (ix4 b h s c) = ix4 b h s (⟨c.val, by omega⟩ : Fin 128) :=
    funext fun a => by match a with | ⟨0, _⟩ => rfl | ⟨1, _⟩ => rfl | ⟨2, _⟩ => rfl | ⟨3, _⟩ => rfl
  have e10 : idx_main_v10 (ix4 b h s c) = ix4 b h s (⟨c.val + 64, by omega⟩ : Fin 128) :=
    funext fun a => by
      match a with
      | ⟨0, _⟩ => rfl
      | ⟨1, _⟩ => rfl
      | ⟨2, _⟩ => rfl
      | ⟨3, _⟩ => exact Fin.ext (Nat.add_comm 64 c.val)
  have e18 : idx_main_v11 (idx_main_v18 (ix4 b h s c)) = ix2 s c :=
    funext fun a => by match a with | ⟨0, _⟩ => rfl | ⟨1, _⟩ => rfl
  have e20 : idx_main_v12 (idx_main_v20 (ix4 b h s c)) = ix2 s c :=
    funext fun a => by match a with | ⟨0, _⟩ => rfl | ⟨1, _⟩ => rfl
  rw [val_main_v22_apply, val_main_v19_apply, val_main_v21_apply, val_main_v9_apply, val_main_v10_apply,
    val_main_v18_apply, val_main_v20_apply, val_main_v11_apply, val_main_v12_apply, e9, e10, e18, e20, v2_at, v2_at]
  rfl

/-- The rotated query projection. -/
theorem v23_at (x0 : Cert.Spec.Mat Cert.Spec.S3) (x1 x2 : Cert.Spec.Mat Cert.Spec.SC) (x3 : Cert.Spec.Mat Cert.Spec.SM)
    (b : Fin 2) (h : Fin 32) (s : Fin 2048) (j : Fin 128) :
    val_main_v23 (F := Ideal) x0 x1 x2 x3 (ix4 b h s j)
      = Cert.Spec.ropeB (Cert.Spec.blockOf (Cert.Spec.mmT (Cert.Spec.flat x0) x3) b h) (Cert.Spec.cat x1 x2) (ix2 s j) := by
  have hjlt := j.isLt
  unfold val_main_v23
  by_cases hj : j.val < 64
  · -- a feature of the first half comes from the first piece, at the same coordinates
    refine (concatenate_pair_apply_left 3 _ _ concatenates_S2x32x2048x64_S2x32x2048x64_S2x32x2048x128_d3
      (ix4 b h s j) rfl (ix4 b h s (⟨j.val, hj⟩ : Fin 64))
      (fun a => by match a with | ⟨0, _⟩ => rfl | ⟨1, _⟩ => rfl | ⟨2, _⟩ => rfl | ⟨3, _⟩ => rfl)).trans ?_
    have hn : ¬ (j.val + 64 < 64) := by omega
    rw [v17_at, ropeB_lo _ _ s j hj, cat_lo x1 x2 s j hj, cat_hi x1 x2 s ⟨j.val + 64, by omega⟩ hn]
    have ec : (⟨j.val + 64 - 64, by omega⟩ : Fin 64) = ⟨j.val, hj⟩ := Fin.ext (by show j.val + 64 - 64 = j.val; omega)
    rw [ec]
  · -- a feature of the second half comes from the second piece, 64 features back
    have hlt : j.val - 64 < 64 := by omega
    refine (concatenate_pair_apply_right 3 _ _ concatenates_S2x32x2048x64_S2x32x2048x64_S2x32x2048x128_d3
      (ix4 b h s j) rfl rfl (ix4 b h s (⟨j.val - 64, hlt⟩ : Fin 64))
      (fun a => by
        match a with
        | ⟨0, _⟩ => intro _; rfl
        | ⟨1, _⟩ => intro _; rfl
        | ⟨2, _⟩ => intro _; rfl
        | ⟨3, _⟩ => intro hne; exact absurd rfl hne)
      (show j.val - 64 + 64 = j.val by omega)).trans ?_
    rw [v22_at, ropeB_hi _ _ s j hj, cat_lo x1 x2 s ⟨j.val - 64, by omega⟩ hlt, cat_hi x1 x2 s j hj]
    have ej : (⟨j.val - 64 + 64, by omega⟩ : Fin 128) = j := Fin.ext (by show j.val - 64 + 64 = j.val; omega)
    rw [ej]

/-! ## The rotated key projection: the same expression with the key weights -/

/-- The rotated key projection is the same expression of x, the tables and its weight matrix as the rotated query projection. -/
theorem v38_eq_v23 (x0 : Cert.Spec.Mat Cert.Spec.S3) (x1 x2 : Cert.Spec.Mat Cert.Spec.SC) (w : Cert.Spec.Mat Cert.Spec.SM) :
    val_main_v38 (F := Ideal) x0 x1 x2 w = val_main_v23 (F := Ideal) x0 x1 x2 w := rfl

/-- The rotated key projection. -/
theorem v38_at (x0 : Cert.Spec.Mat Cert.Spec.S3) (x1 x2 : Cert.Spec.Mat Cert.Spec.SC) (x4 : Cert.Spec.Mat Cert.Spec.SM)
    (b : Fin 2) (h : Fin 32) (s : Fin 2048) (j : Fin 128) :
    val_main_v38 (F := Ideal) x0 x1 x2 x4 (ix4 b h s j)
      = Cert.Spec.ropeB (Cert.Spec.blockOf (Cert.Spec.mmT (Cert.Spec.flat x0) x4) b h) (Cert.Spec.cat x1 x2) (ix2 s j) := by
  rw [v38_eq_v23]
  exact v23_at x0 x1 x2 x4 b h s j

end Cert.ReferenceIdeal.RefValue

end
-- ==== Proof.RefSoft.lean ====
/-
  The reference's attention, read at an index: per (batch, head), scores of the rotated query and key blocks times
  the scale, −∞ above the diagonal, the softmax along the key axis, and the weighted sum of the value block's rows.
-/
import proofs.«424713_j70128226009183_3_alg».proof.Proof.Gen.ReferenceIdeal.Read
import proofs.«424713_j70128226009183_3_alg».proof.Proof.Spec
import Idealize.ShloMosaic.Lib.StableHlo.Predicate

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-- The (b, h) block of an array in (batch, head, position, feature) order. -/
def blk4 (a : S2x32x2048x128.Idx → EReal) (b : Fin 2) (h : Fin 32) : Cert.Spec.Mat Cert.Spec.SR := fun y =>
  a (ix4 b h (⟨(y 0).val, idx2_lt0 y⟩ : Fin 2048) (⟨(y 1).val, idx2_lt1 y⟩ : Fin 128))

/-- The single-precision word of −∞ is the bottom element. -/
theorem negInf_eq_bot : Ideal.ofBits .f32 0xFF800000#32 = (⊥ : EReal) := by simp [Ideal.ofBits, Ideal.ieee]

/-- The lower-triangle mask at (s, k): set exactly when the key position k is not after the query position s. -/
theorem tril_at (s k : Fin 2048) :
    val_main_v43 (F := Ideal) (ix2 s k) = if k.val ≤ s.val then 1#1 else 0#1 := by
  rw [val_main_v43_apply, val_main_call0_v4_apply, val_main_call0_v2_apply, val_main_call0_v0_apply, val_main_call0_v1_apply,
    val_main_call0_c_apply, val_main_call0_v3_apply, val_main_v42_apply, val_main_c_apply, val_main_call0_v5_apply,
    val_main_call0_c_0_apply]
  show Scalar.select (IntOp.cmpi .sge (IntOp.addi (BitVec.ofNat 32 s.val) 0#32) (BitVec.ofNat 32 k.val)) 1#1 0#1 = _
  have hs : s.val < 2048 := s.isLt
  have hk : k.val < 2048 := k.isLt
  have e0 : IntOp.addi (BitVec.ofNat 32 s.val) 0#32 = BitVec.ofNat 32 s.val := by
    show BitVec.ofNat 32 s.val + 0#32 = _
    exact BitVec.add_zero _
  rw [e0]
  have ts : (BitVec.ofNat 32 s.val).toNat = s.val := by rw [BitVec.toNat_ofNat]; omega
  have tk : (BitVec.ofNat 32 k.val).toNat = k.val := by rw [BitVec.toNat_ofNat]; omega
  have hiff := StableHlo.Predicate.sge_iff_toNat (a := BitVec.ofNat 32 s.val) (b := BitVec.ofNat 32 k.val) (by omega) (by omega)
  rw [ts, tk] at hiff
  by_cases hks : k.val ≤ s.val
  · rw [if_pos hks, hiff.mpr hks]; rfl
  · rw [if_neg hks]
    exact if_neg (fun e => hks (hiff.mp e))

/-- The masked score at (b, h, s, k): the inner product of query row s and key row k of the (b, h) blocks times the
    scale when k is not after s, and −∞ otherwise. -/
theorem v45_at (x0 : (⟨S2x2048x4096, .f32⟩ : BufTy).Contents (Elt Ideal)) (x1 x2 : (⟨S2048x64, .f32⟩ : BufTy).Contents (Elt Ideal))
    (x3 x4 : (⟨S4096x4096, .f32⟩ : BufTy).Contents (Elt Ideal)) (b : Fin 2) (h : Fin 32) (s k : Fin 2048) :
    val_main_v45 (F := Ideal) x0 x1 x2 x3 x4 (ix4 b h s k)
      = Cert.Spec.mscoreB (blk4 (val_main_v23 (F := Ideal) x0 x1 x2 x3) b h) (blk4 (val_main_v38 (F := Ideal) x0 x1 x2 x4) b h) s k := by
  rw [val_main_v45_apply, val_main_call1_v1_apply, val_main_v44_apply, val_main_call1_v2_apply, val_main_call1_v0_apply,
    val_main_cst_0_apply, val_main_v41_apply, val_main_v40_apply, val_main_cst_apply, val_main_v39_apply]
  have ei : idx_main_v44 (idx_main_call1_v1 (ix4 b h s k)) = ix2 s k :=
    funext fun a => Fin.ext (by match a with | ⟨0, _⟩ => rfl | ⟨1, _⟩ => rfl)
  have el : ∀ d : Fin 128, lidx_main_v39 (ix4 b h s k) d = ix4 b h s d := fun d =>
    funext fun a => Fin.ext (by match a with | ⟨0, _⟩ => rfl | ⟨1, _⟩ => rfl | ⟨2, _⟩ => rfl | ⟨3, _⟩ => rfl)
  have er : ∀ d : Fin 128, ridx_main_v39 (ix4 b h s k) d = ix4 b h k d := fun d =>
    funext fun a => Fin.ext (by match a with | ⟨0, _⟩ => rfl | ⟨1, _⟩ => rfl | ⟨2, _⟩ => rfl | ⟨3, _⟩ => rfl)
  rw [ei, tril_at]
  generalize val_main_v23 (F := Ideal) x0 x1 x2 x3 = q
  generalize val_main_v38 (F := Ideal) x0 x1 x2 x4 = kk
  simp only [el, er, Ideal.ofBits_def, Ideal.mulf_def, negInf_eq_bot]
  unfold Cert.Spec.mscoreB Cert.Spec.scoreB Cert.Spec.scale
  by_cases hks : k.val ≤ s.val
  · rw [if_pos hks, if_pos hks, select_one]
    rfl
  · rw [if_neg hks, if_neg hks, select_zero]

/-- The (b, h, s) index with the key coordinate k put back on axis 3 is (b, h, s, k). -/
theorem lift_key (hr : S2x32x2048x2048.Reduces [3] S2x32x2048) (b : Fin 2) (h : Fin 32) (s : Fin 2048)
    (k : Fin (S2x32x2048x2048.size 3)) : hr.lift (ix3 b h s) k = ix4 b h s (⟨k.val, k.isLt⟩ : Fin 2048) := by
  funext c; apply Fin.ext
  match c with
  | ⟨0, _⟩ => rfl
  | ⟨1, _⟩ => rfl
  | ⟨2, _⟩ => rfl
  | ⟨3, _⟩ => rfl

/-- A maximum taken along the key axis, read at (b, h, s): the fold of max from the initial value over the row's entries. -/
theorem rowMax_at (y : FVec Ideal S2x32x2048x2048 .f32) (init : FVec Ideal S_ .f32) (b : Fin 2) (h : Fin 32) (s : Fin 2048) :
    Host.reduce FloatOps.maximumf y init reducesTo_S2x32x2048x2048_S2x32x2048_d3 h_S_ (ix3 b h s)
      = (Finset.univ : Finset (Fin 2048)).fold max (init (Shape.Idx.first h_S_)) (fun j => y (ix4 b h s j)) := by
  have hr : S2x32x2048x2048.Reduces [3] S2x32x2048 := by decide
  rw [Host.reduce_eq_fold_single FloatOps.maximumf y init reducesTo_S2x32x2048x2048_S2x32x2048_d3 hr h_S_]
  have hl : (y ∘ hr.lift (ix3 b h s)) = fun j : Fin 2048 => y (ix4 b h s j) :=
    funext fun j => congrArg y (lift_key hr b h s j)
  exact congrArg (fun f => Finset.fold max (init (Shape.Idx.first h_S_)) f (Finset.univ : Finset (Fin 2048))) hl

/-- The row maximum at (b, h, s): the fold of max from −∞ over the masked scores of query row s. -/
theorem v48_at (x0 : (⟨S2x2048x4096, .f32⟩ : BufTy).Contents (Elt Ideal)) (x1 x2 : (⟨S2048x64, .f32⟩ : BufTy).Contents (Elt Ideal))
    (x3 x4 : (⟨S4096x4096, .f32⟩ : BufTy).Contents (Elt Ideal)) (b : Fin 2) (h : Fin 32) (s : Fin 2048) :
    val_main_v48 (F := Ideal) x0 x1 x2 x3 x4 (ix3 b h s)
      = (Finset.univ : Finset (Fin 2048)).fold max (⊥ : EReal) (fun j => Cert.Spec.mscoreB
          (blk4 (val_main_v23 (F := Ideal) x0 x1 x2 x3) b h) (blk4 (val_main_v38 (F := Ideal) x0 x1 x2 x4) b h) s j) := by
  have h46 : val_main_v46 (F := Ideal) x0 x1 x2 x3 x4 (ix3 b h s)
      = (Finset.univ : Finset (Fin 2048)).fold max (⊥ : EReal) (fun j => val_main_v45 (F := Ideal) x0 x1 x2 x3 x4 (ix4 b h s j)) := by
    unfold val_main_v46
    refine (rowMax_at (val_main_v45 (F := Ideal) x0 x1 x2 x3 x4) (val_main_cst_1 (F := Ideal)) b h s).trans ?_
    exact congrArg (fun a => Finset.fold max a (fun j : Fin 2048 => val_main_v45 (F := Ideal) x0 x1 x2 x3 x4 (ix4 b h s j))
      (Finset.univ : Finset (Fin 2048))) negInf_eq_bot
  have hf : (fun j : Fin 2048 => val_main_v45 (F := Ideal) x0 x1 x2 x3 x4 (ix4 b h s j))
      = fun j => Cert.Spec.mscoreB (blk4 (val_main_v23 (F := Ideal) x0 x1 x2 x3) b h) (blk4 (val_main_v38 (F := Ideal) x0 x1 x2 x4) b h) s j :=
    funext fun j => v45_at x0 x1 x2 x3 x4 b h s j
  rw [val_main_v48_apply, val_main_v47_apply, val_main_cst_2_apply, h46, hf]
  simp only [Ideal.ofBits_def, Ideal.maximumf_def, negInf_eq_bot]
  exact max_eq_right bot_le

/-- The exponential of a masked score less its row's maximum, at (b, h, s, k). -/
theorem v52_at (x0 : (⟨S2x2048x4096, .f32⟩ : BufTy).Contents (Elt Ideal)) (x1 x2 : (⟨S2048x64, .f32⟩ : BufTy).Contents (Elt Ideal))
    (x3 x4 : (⟨S4096x4096, .f32⟩ : BufTy).Contents (Elt Ideal)) (b : Fin 2) (h : Fin 32) (s k : Fin 2048) :
    val_main_v52 (F := Ideal) x0 x1 x2 x3 x4 (ix4 b h s k)
      = Ideal.exp (Cert.Spec.mscoreB (blk4 (val_main_v23 (F := Ideal) x0 x1 x2 x3) b h) (blk4 (val_main_v38 (F := Ideal) x0 x1 x2 x4) b h) s k
          - (Finset.univ : Finset (Fin 2048)).fold max (⊥ : EReal) (fun j => Cert.Spec.mscoreB
              (blk4 (val_main_v23 (F := Ideal) x0 x1 x2 x3) b h) (blk4 (val_main_v38 (F := Ideal) x0 x1 x2 x4) b h) s j)) := by
  have ei : idx_main_v49 (idx_main_v50 (ix4 b h s k)) = ix3 b h s :=
    funext fun a => Fin.ext (by match a with | ⟨0, _⟩ => rfl | ⟨1, _⟩ => rfl | ⟨2, _⟩ => rfl)
  rw [val_main_v52_apply, val_main_v51_apply, val_main_v50_apply, val_main_v49_apply, ei, v48_at, v45_at]
  simp only [Ideal.hostUnary_exp_def, Ideal.subf_def]

/-- The row's sum of exponentials, spread back along the key axis, at (b, h, s, k). -/
theorem v55_at (x0 : (⟨S2x2048x4096, .f32⟩ : BufTy).Contents (Elt Ideal)) (x1 x2 : (⟨S2048x64, .f32⟩ : BufTy).Contents (Elt Ideal))
    (x3 x4 : (⟨S4096x4096, .f32⟩ : BufTy).Contents (Elt Ideal)) (b : Fin 2) (h : Fin 32) (s k : Fin 2048) :
    val_main_v55 (F := Ideal) x0 x1 x2 x3 x4 (ix4 b h s k)
      = ∑ j' : Fin 2048, Ideal.exp (Cert.Spec.mscoreB (blk4 (val_main_v23 (F := Ideal) x0 x1 x2 x3) b h) (blk4 (val_main_v38 (F := Ideal) x0 x1 x2 x4) b h) s j'
          - (Finset.univ : Finset (Fin 2048)).fold max (⊥ : EReal) (fun j => Cert.Spec.mscoreB
              (blk4 (val_main_v23 (F := Ideal) x0 x1 x2 x3) b h) (blk4 (val_main_v38 (F := Ideal) x0 x1 x2 x4) b h) s j)) := by
  have ei : idx_main_v54 (idx_main_v55 (ix4 b h s k)) = ix3 b h s :=
    funext fun a => Fin.ext (by match a with | ⟨0, _⟩ => rfl | ⟨1, _⟩ => rfl | ⟨2, _⟩ => rfl)
  have ej : ∀ j : Fin 2048, idx_main_v53 (ix3 b h s) j = ix4 b h s j := fun j =>
    funext fun a => Fin.ext (by match a with | ⟨0, _⟩ => rfl | ⟨1, _⟩ => rfl | ⟨2, _⟩ => rfl | ⟨3, _⟩ => rfl)
  rw [val_main_v55_apply, val_main_v54_apply, ei, val_main_v53_apply, val_main_cst_3_apply]
  simp only [ej, v52_at, Ideal.ofBits_def, Ideal.ofBits_zero_f32, zero_add]

/-- The attention output at (b, h, s, d): the softmax of query row s's masked scores weighting column d of the value block. -/
theorem v57_core (x0 : (⟨S2x2048x4096, .f32⟩ : BufTy).Contents (Elt Ideal)) (x1 x2 : (⟨S2048x64, .f32⟩ : BufTy).Contents (Elt Ideal))
    (x3 x4 x5 : (⟨S4096x4096, .f32⟩ : BufTy).Contents (Elt Ideal)) (b : Fin 2) (h : Fin 32) (s : Fin 2048) (d : Fin 128) :
    val_main_v57 (F := Ideal) x0 x1 x2 x3 x4 x5 (ix4 b h s d)
      = Cert.Spec.headRot (blk4 (val_main_v23 (F := Ideal) x0 x1 x2 x3) b h) (blk4 (val_main_v38 (F := Ideal) x0 x1 x2 x4) b h)
          (blk4 (val_main_v8 (F := Ideal) x0 x5) b h) (ix2 s d) := by
  have el : ∀ k : Fin 2048, lidx_main_v57 (ix4 b h s d) k = ix4 b h s k := fun k =>
    funext fun a => Fin.ext (by match a with | ⟨0, _⟩ => rfl | ⟨1, _⟩ => rfl | ⟨2, _⟩ => rfl | ⟨3, _⟩ => rfl)
  have er : ∀ k : Fin 2048, ridx_main_v57 (ix4 b h s d) k = ix4 b h k d := fun k =>
    funext fun a => Fin.ext (by match a with | ⟨0, _⟩ => rfl | ⟨1, _⟩ => rfl | ⟨2, _⟩ => rfl | ⟨3, _⟩ => rfl)
  rw [val_main_v57_apply]
  simp only [el, er, val_main_v56_apply, v52_at, v55_at, Ideal.hostDivf_def]
  generalize val_main_v23 (F := Ideal) x0 x1 x2 x3 = q
  generalize val_main_v38 (F := Ideal) x0 x1 x2 x4 = kk
  generalize val_main_v8 (F := Ideal) x0 x5 = vv
  unfold Cert.Spec.headRot Cert.Spec.softAV
  rfl

/-- The attention output in head order, from the rotated query and key arrays and the value array. -/
theorem v57_at (x0 : Cert.Spec.Mat Cert.Spec.S3) (x1 x2 : Cert.Spec.Mat Cert.Spec.SC) (x3 x4 x5 : Cert.Spec.Mat Cert.Spec.SM)
    (b : Fin 2) (h : Fin 32) (s : Fin 2048) (d : Fin 128) :
    val_main_v57 (F := Ideal) x0 x1 x2 x3 x4 x5 (ix4 b h s d)
      = Cert.Spec.headRot (blk4 (val_main_v23 (F := Ideal) x0 x1 x2 x3) b h) (blk4 (val_main_v38 (F := Ideal) x0 x1 x2 x4) b h)
          (blk4 (val_main_v8 (F := Ideal) x0 x5) b h) (ix2 s d) := by
  exact v57_core x0 x1 x2 x3 x4 x5 b h s d

end Cert.ReferenceIdeal.RefValue

end
-- ==== Proof.RefOut.lean ====
/-
  The reference's result: the heads' outputs back in (batch, position, feature) order, times woᵀ — the softmax form of
  the whole computation.
-/
import proofs.«424713_j70128226009183_3_alg».proof.Proof.Gen.ReferenceIdeal.Read
import proofs.«424713_j70128226009183_3_alg».proof.Proof.Spec
import proofs.«424713_j70128226009183_3_alg».proof.Proof.RefProj
import proofs.«424713_j70128226009183_3_alg».proof.Proof.RefSoft
set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem

/-- The whole computation in its softmax form at (b, s, e): the sum over the 4096 features c of the head output at row
    b·2048 + s and column c, times wo(e, c). -/
theorem outSoft_at (x0 : Cert.Spec.Mat Cert.Spec.S3) (x1 x2 : Cert.Spec.Mat Cert.Spec.SC) (x3 x4 x5 x6 : Cert.Spec.Mat Cert.Spec.SM)
    (b : Fin 2) (s : Fin 2048) (e : Fin 4096) :
    Cert.Spec.outSoft x0 x1 x2 x3 x4 x5 x6 (ix3 b s e)
      = ∑ c : Fin 4096,
          Cert.Spec.perHead Cert.Spec.headB (Cert.Spec.mmT (Cert.Spec.flat x0) x3) (Cert.Spec.mmT (Cert.Spec.flat x0) x4)
              (Cert.Spec.mmT (Cert.Spec.flat x0) x5) (Cert.Spec.cat x1 x2)
              (ix2 (⟨b.val * 2048 + s.val, by have hb := b.isLt; have hs := s.isLt; omega⟩ : Fin 4096) c)
            * x6 (ix2 e c) := rfl

/-- A per-head block function at row b·2048 + s and column c: batch b, head c / 128, position s, feature c % 128. -/
theorem perHead_at (f : Cert.Spec.Mat Cert.Spec.SR → Cert.Spec.Mat Cert.Spec.SR → Cert.Spec.Mat Cert.Spec.SR → Cert.Spec.Mat Cert.Spec.SR → Cert.Spec.Mat Cert.Spec.SR)
    (q k v : Cert.Spec.Mat Cert.Spec.SM) (rp : Cert.Spec.Mat Cert.Spec.SR) (b : Fin 2) (s : Fin 2048) (c : Fin 4096)
    (hr : b.val * 2048 + s.val < 4096) (hh : c.val / 128 < 32) (hd : c.val % 128 < 128) :
    Cert.Spec.perHead f q k v rp (ix2 (⟨b.val * 2048 + s.val, hr⟩ : Fin 4096) c)
      = f (Cert.Spec.blockOf q b (⟨c.val / 128, hh⟩ : Fin 32)) (Cert.Spec.blockOf k b (⟨c.val / 128, hh⟩ : Fin 32))
          (Cert.Spec.blockOf v b (⟨c.val / 128, hh⟩ : Fin 32)) rp (ix2 s (⟨c.val % 128, hd⟩ : Fin 128)) := by
  have hs := s.isLt
  have hb : ∀ p : (b.val * 2048 + s.val) / 2048 < 2, (⟨(b.val * 2048 + s.val) / 2048, p⟩ : Fin 2) = b :=
    fun p => Fin.ext (by show (b.val * 2048 + s.val) / 2048 = b.val; omega)
  have hs' : ∀ p : (b.val * 2048 + s.val) % 2048 < 2048, (⟨(b.val * 2048 + s.val) % 2048, p⟩ : Fin 2048) = s :=
    fun p => Fin.ext (by show (b.val * 2048 + s.val) % 2048 = s.val; omega)
  show f (Cert.Spec.blockOf q (⟨(b.val * 2048 + s.val) / 2048, _⟩ : Fin 2) (⟨c.val / 128, _⟩ : Fin 32))
        (Cert.Spec.blockOf k (⟨(b.val * 2048 + s.val) / 2048, _⟩ : Fin 2) (⟨c.val / 128, _⟩ : Fin 32))
        (Cert.Spec.blockOf v (⟨(b.val * 2048 + s.val) / 2048, _⟩ : Fin 2) (⟨c.val / 128, _⟩ : Fin 32)) rp
        (ix2 (⟨(b.val * 2048 + s.val) % 2048, _⟩ : Fin 2048) (⟨c.val % 128, _⟩ : Fin 128)) = _
  rw [hb, hs']

/-- A rank-2 index rebuilt from its coordinates' values is itself. -/
theorem ix2_vals (y : Cert.Spec.SR.Idx) :
    (ix2 (⟨(y 0).val, idx2_lt0 y⟩ : Fin 2048) (⟨(y 1).val, idx2_lt1 y⟩ : Fin 128) : Cert.Spec.SR.Idx) = y :=
  funext fun a => match a with | ⟨0, _⟩ => rfl | ⟨1, _⟩ => rfl

/-- The (b, h) block of the rotated query array is the rotation of the (b, h) block of x·wqᵀ. -/
theorem blk4_v23 (x0 : Cert.Spec.Mat Cert.Spec.S3) (x1 x2 : Cert.Spec.Mat Cert.Spec.SC) (x3 : Cert.Spec.Mat Cert.Spec.SM) (b : Fin 2) (h : Fin 32) :
    blk4 (val_main_v23 (F := Ideal) x0 x1 x2 x3) b h
      = Cert.Spec.ropeB (Cert.Spec.blockOf (Cert.Spec.mmT (Cert.Spec.flat x0) x3) b h) (Cert.Spec.cat x1 x2) := by
  funext y
  unfold blk4
  rw [v23_at, ix2_vals]

/-- The (b, h) block of the rotated key array is the rotation of the (b, h) block of x·wkᵀ. -/
theorem blk4_v38 (x0 : Cert.Spec.Mat Cert.Spec.S3) (x1 x2 : Cert.Spec.Mat Cert.Spec.SC) (x4 : Cert.Spec.Mat Cert.Spec.SM) (b : Fin 2) (h : Fin 32) :
    blk4 (val_main_v38 (F := Ideal) x0 x1 x2 x4) b h
      = Cert.Spec.ropeB (Cert.Spec.blockOf (Cert.Spec.mmT (Cert.Spec.flat x0) x4) b h) (Cert.Spec.cat x1 x2) := by
  funext y
  unfold blk4
  rw [v38_at, ix2_vals]

/-- The (b, h) block of the value array is the (b, h) block of x·wvᵀ. -/
theorem blk4_v8 (x0 : Cert.Spec.Mat Cert.Spec.S3) (x5 : Cert.Spec.Mat Cert.Spec.SM) (b : Fin 2) (h : Fin 32) :
    blk4 (val_main_v8 (F := Ideal) x0 x5) b h = Cert.Spec.blockOf (Cert.Spec.mmT (Cert.Spec.flat x0) x5) b h := by
  funext y
  unfold blk4
  rw [v8_at, ix2_vals]

/-- The heads' outputs back in (batch, position, feature) order: at (b, s, c) the head c / 128's output at position s
    and feature c % 128. -/
theorem v59_at (x0 : Cert.Spec.Mat Cert.Spec.S3) (x1 x2 : Cert.Spec.Mat Cert.Spec.SC) (x3 x4 x5 : Cert.Spec.Mat Cert.Spec.SM)
    (b : Fin 2) (s : Fin 2048) (c : Fin 4096) (hh : c.val / 128 < 32) (hd : c.val % 128 < 128) :
    val_main_v59 (F := Ideal) x0 x1 x2 x3 x4 x5 (ix3 b s c)
      = val_main_v57 (F := Ideal) x0 x1 x2 x3 x4 x5 (ix4 b (⟨c.val / 128, hh⟩ : Fin 32) s (⟨c.val % 128, hd⟩ : Fin 128)) := by
  have hb := b.isLt
  have hs := s.isLt
  have hc := c.isLt
  have hi : idx_main_v58 (idx_main_v59 (ix3 b s c)) = ix4 b (⟨c.val / 128, hh⟩ : Fin 32) s (⟨c.val % 128, hd⟩ : Fin 128) :=
    funext fun a => Fin.ext (by
      match a with
      | ⟨0, _⟩ => show ((b.val * 2048 + s.val) * 4096 + c.val) / 8388608 = b.val; omega
      | ⟨1, _⟩ => show ((b.val * 2048 + s.val) * 4096 + c.val) / 128 % 32 = c.val / 128; omega
      | ⟨2, _⟩ => show ((b.val * 2048 + s.val) * 4096 + c.val) / 4096 % 2048 = s.val; omega
      | ⟨3, _⟩ => show ((b.val * 2048 + s.val) * 4096 + c.val) % 128 = c.val % 128; omega)
  rw [val_main_v59_apply, val_main_v58_apply, hi]

/-- The last stage is the softmax form of the whole computation. -/
theorem v60_eq (x0 : Cert.Spec.Mat Cert.Spec.S3) (x1 x2 : Cert.Spec.Mat Cert.Spec.SC) (x3 x4 x5 x6 : Cert.Spec.Mat Cert.Spec.SM) :
    val_main_v60 (F := Ideal) x0 x1 x2 x3 x4 x5 x6 = Cert.Spec.outSoft x0 x1 x2 x3 x4 x5 x6 := by
  funext i
  obtain ⟨b, s, e, rfl⟩ : ∃ (b : Fin 2) (s : Fin 2048) (e : Fin 4096), i = ix3 b s e := ⟨i 0, i 1, i 2, eq_ix3 i⟩
  rw [val_main_v60_apply, outSoft_at]
  refine Finset.sum_congr rfl fun c _ => ?_
  have hc := c.isLt
  have hh : c.val / 128 < 32 := by omega
  have hd : c.val % 128 < 128 := by omega
  have hl : lidx_main_v60 (ix3 b s e) c = ix3 b s c :=
    funext fun a => match a with | ⟨0, _⟩ => rfl | ⟨1, _⟩ => rfl | ⟨2, _⟩ => rfl
  have hr : ridx_main_v60 (ix3 b s e) c = ix2 e c :=
    funext fun a => match a with | ⟨0, _⟩ => rfl | ⟨1, _⟩ => rfl
  rw [hl, hr, v59_at x0 x1 x2 x3 x4 x5 b s c hh hd, v57_at, blk4_v23, blk4_v38, blk4_v8,
    perHead_at Cert.Spec.headB _ _ _ _ b s c _ hh hd]
  rfl

/-- The reference run's result term is the softmax form of the whole computation of the arguments. -/
theorem ref_value (m : (ℓ : Loc nD τ sig) → Buf (Elt Ideal) ℓ) (c : Dev nD) :
    Cert.ReferenceIdeal.Value.res_out0 (F := Ideal) m c
      = Cert.Spec.outSoft (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) :=
  (val_main_v60_eq (F := Ideal) m c).trans (v60_eq _ _ _ _ _ _ _)

end Cert.ReferenceIdeal.RefValue

end
-- ==== Proof.LibReal.lean ====
/-
  Real numbers inside the extended reals: a finite sum of reals is real, the quotient of reals by a non-zero real is
  their real quotient, the square root of a non-negative real is its real square root.
-/
import Idealize.ShloMosaic.PureOps.Ideal
import Idealize.ShloMosaic.PureOps.Ideal.Laws

noncomputable section

open scoped BigOperators

namespace Cert.LibReal

open Idealize.ShloMosaic

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe (a b : ℝ) (hb : b ≠ 0) : Ideal.div (a : EReal) (b : EReal) = ((a / b : ℝ) : EReal) := by
  rw [Ideal.div_coe hb, ← EReal.coe_mul]; congr 1; field_simp

/-- The square root of a non-negative real. -/
theorem sqrt_coe_nonneg (a : ℝ) (ha : 0 ≤ a) : Ideal.sqrt (a : EReal) = ((Real.sqrt a : ℝ) : EReal) := by
  rw [Ideal.sqrt_coe, if_neg (not_lt.mpr ha)]

/-- A real minus itself. -/
theorem coe_sub_self (a : ℝ) : (a : EReal) - (a : EReal) = 0 := by
  rw [← EReal.coe_sub, sub_self, EReal.coe_zero]

end Cert.LibReal

end
-- ==== Proof.FlashAlg.lean ====
/-
  The streaming attention equals the softmax attention when every entry is a real number.

  For one query row the streaming form keeps (m, l, acc) over the key tiles visited so far: m their largest score,
  l the sum of exp(score − m), acc the sum of exp(score − m)·(value row). Visiting a tile with row maximum M replaces m
  by m' = max m M and multiplies l and acc by exp(m − m') before adding the tile's terms; since
  exp(m − m')·exp(s − m) = exp(s − m'), the invariant is kept. A masked key scores −∞ and contributes exp(−∞) = 0. The
  quotient acc / l does not depend on which real m the exponentials are taken against, and the keys after the diagonal
  tile are all masked, so the quotient is the softmax-weighted sum over all 2048 keys.
-/
import proofs.«424713_j70128226009183_3_alg».proof.Proof.Spec
import proofs.«424713_j70128226009183_3_alg».proof.Proof.LibReal
import Idealize.ShloMosaic.PureOps.Ideal.Laws
import Mathlib.Data.Finset.Fold
import Mathlib.Data.Fintype.BigOperators
import Mathlib.Algebra.BigOperators.Fin
import Mathlib.Logic.Equiv.Fin.Basic
import Mathlib.Data.EReal.Operations
import Mathlib.Analysis.Complex.Exponential

noncomputable section

open scoped BigOperators

namespace Cert.Spec

open Idealize.ShloMosaic Idealize.ShloMosaic.ValueIdx

/-- The score scale is a real number. -/
theorem scale_real : ∃ r : ℝ, scale = (r : EReal) := by
  unfold scale
  simp [Ideal.ofBits, Ideal.ieee, -EReal.coe_mul]

/-! ## The weight of a score against a real reference -/

/-- The weight of a score x against a real reference μ: e^(x − μ) for a real x, 0 for x = −∞. -/
def ew (x : EReal) (μ : ℝ) : ℝ := if x = ⊥ then 0 else Real.exp (x.toReal - μ)

theorem ew_bot (μ : ℝ) : ew ⊥ μ = 0 := by simp [ew]

theorem ew_coe (x μ : ℝ) : ew (x : EReal) μ = Real.exp (x - μ) := by
  simp [ew]

theorem ew_nonneg (x : EReal) (μ : ℝ) : 0 ≤ ew x μ := by
  unfold ew
  split_ifs
  · exact le_rfl
  · exact (Real.exp_pos _).le

theorem ew_pos (x μ : ℝ) : 0 < ew (x : EReal) μ := by
  rw [ew_coe]; exact Real.exp_pos _

/-- Changing the reference: e^(μ − μ')·e^(x − μ) = e^(x − μ'). -/
theorem ew_rescale (x : EReal) (μ μ' : ℝ) : Real.exp (μ - μ') * ew x μ = ew x μ' := by
  unfold ew
  split_ifs with h
  · rw [mul_zero]
  · rw [← Real.exp_add]; congr 1; ring

/-- The exponential of a score (not +∞) minus a real reference is the weight, a real number. -/
theorem exp_sub_coe {x : EReal} (hx : x ≠ ⊤) (μ : ℝ) : Ideal.exp (x - (μ : EReal)) = ((ew x μ : ℝ) : EReal) := by
  induction x using EReal.rec with
  | bot => rw [EReal.bot_sub, Ideal.exp_bot, ew_bot, EReal.coe_zero]
  | coe r => rw [← EReal.coe_sub, Ideal.exp_coe, ew_coe]
  | top => exact absurd rfl hx

/-! ## The maximum of finitely many scores -/

theorem fold_ne_top {ι : Type*} [Fintype ι] (s : ι → EReal) (hs : ∀ c, s c ≠ ⊤) :
    Finset.univ.fold max ⊥ s ≠ ⊤ :=
  ne_of_lt ((Finset.fold_max_lt ⊤).mpr ⟨bot_lt_top, fun c _ => lt_top_iff_ne_top.mpr (hs c)⟩)

theorem le_fold {ι : Type*} [Fintype ι] (s : ι → EReal) (c : ι) : s c ≤ Finset.univ.fold max ⊥ s :=
  (Finset.le_fold_max (s c)).mpr (Or.inr ⟨c, Finset.mem_univ c, le_rfl⟩)

/-! ## Sums over the keys of the first tiles -/

/-- The sum of g over the keys of tiles 0 .. n − 1. -/
def tsum (n : ℕ) (g : Fin 2048 → ℝ) : ℝ :=
  ∑ t : Fin 4, if t.val < n then ∑ c : Fin 512, g (pos t c) else 0

theorem tsum_zero (g : Fin 2048 → ℝ) : tsum 0 g = 0 := by simp [tsum]

theorem tsum_succ (n : ℕ) (t : Fin 4) (ht : t.val = n) (g : Fin 2048 → ℝ) :
    tsum (n + 1) g = tsum n g + ∑ c : Fin 512, g (pos t c) := by
  subst ht
  unfold tsum
  fin_cases t <;> simp [Fin.sum_univ_four]

theorem mul_tsum (x : ℝ) (n : ℕ) (g : Fin 2048 → ℝ) : x * tsum n g = tsum n (fun j => x * g j) := by
  unfold tsum
  rw [Finset.mul_sum]
  refine Finset.sum_congr rfl fun t _ => ?_
  split_ifs
  · rw [Finset.mul_sum]
  · rw [mul_zero]

/-- The 2048 keys are the 4 tiles of 512. -/
theorem sum_tiles (g : Fin 2048 → ℝ) : ∑ t : Fin 4, ∑ c : Fin 512, g (pos t c) = ∑ j : Fin 2048, g j := by
  refine (Fintype.sum_prod_type' (fun t c => g (pos t c))).symm.trans ?_
  refine Fintype.sum_equiv (finProdFinEquiv (m := 4) (n := 512)) _ _ (fun x => ?_)
  show g (pos x.1 x.2) = g (finProdFinEquiv x)
  congr 1
  apply Fin.ext
  show x.1.val * 512 + x.2.val = x.2.val + 512 * x.1.val
  omega

/-- When g vanishes on the keys from tile n on, the sum over the first n tiles is the sum over all keys. -/
theorem tsum_full (n : ℕ) (g : Fin 2048 → ℝ) (hg : ∀ j : Fin 2048, 512 * n ≤ j.val → g j = 0) :
    tsum n g = ∑ j : Fin 2048, g j := by
  rw [← sum_tiles]
  unfold tsum
  refine Finset.sum_congr rfl fun t _ => ?_
  split_ifs with h
  · rfl
  · symm
    apply Finset.sum_eq_zero
    intro c _
    apply hg
    show 512 * n ≤ t.val * 512 + c.val
    omega

/-! ## One tile, in real numbers -/

/-- Visiting one tile from a state whose sums are real numbers, the new maximum being a real μ':
    the new sums are the old ones rescaled by the weight of the old maximum, plus the tile's weights. -/
theorem fstep_real (st : FS) (s : Fin 512 → EReal) (vt : Fin 512 → Fin 128 → EReal)
    (L : ℝ) (A : Fin 128 → ℝ) (vr : Fin 512 → Fin 128 → ℝ) (μ' : ℝ)
    (hm : st.m ≠ ⊤) (hl : st.l = (L : EReal)) (ha : ∀ d, st.acc d = (A d : EReal))
    (hs : ∀ c, s c ≠ ⊤) (hv : ∀ c d, vt c d = (vr c d : EReal))
    (hμ : max st.m (Finset.univ.fold max ⊥ s) = (μ' : EReal)) :
    (fstep st s vt).m = (μ' : EReal)
    ∧ (fstep st s vt).l = ((ew st.m μ' * L + ∑ c : Fin 512, ew (s c) μ' : ℝ) : EReal)
    ∧ ∀ d, (fstep st s vt).acc d = ((ew st.m μ' * A d + ∑ c : Fin 512, ew (s c) μ' * vr c d : ℝ) : EReal) := by
  have e : ∀ c, Ideal.exp (s c - (μ' : EReal)) = ((ew (s c) μ' : ℝ) : EReal) := fun c => exp_sub_coe (hs c) μ'
  refine ⟨hμ, ?_, fun d => ?_⟩
  · show Ideal.exp (st.m - max st.m (Finset.univ.fold max ⊥ s)) * st.l
        + ∑ c : Fin 512, Ideal.exp (s c - max st.m (Finset.univ.fold max ⊥ s)) = _
    rw [hμ, hl, exp_sub_coe hm]
    simp_rw [e]
    rw [LibReal.coe_sum, ← EReal.coe_mul, ← EReal.coe_add]
  · show Ideal.exp (st.m - max st.m (Finset.univ.fold max ⊥ s)) * st.acc d
        + ∑ c : Fin 512, Ideal.exp (s c - max st.m (Finset.univ.fold max ⊥ s)) * vt c d = _
    rw [hμ, ha, exp_sub_coe hm]
    simp_rw [e, hv, ← EReal.coe_mul]
    rw [LibReal.coe_sum, ← EReal.coe_add]

/-! ## The tile scores are the causal scores -/

theorem tileScore_eq (q k : Mat SR) (a t : Fin 4) (r c : Fin 512) (ht : t.val ≤ a.val) :
    tileScore q k a t r c = mscoreB q k (pos a r) (pos t c) := by
  unfold tileScore mscoreB
  by_cases h : t = a
  · subst h
    rw [if_pos rfl]
    have hc : ((pos t c).val ≤ (pos t r).val) ↔ c.val ≤ r.val := by
      show t.val * 512 + c.val ≤ t.val * 512 + r.val ↔ _
      omega
    simp only [hc]
  · rw [if_neg h, if_pos]
    show t.val * 512 + c.val ≤ a.val * 512 + r.val
    have h1 : t.val < a.val := lt_of_le_of_ne ht (fun e => h (Fin.ext e))
    have h2 := c.isLt
    omega

/-! ## The invariant of the streaming state -/

/-- After the first n key tiles (n ≤ a + 1) of query row pos a r: the maximum is not +∞ (and is real once a tile
    has been visited), the two sums are real numbers L and A, and against every real reference μ' the sums rescaled
    by the weight of the maximum are the sums of the weights (times the value rows) over the keys visited. -/
theorem flash_inv (q k v : Mat SR) (a : Fin 4) (r : Fin 512) (V : Fin 2048 → Fin 128 → ℝ)
    (hV : ∀ j d, v (ix2 j d) = (V j d : EReal))
    (hST : ∀ j, mscoreB q k (pos a r) j ≠ ⊤)
    (hSB : ∀ j : Fin 2048, j.val ≤ (pos a r).val → mscoreB q k (pos a r) j ≠ ⊥)
    (n : ℕ) (hn : n ≤ a.val + 1) :
    (flashState q k v a r n).m ≠ ⊤ ∧ (1 ≤ n → (flashState q k v a r n).m ≠ ⊥) ∧
    ∃ (L : ℝ) (A : Fin 128 → ℝ), (flashState q k v a r n).l = (L : EReal)
      ∧ (∀ d, (flashState q k v a r n).acc d = (A d : EReal))
      ∧ ∀ μ' : ℝ, ew (flashState q k v a r n).m μ' * L = tsum n (fun j => ew (mscoreB q k (pos a r) j) μ')
        ∧ ∀ d, ew (flashState q k v a r n).m μ' * A d
            = tsum n (fun j => ew (mscoreB q k (pos a r) j) μ' * V j d) := by
  induction n with
  | zero =>
    refine ⟨bot_ne_top, fun h => absurd h (by norm_num), 0, fun _ => 0, EReal.coe_zero.symm,
      fun _ => EReal.coe_zero.symm, fun μ' => ⟨?_, fun d => ?_⟩⟩
    · rw [tsum_zero, mul_zero]
    · rw [tsum_zero, mul_zero]
  | succ n ih =>
    obtain ⟨hm, _, L, A, hl, ha, hinv⟩ := ih (by omega)
    have hna : n ≤ a.val := by omega
    have ha4 := a.isLt
    obtain ⟨t, htdef⟩ : ∃ t : Fin 4, t = (⟨n % 4, Nat.mod_lt _ (by decide)⟩ : Fin 4) := ⟨_, rfl⟩
    have htv : t.val = n := by rw [htdef]; exact Nat.mod_eq_of_lt (by omega)
    have hstep : flashState q k v a r (n + 1)
        = fstep (flashState q k v a r n) (tileScore q k a t r) (tileVal v t) := by rw [htdef]; rfl
    have hs : ∀ c, tileScore q k a t r c = mscoreB q k (pos a r) (pos t c) :=
      fun c => tileScore_eq q k a t r c (by omega)
    have hsT : ∀ c, tileScore q k a t r c ≠ ⊤ := fun c => by rw [hs]; exact hST _
    -- the new maximum is a real number: no score is +∞, and the tile's first key is not masked
    have hm'T : max (flashState q k v a r n).m (Finset.univ.fold max ⊥ (tileScore q k a t r)) ≠ ⊤ := by
      rcases max_choice (flashState q k v a r n).m (Finset.univ.fold max ⊥ (tileScore q k a t r)) with e | e
      · rw [e]; exact hm
      · rw [e]; exact fold_ne_top _ hsT
    have hm'B : max (flashState q k v a r n).m (Finset.univ.fold max ⊥ (tileScore q k a t r)) ≠ ⊥ := by
      have h0 : tileScore q k a t r 0 ≠ ⊥ := by
        rw [hs]; apply hSB
        show t.val * 512 + 0 ≤ a.val * 512 + r.val
        omega
      have hle : tileScore q k a t r 0
          ≤ max (flashState q k v a r n).m (Finset.univ.fold max ⊥ (tileScore q k a t r)) :=
        le_trans (le_fold _ 0) (le_max_right _ _)
      intro e
      rw [e] at hle
      exact h0 (le_bot_iff.mp hle)
    obtain ⟨μ', hμ'⟩ : ∃ μ' : ℝ,
        max (flashState q k v a r n).m (Finset.univ.fold max ⊥ (tileScore q k a t r)) = (μ' : EReal) :=
      ⟨_, (EReal.coe_toReal hm'T hm'B).symm⟩
    obtain ⟨h1, h2, h3⟩ := fstep_real (flashState q k v a r n) (tileScore q k a t r) (tileVal v t) L A
      (fun c d => V (pos t c) d) μ' hm hl ha hsT (fun c d => hV (pos t c) d) hμ'
    rw [hstep]
    refine ⟨by rw [h1]; exact EReal.coe_ne_top _, fun _ => by rw [h1]; exact EReal.coe_ne_bot _,
      _, _, h2, h3, fun μ'' => ?_⟩
    rw [h1, ew_coe]
    have e1 : tsum (n + 1) (fun j => ew (mscoreB q k (pos a r) j) μ')
        = tsum n (fun j => ew (mscoreB q k (pos a r) j) μ') + ∑ c : Fin 512, ew (mscoreB q k (pos a r) (pos t c)) μ' :=
      tsum_succ n t htv _
    refine ⟨?_, fun d => ?_⟩
    · rw [(hinv μ').1]
      simp_rw [hs]
      rw [← e1, mul_tsum]
      simp_rw [ew_rescale]
    · have e2 : tsum (n + 1) (fun j => ew (mscoreB q k (pos a r) j) μ' * V j d)
          = tsum n (fun j => ew (mscoreB q k (pos a r) j) μ' * V j d)
            + ∑ c : Fin 512, ew (mscoreB q k (pos a r) (pos t c)) μ' * V (pos t c) d :=
        tsum_succ n t htv _
      rw [(hinv μ').2 d]
      simp_rw [hs]
      rw [← e2, mul_tsum]
      simp_rw [← mul_assoc, ew_rescale]

/-! ## The softmax row, in real numbers -/

/-- The softmax-weighted sum of a row whose scores are not +∞ and whose maximum is a real M, the weights' sum not zero. -/
theorem softAV_real (S W : Fin 2048 → EReal) (Wr : Fin 2048 → ℝ) (M : ℝ)
    (hS : ∀ j, S j ≠ ⊤) (hW : ∀ j, W j = (Wr j : EReal))
    (hM : Finset.univ.fold max ⊥ S = (M : EReal)) (hZ : (∑ j : Fin 2048, ew (S j) M) ≠ 0) :
    softAV S W = ((∑ j : Fin 2048, ew (S j) M / (∑ j' : Fin 2048, ew (S j') M) * Wr j : ℝ) : EReal) := by
  have e : ∀ j, Ideal.exp (S j - (M : EReal)) = ((ew (S j) M : ℝ) : EReal) := fun j => exp_sub_coe (hS j) M
  unfold softAV
  rw [hM]
  simp_rw [e, hW]
  rw [LibReal.coe_sum]
  simp_rw [LibReal.div_coe_coe _ _ hZ, ← EReal.coe_mul]
  rw [LibReal.coe_sum]

/-! ## One query row -/

/-- Query row pos a r after its a + 1 key tiles: the streaming quotient is the softmax-weighted sum. -/
theorem flash_row (q k v : Mat SR) (hscore : ∀ i j, ∃ x : ℝ, scoreB q k i j = (x : EReal))
    (V : Fin 2048 → Fin 128 → ℝ) (hV : ∀ j d, v (ix2 j d) = (V j d : EReal))
    (a : Fin 4) (r : Fin 512) (d : Fin 128) :
    fout (flashState q k v a r (a.val + 1)) d
      = softAV (fun j => mscoreB q k (pos a r) j) (fun j => v (ix2 j d)) := by
  -- the causal scores: never +∞, real up to the query position, −∞ after it
  have hST : ∀ j, mscoreB q k (pos a r) j ≠ ⊤ := by
    intro j
    unfold mscoreB
    split_ifs
    · obtain ⟨x, hx⟩ := hscore (pos a r) j
      rw [hx]; exact EReal.coe_ne_top _
    · exact bot_ne_top
  have hSR : ∀ j : Fin 2048, j.val ≤ (pos a r).val → ∃ x : ℝ, mscoreB q k (pos a r) j = (x : EReal) := by
    intro j hj
    unfold mscoreB
    rw [if_pos hj]
    exact hscore _ _
  have hSB : ∀ j : Fin 2048, j.val ≤ (pos a r).val → mscoreB q k (pos a r) j ≠ ⊥ := by
    intro j hj
    obtain ⟨x, hx⟩ := hSR j hj
    rw [hx]; exact EReal.coe_ne_bot _
  have hSbot : ∀ j : Fin 2048, (pos a r).val < j.val → mscoreB q k (pos a r) j = ⊥ := by
    intro j hj
    unfold mscoreB
    rw [if_neg (by omega)]
  -- the state after a + 1 tiles
  obtain ⟨hmT, hmB, L, A, hl, hacc, hinv⟩ := flash_inv q k v a r V hV hST hSB (a.val + 1) le_rfl
  obtain ⟨μ, hμ⟩ : ∃ μ : ℝ, (flashState q k v a r (a.val + 1)).m = (μ : EReal) :=
    ⟨_, (EReal.coe_toReal hmT (hmB (by omega))).symm⟩
  -- the maximum of the whole row is a real number
  obtain ⟨xi, hxi⟩ := hSR (pos a r) le_rfl
  have hMT : Finset.univ.fold max ⊥ (fun j => mscoreB q k (pos a r) j) ≠ ⊤ := fold_ne_top _ hST
  have hMB : Finset.univ.fold max ⊥ (fun j => mscoreB q k (pos a r) j) ≠ ⊥ := by
    have hle := le_fold (fun j => mscoreB q k (pos a r) j) (pos a r)
    intro e
    rw [e] at hle
    exact hSB (pos a r) le_rfl (le_bot_iff.mp hle)
  obtain ⟨M, hM⟩ : ∃ M : ℝ, Finset.univ.fold max ⊥ (fun j => mscoreB q k (pos a r) j) = (M : EReal) :=
    ⟨_, (EReal.coe_toReal hMT hMB).symm⟩
  -- the keys after the visited tiles are masked
  have hrl := r.isLt
  have hvan : ∀ j : Fin 2048, 512 * (a.val + 1) ≤ j.val → ew (mscoreB q k (pos a r) j) M = 0 := by
    intro j hj
    rw [hSbot j (by show a.val * 512 + r.val < j.val; omega), ew_bot]
  have hZ : Real.exp (μ - M) * L = ∑ j : Fin 2048, ew (mscoreB q k (pos a r) j) M := by
    have h := (hinv M).1
    rw [hμ, ew_coe] at h
    rw [h]
    exact tsum_full _ _ hvan
  have hN : Real.exp (μ - M) * A d = ∑ j : Fin 2048, ew (mscoreB q k (pos a r) j) M * V j d := by
    have h := (hinv M).2 d
    rw [hμ, ew_coe] at h
    rw [h]
    exact tsum_full _ _ (fun j hj => by rw [hvan j hj, zero_mul])
  -- the sum of the weights is positive: the query's own key is not masked
  have hZpos : 0 < ∑ j : Fin 2048, ew (mscoreB q k (pos a r) j) M := by
    apply Finset.sum_pos' (fun j _ => ew_nonneg _ _)
    exact ⟨pos a r, Finset.mem_univ _, by rw [hxi]; exact ew_pos _ _⟩
  have hL : L ≠ 0 := by
    intro e
    rw [e, mul_zero] at hZ
    rw [← hZ] at hZpos
    exact lt_irrefl _ hZpos
  have hE : Real.exp (μ - M) ≠ 0 := (Real.exp_pos _).ne'
  rw [softAV_real _ _ (fun j => V j d) M hST (fun j => hV j d) hM hZpos.ne']
  show Ideal.div ((flashState q k v a r (a.val + 1)).acc d) (flashState q k v a r (a.val + 1)).l = _
  rw [hacc, hl, LibReal.div_coe_coe _ _ hL]
  congr 1
  -- the common factor e^(μ − M) cancels
  rw [← mul_div_mul_left (A d) L hE, hZ, hN, Finset.sum_div]
  refine Finset.sum_congr rfl fun j _ => ?_
  rw [div_mul_eq_mul_div]

/-! ## The two forms agree -/

/-- On blocks of real numbers the streaming attention is the softmax attention. -/
theorem flashRot_eq_headRot (q k v : Mat SR) (hq : AllReal q) (hk : AllReal k) (hv : AllReal v) :
    flashRot q k v = headRot q k v := by
  obtain ⟨sr, hsr⟩ := scale_real
  choose qr hqr using hq
  choose kr hkr using hk
  choose vr hvr using hv
  have hscore : ∀ i j, ∃ x : ℝ, scoreB q k i j = (x : EReal) := fun i j =>
    ⟨(∑ d : Fin 128, qr (ix2 i d) * kr (ix2 j d)) * sr, by
      unfold scoreB
      simp_rw [hqr, hkr, ← EReal.coe_mul]
      rw [LibReal.coe_sum, hsr, ← EReal.coe_mul]⟩
  funext y
  have h0 : (y 0).val < 2048 := (y 0).isLt
  have hpos : pos (⟨(y 0).val / 512, by omega⟩ : Fin 4) (⟨(y 0).val % 512, Nat.mod_lt _ (by decide)⟩ : Fin 512) = y 0 :=
    Fin.ext (by show (y 0).val / 512 * 512 + (y 0).val % 512 = (y 0).val; omega)
  have hrow := flash_row q k v hscore (fun j d => vr (ix2 j d)) (fun j d => hvr (ix2 j d))
    (⟨(y 0).val / 512, by omega⟩ : Fin 4) (⟨(y 0).val % 512, Nat.mod_lt _ (by decide)⟩ : Fin 512) (y 1)
  rw [hpos] at hrow
  exact hrow

end Cert.Spec

end
-- ==== Proof.FiniteSpec.lean ====
/-
  Real entries are kept by every step before the attention: a product x·wᵀ of real matrices is real (a finite sum
  of products of reals), a block of a real array is real, the rotation of a real block by a real table is real, the
  flattening of a real array and the packing of two real tables are real. With these, the streaming and the softmax
  form of the whole computation agree on real inputs.
-/
import proofs.«424713_j70128226009183_3_alg».proof.Proof.Spec
import proofs.«424713_j70128226009183_3_alg».proof.Proof.FlashAlg
import proofs.«424713_j70128226009183_3_alg».proof.Proof.LibReal

noncomputable section

open scoped BigOperators

namespace Cert.Spec

open Idealize.ShloMosaic Idealize.ShloMosaic.ValueIdx

/-- The product of two reals is a real. -/
private theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

/-- The sum of two reals is a real. -/
private theorem real_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

/-- The difference of two reals is a real. -/
private theorem real_sub {a b : EReal} (ha : ∃ r : ℝ, a = (r : EReal)) (hb : ∃ r : ℝ, b = (r : EReal)) :
    ∃ r : ℝ, a - b = (r : EReal) := by
  obtain ⟨p, rfl⟩ := ha
  obtain ⟨q, rfl⟩ := hb
  exact ⟨p - q, (EReal.coe_sub p q).symm⟩

theorem mmT_real (x w : Mat SM) (hx : AllReal x) (hw : AllReal w) : AllReal (mmT x w) := by
  intro i
  choose fx hfx using hx
  choose fw hfw using hw
  -- the entry is the sum over d of the real products fx(r, d)·fw(e, d)
  refine ⟨∑ d : Fin 4096, fx (ix2 (i 0) d) * fw (ix2 (i 1) d), ?_⟩
  have hsum := Cert.LibReal.coe_sum (Finset.univ : Finset (Fin 4096))
    (fun d => fx (ix2 (i 0) d) * fw (ix2 (i 1) d))
  show (∑ d : Fin 4096, x (ix2 (i 0) d) * w (ix2 (i 1) d)) = _
  rw [← hsum]
  refine Finset.sum_congr rfl (fun d _ => ?_)
  rw [hfx, hfw, EReal.coe_mul]

theorem flat_real (x : Mat S3) (hx : AllReal x) : AllReal (flat x) := by
  intro i
  unfold flat
  exact hx _

theorem cat_real (a b : Mat SC) (ha : AllReal a) (hb : AllReal b) : AllReal (cat a b) := by
  intro i
  dsimp only [cat]
  split
  · exact ha _
  · exact hb _

theorem blockOf_real (a : Mat SM) (ha : AllReal a) (b : Fin 2) (h : Fin 32) : AllReal (blockOf a b h) := by
  intro y
  unfold blockOf
  exact ha _

theorem ropeB_real (t rp : Mat SR) (ht : AllReal t) (hr : AllReal rp) : AllReal (ropeB t rp) := by
  intro i
  dsimp only [ropeB]
  split
  · exact real_sub (real_mul (ht _) (hr _)) (real_mul (ht _) (hr _))
  · exact real_add (real_mul (ht _) (hr _)) (real_mul (ht _) (hr _))

/-- On real inputs the streaming form and the softmax form of the whole computation are one function. -/
theorem outFlash_eq_outSoft (x : Mat S3) (cs sn : Mat SC) (wq wk wv wo : Mat SM)
    (hx : AllReal x) (hcs : AllReal cs) (hsn : AllReal sn) (hwq : AllReal wq) (hwk : AllReal wk) (hwv : AllReal wv) :
    outFlash x cs sn wq wk wv wo = outSoft x cs sn wq wk wv wo := by
  -- the three projections of the flattened input and the packed table are real
  have hQ := mmT_real (flat x) wq (flat_real x hx) hwq
  have hK := mmT_real (flat x) wk (flat_real x hx) hwk
  have hV := mmT_real (flat x) wv (flat_real x hx) hwv
  have hrp := cat_real cs sn hcs hsn
  -- head by head, the rotated blocks are real, so the two forms of one head's attention agree
  have hper : perHead flashB (mmT (flat x) wq) (mmT (flat x) wk) (mmT (flat x) wv) (cat cs sn)
      = perHead headB (mmT (flat x) wq) (mmT (flat x) wk) (mmT (flat x) wv) (cat cs sn) := by
    funext i
    dsimp only [perHead, flashB, headB]
    exact congrFun (flashRot_eq_headRot _ _ _
      (ropeB_real _ _ (blockOf_real _ hQ _ _) hrp)
      (ropeB_real _ _ (blockOf_real _ hK _ _) hrp)
      (blockOf_real _ hV _ _)) _
  unfold outFlash outSoft out2d
  rw [hper]

end Cert.Spec

end
-- ==== Proof.FinitePre.lean ====
/-
  The precondition says every entry of every input array is finite; over the extended reals a finite entry is a
  real number.
-/
import proofs.«424713_j70128226009183_3_alg».proof.Defs
import proofs.«424713_j70128226009183_3_alg».proof.Proof.Gen.Pre_finite_inputs
import proofs.«424713_j70128226009183_3_alg».proof.Proof.Spec
import Idealize.ShloMosaic.Lib.ReduceAll

noncomputable section

namespace Cert.Proof.Finite

open Idealize.ShloMosaic Idealize.ShloMosaic.TcCoe Idealize.SL.Sem Cert.KernelIdeal

/-- An extended real whose absolute value is below +∞ is a real number: the single-precision word 0x7F800000 is +∞,
    and the absolute value of either infinity is +∞. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  unfold Ideal.cmp at h
  induction a with
  | bot => simp at h
  | coe r => exact ⟨r, rfl⟩
  | top => simp at h

/-- A conjunction of two one-bit arrays that is 1 at an index: both are 1 there. -/
theorem andi_at_eq_one {s : Shape} (a b : IVec s 1) (i : s.Idx) (h : andi a b i = 1#1) : a i = 1#1 ∧ b i = 1#1 :=
  IntOp.andi_eq_one.1 (show IntOp.andi (a i) (b i) = 1#1 from h)

/-- One array of any shape: if "every |x| is below +∞" reduces to 1, every entry of x is a real number. -/
theorem allReal_of_all {S : Shape} {axes : List (Fin S.rank)}
    (bc : Cert.Pre_finite_inputs.S_.BroadcastsInDim S (![] : Fin 0 → Fin S.rank))
    (rd : S.ReducesTo axes Cert.Pre_finite_inputs.S_) (hu : 0 < Cert.Pre_finite_inputs.S_.numel)
    (x : FVec Ideal S .f32) (init : IVec Cert.Pre_finite_inputs.S_ 1) (j : Cert.Pre_finite_inputs.S_.Idx)
    (e : Host.reduce IntOp.andi
          (cmpf .olt (Host.absf x) (broadcastInDim S ![] bc (constant Cert.Pre_finite_inputs.S_ .f32 0x7F800000#32)))
          init rd hu j = 1#1) :
    Cert.Spec.AllReal (S := S) x := by
  intro i
  -- the rank-0 shape has a single index, so every entry of x reduces into the one result
  haveI : Subsingleton Cert.Pre_finite_inputs.S_.Idx := ⟨fun a b => funext fun d => d.elim0⟩
  exact real_of_abs_lt_top (x i) (Host.reduce_andi_all _ init rd hu j e i)

/-- Under the precondition every argument array of the idealized kernel program holds real numbers. -/
theorem pre_real [hP : Cert.Pre_finite_inputs.Facts] (m : (ℓ : Loc nD τ sig) → Buf (Elt Ideal) ℓ)
    (h : Cert.Pre_KernelIdeal m) (c : Dev nD) :
    Cert.Spec.AllReal (S := Cert.Spec.S3) (m ((c.tc : Thread nD τ).loc main_arg0))
    ∧ Cert.Spec.AllReal (S := Cert.Spec.SC) (m ((c.tc : Thread nD τ).loc main_arg1))
    ∧ Cert.Spec.AllReal (S := Cert.Spec.SC) (m ((c.tc : Thread nD τ).loc main_arg2))
    ∧ Cert.Spec.AllReal (S := Cert.Spec.SM) (m ((c.tc : Thread nD τ).loc main_arg3))
    ∧ Cert.Spec.AllReal (S := Cert.Spec.SM) (m ((c.tc : Thread nD τ).loc main_arg4))
    ∧ Cert.Spec.AllReal (S := Cert.Spec.SM) (m ((c.tc : Thread nD τ).loc main_arg5))
    ∧ Cert.Spec.AllReal (S := Cert.Spec.SM) (m ((c.tc : Thread nD τ).loc main_arg6)) := by
  -- the predicate at its one index, spelled out: a conjunction of seven "all |x| < +∞"
  have h0 := congrFun (h c) ValueIdx.ix0
  dsimp only [Cert.Pre_finite_inputs.fn, Cert.Pre_finite_inputs.fn_part1] at h0
  obtain ⟨h0, e6⟩ := andi_at_eq_one _ _ _ h0
  obtain ⟨h0, e5⟩ := andi_at_eq_one _ _ _ h0
  obtain ⟨h0, e4⟩ := andi_at_eq_one _ _ _ h0
  obtain ⟨h0, e3⟩ := andi_at_eq_one _ _ _ h0
  obtain ⟨h0, e2⟩ := andi_at_eq_one _ _ _ h0
  obtain ⟨e0, e1⟩ := andi_at_eq_one _ _ _ h0
  exact ⟨allReal_of_all _ _ _ _ _ _ e0, allReal_of_all _ _ _ _ _ _ e1, allReal_of_all _ _ _ _ _ _ e2,
    allReal_of_all _ _ _ _ _ _ e3, allReal_of_all _ _ _ _ _ _ e4, allReal_of_all _ _ _ _ _ _ e5,
    allReal_of_all _ _ _ _ _ _ e6⟩

end Cert.Proof.Finite

end
-- ==== Proof.lean ====
/-
  The certificate that the attention kernel and its reference compute one function over the extended reals.

  Both programs run to completion leaving their arguments as launched: the kernel's word-level and idealized
  programs by their generated frame certificates, the reference by its generated run. The idealized kernel differs
  from the kernel as printed in one constant, the mask's finite stand-in for −∞, named −∞ at four sites. The
  idealized kernel's result is the streaming form of causal attention (projections x·wᵀ, rotation of the query and
  key blocks, per query tile a running maximum, sum and weighted sum over the key tiles up to the diagonal, the output
  projection); the reference's result is the softmax form of the same computation. On inputs whose entries are all
  real numbers — which the precondition gives — the two forms agree.
-/
import proofs.«424713_j70128226009183_3_alg».proof.Defs
import proofs.«424713_j70128226009183_3_alg».proof.Proof.Gen.Kernel
import proofs.«424713_j70128226009183_3_alg».proof.Proof.Gen.Kernel.Frame
import proofs.«424713_j70128226009183_3_alg».proof.Proof.Gen.KernelIdeal
import proofs.«424713_j70128226009183_3_alg».proof.Proof.Gen.KernelIdeal.Frame
import proofs.«424713_j70128226009183_3_alg».proof.Proof.Gen.ReferenceIdeal
import proofs.«424713_j70128226009183_3_alg».proof.Proof.Gen.ReferenceIdeal.Run
import proofs.«424713_j70128226009183_3_alg».proof.Proof.Gen.Pre_finite_inputs
import proofs.«424713_j70128226009183_3_alg».proof.Proof.RunValue
import proofs.«424713_j70128226009183_3_alg».proof.Proof.KernelChain
import proofs.«424713_j70128226009183_3_alg».proof.Proof.RefOut
import proofs.«424713_j70128226009183_3_alg».proof.Proof.FiniteSpec
import proofs.«424713_j70128226009183_3_alg».proof.Proof.FinitePre
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The mask's stand-in constant is −∞ by the certificate's table, at each of its four sites. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

/-- From memories agreeing on the arguments both idealized programs end with the softmax form of the computation of
    the arguments: the kernel's streaming form equals it because the precondition makes every input entry real. -/
theorem algebraic : Cert.algebraic_KernelIdeal_ReferenceIdeal := by
  intro m ρ m' ρ' hpre hagree
  refine ⟨fun c => Cert.Spec.outSoft (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨?_, (h c).2⟩) (Cert.KernelIdeal.Val.run_value (F := Ideal) m ρ)
    obtain ⟨h0, h1, h2, h3, h4, h5, _⟩ := Cert.Proof.Finite.pre_real m hpre c
    exact ((h c).1.trans (Cert.KernelIdeal.Val.kernel_value m ρ c)).trans
      (Cert.Spec.outFlash_eq_outSoft _ _ _ _ _ _ _ h0 h1 h2 h3 h4 h5)
  · refine (θ_run Cert.ReferenceIdeal.defs _ _).mono (fun r h c => ⟨?_, (h c).2⟩) (Cert.ReferenceIdeal.Value.run (F := Ideal) m' ρ')
    refine ((h c).1.trans (Cert.ReferenceIdeal.RefValue.ref_value m' c)).trans ?_
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
